-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x512 : Shape := ⟨3, ![32, 4096, 512]⟩
abbrev S32x128 : Shape := ⟨2, ![32, 128]⟩
abbrev S_ : Shape := ⟨0, ![]⟩

class Facts : Prop where
  bcast_S_S32x4096x512 : S_.BroadcastsInDim S32x4096x512 (![] : Fin 0 → Fin S32x4096x512.rank)
  reducesTo_S32x4096x512_S_d0_1_2 : S32x4096x512.ReducesTo [0, 1, 2] S_
  h_S_ : 0 < S_.numel
  bcast_S_S32x128 : S_.BroadcastsInDim S32x128 (![] : Fin 0 → Fin S32x128.rank)
  reducesTo_S32x128_S_d0_1 : S32x128.ReducesTo [0, 1] S_

variable [Facts]

def fn {F : FTy → Type} [FloatOps F] (main_arg0 : FVec F S32x4096x512 .f32) (main_arg1 : IVec S32x128 32) : IVec S_ 1 :=
  let main_v0 : FVec F S32x4096x512 .f32 := Host.absf main_arg0
  let main_cst : FVec F S_ .f32 := constant S_ .f32 0x7F800000#32
  let main_v1 : FVec F S32x4096x512 .f32 := broadcastInDim S32x4096x512 ![] bcast_S_S32x4096x512 main_cst
  let main_v2 : IVec S32x4096x512 1 := cmpf .olt main_v0 main_v1
  let main_c : IVec S_ 1 := constantI S_ 1 1#1
  let main_v3 : IVec S_ 1 := (fun x v => Host.reduce IntOp.andi x v reducesTo_S32x4096x512_S_d0_1_2 h_S_) main_v2 main_c
  let main_c_0 : IVec S_ 32 := constantI S_ 32 0#32
  let main_v4 : IVec S32x128 32 := broadcastInDim S32x128 ![] bcast_S_S32x128 main_c_0
  let main_v5 : IVec S32x128 1 := cmpi .sge main_arg1 main_v4
  let main_c_1 : IVec S_ 32 := constantI S_ 32 4096#32
  let main_v6 : IVec S32x128 32 := broadcastInDim S32x128 ![] bcast_S_S32x128 main_c_1
  let main_v7 : IVec S32x128 1 := cmpi .slt main_arg1 main_v6
  let main_v8 : IVec S32x128 1 := andi main_v5 main_v7
  let main_c_2 : IVec S_ 1 := constantI S_ 1 1#1
  let main_v9 : IVec S_ 1 := (fun x v => Host.reduce IntOp.andi x v reducesTo_S32x128_S_d0_1 h_S_) main_v8 main_c_2
  let main_v10 : IVec S_ 1 := andi main_v3 main_v9
  main_v10
-- ==== Kernel.lean ====
abbrev S32x4096x512 : Shape := ⟨3, ![32, 4096, 512]⟩
abbrev S32x128 : Shape := ⟨2, ![32, 128]⟩
abbrev S_ : Shape := ⟨0, ![]⟩
abbrev S32x128x512 : Shape := ⟨3, ![32, 128, 512]⟩
abbrev S1x4096x512 : Shape := ⟨3, ![1, 4096, 512]⟩
abbrev S1x128x512 : Shape := ⟨3, ![1, 128, 512]⟩
abbrev S1x1 : Shape := ⟨2, ![1, 1]⟩
abbrev S1x1x512 : Shape := ⟨3, ![1, 1, 512]⟩
abbrev S512 : Shape := ⟨1, ![512]⟩

abbrev nBuf : Space → Nat
  | .hbm => 10
  | .vmem => 4
  | .smem => 1
  | _ => 0

abbrev bufTy : (tb : Table) → Fin (tcTables nBuf tb) → BufTy
  | .hbm, ⟨0, _⟩ => ⟨S32x4096x512, .f32⟩
  | .hbm, ⟨1, _⟩ => ⟨S32x128, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S32x128, .i32⟩
  | .hbm, ⟨6, _⟩ => ⟨S32x128, .i32⟩
  | .hbm, ⟨7, _⟩ => ⟨S_, .i32⟩
  | .hbm, ⟨8, _⟩ => ⟨S32x128, .i32⟩
  | .hbm, ⟨9, _⟩ => ⟨S32x128x512, .f32⟩
  | .local _ .vmem, ⟨0, _⟩ => ⟨S1x4096x512, .f32⟩
  | .local _ .vmem, ⟨1, _⟩ => ⟨S1x4096x512, .f32⟩
  | .local _ .vmem, ⟨2, _⟩ => ⟨S1x128x512, .f32⟩
  | .local _ .vmem, ⟨3, _⟩ => ⟨S1x128x512, .f32⟩
  | .local _ .smem, ⟨0, _⟩ => ⟨S32x128, .i32⟩
  | _, _ => ⟨S32x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v1 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let c0_i32 : BitVec 32 := 0#32
  let v1 : Index := Scalar.indexCast c0_i32
  ![v0.toNat, 0]
def k0_off2 (v2 : BitVec 32) : Fin 3 → Nat :=
  let c0 : Index := 0#32
  let v3 : Index := Scalar.indexCast v2
  let c0_0 : Index := 0#32
  ![0, v3.toNat, 0]

def k0_chk1 (v2 : BitVec 32) : Prop :=
  (∀ a, (k0_off2 v2) a + S1x1x512.size a ≤ S1x4096x512.size a)
instance k0_chk1.dec : ∀ (v2 : BitVec 32), Decidable (k0_chk1 v2) := fun v2 => decidable_of_iff' _ (Iff.of_eq (k0_chk1.eq_1 v2))
theorem k0_off2_inb : ∀ (v2 : BitVec 32) (k0_hw1 : k0_chk1 v2), ∀ a, (k0_off2 v2) a + S1x1x512.size a ≤ S1x4096x512.size a := fun v2 k0_hw1 => k0_hw1

def k0_off3 (i : grid0.Coords) : Fin 2 → Nat :=
  let arg0 : BitVec 32 := BitVec.ofNat 32 (i 0).val
  let v10 : Index := Scalar.indexCast arg0
  let c1_i32 : BitVec 32 := 1#32
  let v11 : Index := Scalar.indexCast c1_i32
  ![v10.toNat, 1]
def k0_off4 (v12 : BitVec 32) : Fin 3 → Nat :=
  let c0_3 : Index := 0#32
  let v13 : Index := Scalar.indexCast v12
  let c0_4 : Index := 0#32
  ![0, v13.toNat, 0]

def k0_chk2 (v12 : BitVec 32) : Prop :=
  (∀ a, (k0_off4 v12) a + S1x1x512.size a ≤ S1x4096x512.size a)
instance k0_chk2.dec : ∀ (v12 : BitVec 32), Decidable (k0_chk2 v12) := fun v12 => decidable_of_iff' _ (Iff.of_eq (k0_chk2.eq_1 v12))
theorem k0_off4_inb : ∀ (v12 : BitVec 32) (k0_hw2 : k0_chk2 v12), ∀ a, (k0_off4 v12) a + S1x1x512.size a ≤ S1x4096x512.size a := fun v12 k0_hw2 => k0_hw2

def k0_off5 (i : grid0.Coords) : Fin 2 → Nat :=
  let arg0 : BitVec 32 := BitVec.ofNat 32 (i 0).val
  let v20 : Index := Scalar.indexCast arg0
  let c2_i32 : BitVec 32 := 2#32
  let v21 : Index := Scalar.indexCast c2_i32
  ![v20.toNat, 2]
def k0_off6 (v22 : BitVec 32) : Fin 3 → Nat :=
  let c0_7 : Index := 0#32
  let v23 : Index := Scalar.indexCast v22
  let c0_8 : Index := 0#32
  ![0, v23.toNat, 0]

def k0_chk3 (v22 : BitVec 32) : Prop :=
  (∀ a, (k0_off6 v22) a + S1x1x512.size a ≤ S1x4096x512.size a)
instance k0_chk3.dec : ∀ (v22 : BitVec 32), Decidable (k0_chk3 v22) := fun v22 => decidable_of_iff' _ (Iff.of_eq (k0_chk3.eq_1 v22))
theorem k0_off6_inb : ∀ (v22 : BitVec 32) (k0_hw3 : k0_chk3 v22), ∀ a, (k0_off6 v22) a + S1x1x512.size a ≤ S1x4096x512.size a := fun v22 k0_hw3 => k0_hw3

def k0_off7 (i : grid0.Coords) : Fin 2 → Nat :=
  let arg0 : BitVec 32 := BitVec.ofNat 32 (i 0).val
  let v30 : Index := Scalar.indexCast arg0
  let c3_i32 : BitVec 32 := 3#32
  let v31 : Index := Scalar.indexCast c3_i32
  ![v30.toNat, 3]
def k0_off8 (v32 : BitVec 32) : Fin 3 → Nat :=
  let c0_11 : Index := 0#32
  let v33 : Index := Scalar.indexCast v32
  let c0_12 : Index := 0#32
  ![0, v33.toNat, 0]

def k0_chk4 (v32 : BitVec 32) : Prop :=
  (∀ a, (k0_off8 v32) a + S1x1x512.size a ≤ S1x4096x512.size a)
instance k0_chk4.dec : ∀ (v32 : BitVec 32), Decidable (k0_chk4 v32) := fun v32 => decidable_of_iff' _ (Iff.of_eq (k0_chk4.eq_1 v32))
theorem k0_off8_inb : ∀ (v32 : BitVec 32) (k0_hw4 : k0_chk4 v32), ∀ a, (k0_off8 v32) a + S1x1x512.size a ≤ S1x4096x512.size a := fun v32 k0_hw4 => k0_hw4

def k0_off9 (i : grid0.Coords) : Fin 2 → Nat :=
  let arg0 : BitVec 32 := BitVec.ofNat 32 (i 0).val
  let v40 : Index := Scalar.indexCast arg0
  let c4_i32 : BitVec 32 := 4#32
  let v41 : Index := Scalar.indexCast c4_i32
  ![v40.toNat, 4]
def k0_off10 (v42 : BitVec 32) : Fin 3 → Nat :=
  let c0_15 : Index := 0#32
  let v43 : Index := Scalar.indexCast v42
  let c0_16 : Index := 0#32
  ![0, v43.toNat, 0]

def k0_chk5 (v42 : BitVec 32) : Prop :=
  (∀ a, (k0_off10 v42) a + S1x1x512.size a ≤ S1x4096x512.size a)
instance k0_chk5.dec : ∀ (v42 : BitVec 32), Decidable (k0_chk5 v42) := fun v42 => decidable_of_iff' _ (Iff.of_eq (k0_chk5.eq_1 v42))
theorem k0_off10_inb : ∀ (v42 : BitVec 32) (k0_hw5 : k0_chk5 v42), ∀ a, (k0_off10 v42) a + S1x1x512.size a ≤ S1x4096x512.size a := fun v42 k0_hw5 => k0_hw5

def k0_off11 (i : grid0.Coords) : Fin 2 → Nat :=
  let arg0 : BitVec 32 := BitVec.ofNat 32 (i 0).val
  let v50 : Index := Scalar.indexCast arg0
  let c5_i32 : BitVec 32 := 5#32
  let v51 : Index := Scalar.indexCast c5_i32
  ![v50.toNat, 5]
def k0_off12 (v52 : BitVec 32) : Fin 3 → Nat :=
  let c0_19 : Index := 0#32
  let v53 : Index := Scalar.indexCast v52
  let c0_20 : Index := 0#32
  ![0, v53.toNat, 0]

def k0_chk6 (v52 : BitVec 32) : Prop :=
  (∀ a, (k0_off12 v52) a + S1x1x512.size a ≤ S1x4096x512.size a)
instance k0_chk6.dec : ∀ (v52 : BitVec 32), Decidable (k0_chk6 v52) := fun v52 => decidable_of_iff' _ (Iff.of_eq (k0_chk6.eq_1 v52))
theorem k0_off12_inb : ∀ (v52 : BitVec 32) (k0_hw6 : k0_chk6 v52), ∀ a, (k0_off12 v52) a + S1x1x512.size a ≤ S1x4096x512.size a := fun v52 k0_hw6 => k0_hw6

def k0_off13 (i : grid0.Coords) : Fin 2 → Nat :=
  let arg0 : BitVec 32 := BitVec.ofNat 32 (i 0).val
  let v60 : Index := Scalar.indexCast arg0
  let c6_i32 : BitVec 32 := 6#32
  let v61 : Index := Scalar.indexCast c6_i32
  ![v60.toNat, 6]
def k0_off14 (v62 : BitVec 32) : Fin 3 → Nat :=
  let c0_23 : Index := 0#32
  let v63 : Index := Scalar.indexCast v62
  let c0_24 : Index := 0#32
  ![0, v63.toNat, 0]

def k0_chk7 (v62 : BitVec 32) : Prop :=
  (∀ a, (k0_off14 v62) a + S1x1x512.size a ≤ S1x4096x512.size a)
instance k0_chk7.dec : ∀ (v62 : BitVec 32), Decidable (k0_chk7 v62) := fun v62 => decidable_of_iff' _ (Iff.of_eq (k0_chk7.eq_1 v62))
theorem k0_off14_inb : ∀ (v62 : BitVec 32) (k0_hw7 : k0_chk7 v62), ∀ a, (k0_off14 v62) a + S1x1x512.size a ≤ S1x4096x512.size a := fun v62 k0_hw7 => k0_hw7

def k0_off15 (i : grid0.Coords) : Fin 2 → Nat :=
  let arg0 : BitVec 32 := BitVec.ofNat 32 (i 0).val
  let v70 : Index := Scalar.indexCast arg0
  let c7_i32 : BitVec 32 := 7#32
  let v71 : Index := Scalar.indexCast c7_i32
  ![v70.toNat, 7]
def k0_off16 (v72 : BitVec 32) : Fin 3 → Nat :=
  let c0_27 : Index := 0#32
  let v73 : Index := Scalar.indexCast v72
  let c0_28 : Index := 0#32
  ![0, v73.toNat, 0]

def k0_chk8 (v72 : BitVec 32) : Prop :=
  (∀ a, (k0_off16 v72) a + S1x1x512.size a ≤ S1x4096x512.size a)
instance k0_chk8.dec : ∀ (v72 : BitVec 32), Decidable (k0_chk8 v72) := fun v72 => decidable_of_iff' _ (Iff.of_eq (k0_chk8.eq_1 v72))
theorem k0_off16_inb : ∀ (v72 : BitVec 32) (k0_hw8 : k0_chk8 v72), ∀ a, (k0_off16 v72) a + S1x1x512.size a ≤ S1x4096x512.size a := fun v72 k0_hw8 => k0_hw8

def k0_off17 (i : grid0.Coords) : Fin 2 → Nat :=
  let arg0 : BitVec 32 := BitVec.ofNat 32 (i 0).val
  let v80 : Index := Scalar.indexCast arg0
  let c8_i32 : BitVec 32 := 8#32
  let v81 : Index := Scalar.indexCast c8_i32
  ![v80.toNat, 8]
def k0_off18 (v82 : BitVec 32) : Fin 3 → Nat :=
  let c0_31 : Index := 0#32
  let v83 : Index := Scalar.indexCast v82
  let c0_32 : Index := 0#32
  ![0, v83.toNat, 0]

def k0_chk9 (v82 : BitVec 32) : Prop :=
  (∀ a, (k0_off18 v82) a + S1x1x512.size a ≤ S1x4096x512.size a)
instance k0_chk9.dec : ∀ (v82 : BitVec 32), Decidable (k0_chk9 v82) := fun v82 => decidable_of_iff' _ (Iff.of_eq (k0_chk9.eq_1 v82))
theorem k0_off18_inb : ∀ (v82 : BitVec 32) (k0_hw9 : k0_chk9 v82), ∀ a, (k0_off18 v82) a + S1x1x512.size a ≤ S1x4096x512.size a := fun v82 k0_hw9 => k0_hw9

def k0_off19 (i : grid0.Coords) : Fin 2 → Nat :=
  let arg0 : BitVec 32 := BitVec.ofNat 32 (i 0).val
  let v90 : Index := Scalar.indexCast arg0
  let c9_i32 : BitVec 32 := 9#32
  let v91 : Index := Scalar.indexCast c9_i32
  ![v90.toNat, 9]
def k0_off20 (v92 : BitVec 32) : Fin 3 → Nat :=
  let c0_35 : Index := 0#32
  let v93 : Index := Scalar.indexCast v92
  let c0_36 : Index := 0#32
  ![0, v93.toNat, 0]

def k0_chk10 (v92 : BitVec 32) : Prop :=
  (∀ a, (k0_off20 v92) a + S1x1x512.size a ≤ S1x4096x512.size a)
instance k0_chk10.dec : ∀ (v92 : BitVec 32), Decidable (k0_chk10 v92) := fun v92 => decidable_of_iff' _ (Iff.of_eq (k0_chk10.eq_1 v92))
theorem k0_off20_inb : ∀ (v92 : BitVec 32) (k0_hw10 : k0_chk10 v92), ∀ a, (k0_off20 v92) a + S1x1x512.size a ≤ S1x4096x512.size a := fun v92 k0_hw10 => k0_hw10

def k0_off21 (i : grid0.Coords) : Fin 2 → Nat :=
  let arg0 : BitVec 32 := BitVec.ofNat 32 (i 0).val
  let v100 : Index := Scalar.indexCast arg0
  let c10_i32 : BitVec 32 := 10#32
  let v101 : Index := Scalar.indexCast c10_i32
  ![v100.toNat, 10]
def k0_off22 (v102 : BitVec 32) : Fin 3 → Nat :=
  let c0_39 : Index := 0#32
  let v103 : Index := Scalar.indexCast v102
  let c0_40 : Index := 0#32
  ![0, v103.toNat, 0]

def k0_chk11 (v102 : BitVec 32) : Prop :=
  (∀ a, (k0_off22 v102) a + S1x1x512.size a ≤ S1x4096x512.size a)
instance k0_chk11.dec : ∀ (v102 : BitVec 32), Decidable (k0_chk11 v102) := fun v102 => decidable_of_iff' _ (Iff.of_eq (k0_chk11.eq_1 v102))
theorem k0_off22_inb : ∀ (v102 : BitVec 32) (k0_hw11 : k0_chk11 v102), ∀ a, (k0_off22 v102) a + S1x1x512.size a ≤ S1x4096x512.size a := fun v102 k0_hw11 => k0_hw11

def k0_off23 (i : grid0.Coords) : Fin 2 → Nat :=
  let arg0 : BitVec 32 := BitVec.ofNat 32 (i 0).val
  let v110 : Index := Scalar.indexCast arg0
  let c11_i32 : BitVec 32 := 11#32
  let v111 : Index := Scalar.indexCast c11_i32
  ![v110.toNat, 11]
def k0_off24 (v112 : BitVec 32) : Fin 3 → Nat :=
  let c0_43 : Index := 0#32
  let v113 : Index := Scalar.indexCast v112
  let c0_44 : Index := 0#32
  ![0, v113.toNat, 0]

def k0_chk12 (v112 : BitVec 32) : Prop :=
  (∀ a, (k0_off24 v112) a + S1x1x512.size a ≤ S1x4096x512.size a)
instance k0_chk12.dec : ∀ (v112 : BitVec 32), Decidable (k0_chk12 v112) := fun v112 => decidable_of_iff' _ (Iff.of_eq (k0_chk12.eq_1 v112))
theorem k0_off24_inb : ∀ (v112 : BitVec 32) (k0_hw12 : k0_chk12 v112), ∀ a, (k0_off24 v112) a + S1x1x512.size a ≤ S1x4096x512.size a := fun v112 k0_hw12 => k0_hw12

def k0_off25 (i : grid0.Coords) : Fin 2 → Nat :=
  let arg0 : BitVec 32 := BitVec.ofNat 32 (i 0).val
  let v120 : Index := Scalar.indexCast arg0
  let c12_i32 : BitVec 32 := 12#32
  let v121 : Index := Scalar.indexCast c12_i32
  ![v120.toNat, 12]
def k0_off26 (v122 : BitVec 32) : Fin 3 → Nat :=
  let c0_47 : Index := 0#32
  let v123 : Index := Scalar.indexCast v122
  let c0_48 : Index := 0#32
  ![0, v123.toNat, 0]

def k0_chk13 (v122 : BitVec 32) : Prop :=
  (∀ a, (k0_off26 v122) a + S1x1x512.size a ≤ S1x4096x512.size a)
instance k0_chk13.dec : ∀ (v122 : BitVec 32), Decidable (k0_chk13 v122) := fun v122 => decidable_of_iff' _ (Iff.of_eq (k0_chk13.eq_1 v122))
theorem k0_off26_inb : ∀ (v122 : BitVec 32) (k0_hw13 : k0_chk13 v122), ∀ a, (k0_off26 v122) a + S1x1x512.size a ≤ S1x4096x512.size a := fun v122 k0_hw13 => k0_hw13

def k0_off27 (i : grid0.Coords) : Fin 2 → Nat :=
  let arg0 : BitVec 32 := BitVec.ofNat 32 (i 0).val
  let v130 : Index := Scalar.indexCast arg0
  let c13_i32 : BitVec 32 := 13#32
  let v131 : Index := Scalar.indexCast c13_i32
  ![v130.toNat, 13]
def k0_off28 (v132 : BitVec 32) : Fin 3 → Nat :=
  let c0_51 : Index := 0#32
  let v133 : Index := Scalar.indexCast v132
  let c0_52 : Index := 0#32
  ![0, v133.toNat, 0]

def k0_chk14 (v132 : BitVec 32) : Prop :=
  (∀ a, (k0_off28 v132) a + S1x1x512.size a ≤ S1x4096x512.size a)
instance k0_chk14.dec : ∀ (v132 : BitVec 32), Decidable (k0_chk14 v132) := fun v132 => decidable_of_iff' _ (Iff.of_eq (k0_chk14.eq_1 v132))
theorem k0_off28_inb : ∀ (v132 : BitVec 32) (k0_hw14 : k0_chk14 v132), ∀ a, (k0_off28 v132) a + S1x1x512.size a ≤ S1x4096x512.size a := fun v132 k0_hw14 => k0_hw14

def k0_off29 (i : grid0.Coords) : Fin 2 → Nat :=
  let arg0 : BitVec 32 := BitVec.ofNat 32 (i 0).val
  let v140 : Index := Scalar.indexCast arg0
  let c14_i32 : BitVec 32 := 14#32
  let v141 : Index := Scalar.indexCast c14_i32
  ![v140.toNat, 14]
def k0_off30 (v142 : BitVec 32) : Fin 3 → Nat :=
  let c0_55 : Index := 0#32
  let v143 : Index := Scalar.indexCast v142
  let c0_56 : Index := 0#32
  ![0, v143.toNat, 0]

def k0_chk15 (v142 : BitVec 32) : Prop :=
  (∀ a, (k0_off30 v142) a + S1x1x512.size a ≤ S1x4096x512.size a)
instance k0_chk15.dec : ∀ (v142 : BitVec 32), Decidable (k0_chk15 v142) := fun v142 => decidable_of_iff' _ (Iff.of_eq (k0_chk15.eq_1 v142))
theorem k0_off30_inb : ∀ (v142 : BitVec 32) (k0_hw15 : k0_chk15 v142), ∀ a, (k0_off30 v142) a + S1x1x512.size a ≤ S1x4096x512.size a := fun v142 k0_hw15 => k0_hw15

def k0_off31 (i : grid0.Coords) : Fin 2 → Nat :=
  let arg0 : BitVec 32 := BitVec.ofNat 32 (i 0).val
  let v150 : Index := Scalar.indexCast arg0
  let c15_i32 : BitVec 32 := 15#32
  let v151 : Index := Scalar.indexCast c15_i32
  ![v150.toNat, 15]
def k0_off32 (v152 : BitVec 32) : Fin 3 → Nat :=
  let c0_59 : Index := 0#32
  let v153 : Index := Scalar.indexCast v152
  let c0_60 : Index := 0#32
  ![0, v153.toNat, 0]

def k0_chk16 (v152 : BitVec 32) : Prop :=
  (∀ a, (k0_off32 v152) a + S1x1x512.size a ≤ S1x4096x512.size a)
instance k0_chk16.dec : ∀ (v152 : BitVec 32), Decidable (k0_chk16 v152) := fun v152 => decidable_of_iff' _ (Iff.of_eq (k0_chk16.eq_1 v152))
theorem k0_off32_inb : ∀ (v152 : BitVec 32) (k0_hw16 : k0_chk16 v152), ∀ a, (k0_off32 v152) a + S1x1x512.size a ≤ S1x4096x512.size a := fun v152 k0_hw16 => k0_hw16

def k0_off33 (i : grid0.Coords) : Fin 2 → Nat :=
  let arg0 : BitVec 32 := BitVec.ofNat 32 (i 0).val
  let v160 : Index := Scalar.indexCast arg0
  let c16_i32 : BitVec 32 := 16#32
  let v161 : Index := Scalar.indexCast c16_i32
  ![v160.toNat, 16]
def k0_off34 (v162 : BitVec 32) : Fin 3 → Nat :=
  let c0_63 : Index := 0#32
  let v163 : Index := Scalar.indexCast v162
  let c0_64 : Index := 0#32
  ![0, v163.toNat, 0]

def k0_chk17 (v162 : BitVec 32) : Prop :=
  (∀ a, (k0_off34 v162) a + S1x1x512.size a ≤ S1x4096x512.size a)
instance k0_chk17.dec : ∀ (v162 : BitVec 32), Decidable (k0_chk17 v162) := fun v162 => decidable_of_iff' _ (Iff.of_eq (k0_chk17.eq_1 v162))
theorem k0_off34_inb : ∀ (v162 : BitVec 32) (k0_hw17 : k0_chk17 v162), ∀ a, (k0_off34 v162) a + S1x1x512.size a ≤ S1x4096x512.size a := fun v162 k0_hw17 => k0_hw17

def k0_off35 (i : grid0.Coords) : Fin 2 → Nat :=
  let arg0 : BitVec 32 := BitVec.ofNat 32 (i 0).val
  let v170 : Index := Scalar.indexCast arg0
  let c17_i32 : BitVec 32 := 17#32
  let v171 : Index := Scalar.indexCast c17_i32
  ![v170.toNat, 17]
def k0_off36 (v172 : BitVec 32) : Fin 3 → Nat :=
  let c0_67 : Index := 0#32
  let v173 : Index := Scalar.indexCast v172
  let c0_68 : Index := 0#32
  ![0, v173.toNat, 0]

def k0_chk18 (v172 : BitVec 32) : Prop :=
  (∀ a, (k0_off36 v172) a + S1x1x512.size a ≤ S1x4096x512.size a)
instance k0_chk18.dec : ∀ (v172 : BitVec 32), Decidable (k0_chk18 v172) := fun v172 => decidable_of_iff' _ (Iff.of_eq (k0_chk18.eq_1 v172))
theorem k0_off36_inb : ∀ (v172 : BitVec 32) (k0_hw18 : k0_chk18 v172), ∀ a, (k0_off36 v172) a + S1x1x512.size a ≤ S1x4096x512.size a := fun v172 k0_hw18 => k0_hw18

def k0_off37 (i : grid0.Coords) : Fin 2 → Nat :=
  let arg0 : BitVec 32 := BitVec.ofNat 32 (i 0).val
  let v180 : Index := Scalar.indexCast arg0
  let c18_i32 : BitVec 32 := 18#32
  let v181 : Index := Scalar.indexCast c18_i32
  ![v180.toNat, 18]
def k0_off38 (v182 : BitVec 32) : Fin 3 → Nat :=
  let c0_71 : Index := 0#32
  let v183 : Index := Scalar.indexCast v182
  let c0_72 : Index := 0#32
  ![0, v183.toNat, 0]

def k0_chk19 (v182 : BitVec 32) : Prop :=
  (∀ a, (k0_off38 v182) a + S1x1x512.size a ≤ S1x4096x512.size a)
instance k0_chk19.dec : ∀ (v182 : BitVec 32), Decidable (k0_chk19 v182) := fun v182 => decidable_of_iff' _ (Iff.of_eq (k0_chk19.eq_1 v182))
theorem k0_off38_inb : ∀ (v182 : BitVec 32) (k0_hw19 : k0_chk19 v182), ∀ a, (k0_off38 v182) a + S1x1x512.size a ≤ S1x4096x512.size a := fun v182 k0_hw19 => k0_hw19

def k0_off39 (i : grid0.Coords) : Fin 2 → Nat :=
  let arg0 : BitVec 32 := BitVec.ofNat 32 (i 0).val
  let v190 : Index := Scalar.indexCast arg0
  let c19_i32 : BitVec 32 := 19#32
  let v191 : Index := Scalar.indexCast c19_i32
  ![v190.toNat, 19]
def k0_off40 (v192 : BitVec 32) : Fin 3 → Nat :=
  let c0_75 : Index := 0#32
  let v193 : Index := Scalar.indexCast v192
  let c0_76 : Index := 0#32
  ![0, v193.toNat, 0]

def k0_chk20 (v192 : BitVec 32) : Prop :=
  (∀ a, (k0_off40 v192) a + S1x1x512.size a ≤ S1x4096x512.size a)
instance k0_chk20.dec : ∀ (v192 : BitVec 32), Decidable (k0_chk20 v192) := fun v192 => decidable_of_iff' _ (Iff.of_eq (k0_chk20.eq_1 v192))
theorem k0_off40_inb : ∀ (v192 : BitVec 32) (k0_hw20 : k0_chk20 v192), ∀ a, (k0_off40 v192) a + S1x1x512.size a ≤ S1x4096x512.size a := fun v192 k0_hw20 => k0_hw20

def k0_off41 (i : grid0.Coords) : Fin 2 → Nat :=
  let arg0 : BitVec 32 := BitVec.ofNat 32 (i 0).val
  let v200 : Index := Scalar.indexCast arg0
  let c20_i32 : BitVec 32 := 20#32
  let v201 : Index := Scalar.indexCast c20_i32
  ![v200.toNat, 20]
def k0_off42 (v202 : BitVec 32) : Fin 3 → Nat :=
  let c0_79 : Index := 0#32
  let v203 : Index := Scalar.indexCast v202
  let c0_80 : Index := 0#32
  ![0, v203.toNat, 0]

def k0_chk21 (v202 : BitVec 32) : Prop :=
  (∀ a, (k0_off42 v202) a + S1x1x512.size a ≤ S1x4096x512.size a)
instance k0_chk21.dec : ∀ (v202 : BitVec 32), Decidable (k0_chk21 v202) := fun v202 => decidable_of_iff' _ (Iff.of_eq (k0_chk21.eq_1 v202))
theorem k0_off42_inb : ∀ (v202 : BitVec 32) (k0_hw21 : k0_chk21 v202), ∀ a, (k0_off42 v202) a + S1x1x512.size a ≤ S1x4096x512.size a := fun v202 k0_hw21 => k0_hw21

def k0_off43 (i : grid0.Coords) : Fin 2 → Nat :=
  let arg0 : BitVec 32 := BitVec.ofNat 32 (i 0).val
  let v210 : Index := Scalar.indexCast arg0
  let c21_i32 : BitVec 32 := 21#32
  let v211 : Index := Scalar.indexCast c21_i32
  ![v210.toNat, 21]
def k0_off44 (v212 : BitVec 32) : Fin 3 → Nat :=
  let c0_83 : Index := 0#32
  let v213 : Index := Scalar.indexCast v212
  let c0_84 : Index := 0#32
  ![0, v213.toNat, 0]

def k0_chk22 (v212 : BitVec 32) : Prop :=
  (∀ a, (k0_off44 v212) a + S1x1x512.size a ≤ S1x4096x512.size a)
instance k0_chk22.dec : ∀ (v212 : BitVec 32), Decidable (k0_chk22 v212) := fun v212 => decidable_of_iff' _ (Iff.of_eq (k0_chk22.eq_1 v212))
theorem k0_off44_inb : ∀ (v212 : BitVec 32) (k0_hw22 : k0_chk22 v212), ∀ a, (k0_off44 v212) a + S1x1x512.size a ≤ S1x4096x512.size a := fun v212 k0_hw22 => k0_hw22

def k0_off45 (i : grid0.Coords) : Fin 2 → Nat :=
  let arg0 : BitVec 32 := BitVec.ofNat 32 (i 0).val
  let v220 : Index := Scalar.indexCast arg0
  let c22_i32 : BitVec 32 := 22#32
  let v221 : Index := Scalar.indexCast c22_i32
  ![v220.toNat, 22]
def k0_off46 (v222 : BitVec 32) : Fin 3 → Nat :=
  let c0_87 : Index := 0#32
  let v223 : Index := Scalar.indexCast v222
  let c0_88 : Index := 0#32
  ![0, v223.toNat, 0]

def k0_chk23 (v222 : BitVec 32) : Prop :=
  (∀ a, (k0_off46 v222) a + S1x1x512.size a ≤ S1x4096x512.size a)
instance k0_chk23.dec : ∀ (v222 : BitVec 32), Decidable (k0_chk23 v222) := fun v222 => decidable_of_iff' _ (Iff.of_eq (k0_chk23.eq_1 v222))
theorem k0_off46_inb : ∀ (v222 : BitVec 32) (k0_hw23 : k0_chk23 v222), ∀ a, (k0_off46 v222) a + S1x1x512.size a ≤ S1x4096x512.size a := fun v222 k0_hw23 => k0_hw23

def k0_off47 (i : grid0.Coords) : Fin 2 → Nat :=
  let arg0 : BitVec 32 := BitVec.ofNat 32 (i 0).val
  let v230 : Index := Scalar.indexCast arg0
  let c23_i32 : BitVec 32 := 23#32
  let v231 : Index := Scalar.indexCast c23_i32
  ![v230.toNat, 23]
def k0_off48 (v232 : BitVec 32) : Fin 3 → Nat :=
  let c0_91 : Index := 0#32
  let v233 : Index := Scalar.indexCast v232
  let c0_92 : Index := 0#32
  ![0, v233.toNat, 0]

def k0_chk24 (v232 : BitVec 32) : Prop :=
  (∀ a, (k0_off48 v232) a + S1x1x512.size a ≤ S1x4096x512.size a)
instance k0_chk24.dec : ∀ (v232 : BitVec 32), Decidable (k0_chk24 v232) := fun v232 => decidable_of_iff' _ (Iff.of_eq (k0_chk24.eq_1 v232))
theorem k0_off48_inb : ∀ (v232 : BitVec 32) (k0_hw24 : k0_chk24 v232), ∀ a, (k0_off48 v232) a + S1x1x512.size a ≤ S1x4096x512.size a := fun v232 k0_hw24 => k0_hw24

def k0_off49 (i : grid0.Coords) : Fin 2 → Nat :=
  let arg0 : BitVec 32 := BitVec.ofNat 32 (i 0).val
  let v240 : Index := Scalar.indexCast arg0
  let c24_i32 : BitVec 32 := 24#32
  let v241 : Index := Scalar.indexCast c24_i32
  ![v240.toNat, 24]
def k0_off50 (v242 : BitVec 32) : Fin 3 → Nat :=
  let c0_95 : Index := 0#32
  let v243 : Index := Scalar.indexCast v242
  let c0_96 : Index := 0#32
  ![0, v243.toNat, 0]

def k0_chk25 (v242 : BitVec 32) : Prop :=
  (∀ a, (k0_off50 v242) a + S1x1x512.size a ≤ S1x4096x512.size a)
instance k0_chk25.dec : ∀ (v242 : BitVec 32), Decidable (k0_chk25 v242) := fun v242 => decidable_of_iff' _ (Iff.of_eq (k0_chk25.eq_1 v242))
theorem k0_off50_inb : ∀ (v242 : BitVec 32) (k0_hw25 : k0_chk25 v242), ∀ a, (k0_off50 v242) a + S1x1x512.size a ≤ S1x4096x512.size a := fun v242 k0_hw25 => k0_hw25

def k0_off51 (i : grid0.Coords) : Fin 2 → Nat :=
  let arg0 : BitVec 32 := BitVec.ofNat 32 (i 0).val
  let v250 : Index := Scalar.indexCast arg0
  let c25_i32 : BitVec 32 := 25#32
  let v251 : Index := Scalar.indexCast c25_i32
  ![v250.toNat, 25]
def k0_off52 (v252 : BitVec 32) : Fin 3 → Nat :=
  let c0_99 : Index := 0#32
  let v253 : Index := Scalar.indexCast v252
  let c0_100 : Index := 0#32
  ![0, v253.toNat, 0]

def k0_chk26 (v252 : BitVec 32) : Prop :=
  (∀ a, (k0_off52 v252) a + S1x1x512.size a ≤ S1x4096x512.size a)
instance k0_chk26.dec : ∀ (v252 : BitVec 32), Decidable (k0_chk26 v252) := fun v252 => decidable_of_iff' _ (Iff.of_eq (k0_chk26.eq_1 v252))
theorem k0_off52_inb : ∀ (v252 : BitVec 32) (k0_hw26 : k0_chk26 v252), ∀ a, (k0_off52 v252) a + S1x1x512.size a ≤ S1x4096x512.size a := fun v252 k0_hw26 => k0_hw26

def k0_off53 (i : grid0.Coords) : Fin 2 → Nat :=
  let arg0 : BitVec 32 := BitVec.ofNat 32 (i 0).val
  let v260 : Index := Scalar.indexCast arg0
  let c26_i32 : BitVec 32 := 26#32
  let v261 : Index := Scalar.indexCast c26_i32
  ![v260.toNat, 26]
def k0_off54 (v262 : BitVec 32) : Fin 3 → Nat :=
  let c0_103 : Index := 0#32
  let v263 : Index := Scalar.indexCast v262
  let c0_104 : Index := 0#32
  ![0, v263.toNat, 0]

def k0_chk27 (v262 : BitVec 32) : Prop :=
  (∀ a, (k0_off54 v262) a + S1x1x512.size a ≤ S1x4096x512.size a)
instance k0_chk27.dec : ∀ (v262 : BitVec 32), Decidable (k0_chk27 v262) := fun v262 => decidable_of_iff' _ (Iff.of_eq (k0_chk27.eq_1 v262))
theorem k0_off54_inb : ∀ (v262 : BitVec 32) (k0_hw27 : k0_chk27 v262), ∀ a, (k0_off54 v262) a + S1x1x512.size a ≤ S1x4096x512.size a := fun v262 k0_hw27 => k0_hw27

def k0_off55 (i : grid0.Coords) : Fin 2 → Nat :=
  let arg0 : BitVec 32 := BitVec.ofNat 32 (i 0).val
  let v270 : Index := Scalar.indexCast arg0
  let c27_i32 : BitVec 32 := 27#32
  let v271 : Index := Scalar.indexCast c27_i32
  ![v270.toNat, 27]
def k0_off56 (v272 : BitVec 32) : Fin 3 → Nat :=
  let c0_107 : Index := 0#32
  let v273 : Index := Scalar.indexCast v272
  let c0_108 : Index := 0#32
  ![0, v273.toNat, 0]

def k0_chk28 (v272 : BitVec 32) : Prop :=
  (∀ a, (k0_off56 v272) a + S1x1x512.size a ≤ S1x4096x512.size a)
instance k0_chk28.dec : ∀ (v272 : BitVec 32), Decidable (k0_chk28 v272) := fun v272 => decidable_of_iff' _ (Iff.of_eq (k0_chk28.eq_1 v272))
theorem k0_off56_inb : ∀ (v272 : BitVec 32) (k0_hw28 : k0_chk28 v272), ∀ a, (k0_off56 v272) a + S1x1x512.size a ≤ S1x4096x512.size a := fun v272 k0_hw28 => k0_hw28

def k0_off57 (i : grid0.Coords) : Fin 2 → Nat :=
  let arg0 : BitVec 32 := BitVec.ofNat 32 (i 0).val
  let v280 : Index := Scalar.indexCast arg0
  let c28_i32 : BitVec 32 := 28#32
  let v281 : Index := Scalar.indexCast c28_i32
  ![v280.toNat, 28]
def k0_off58 (v282 : BitVec 32) : Fin 3 → Nat :=
  let c0_111 : Index := 0#32
  let v283 : Index := Scalar.indexCast v282
  let c0_112 : Index := 0#32
  ![0, v283.toNat, 0]

def k0_chk29 (v282 : BitVec 32) : Prop :=
  (∀ a, (k0_off58 v282) a + S1x1x512.size a ≤ S1x4096x512.size a)
instance k0_chk29.dec : ∀ (v282 : BitVec 32), Decidable (k0_chk29 v282) := fun v282 => decidable_of_iff' _ (Iff.of_eq (k0_chk29.eq_1 v282))
theorem k0_off58_inb : ∀ (v282 : BitVec 32) (k0_hw29 : k0_chk29 v282), ∀ a, (k0_off58 v282) a + S1x1x512.size a ≤ S1x4096x512.size a := fun v282 k0_hw29 => k0_hw29

def k0_off59 (i : grid0.Coords) : Fin 2 → Nat :=
  let arg0 : BitVec 32 := BitVec.ofNat 32 (i 0).val
  let v290 : Index := Scalar.indexCast arg0
  let c29_i32 : BitVec 32 := 29#32
  let v291 : Index := Scalar.indexCast c29_i32
  ![v290.toNat, 29]
def k0_off60 (v292 : BitVec 32) : Fin 3 → Nat :=
  let c0_115 : Index := 0#32
  let v293 : Index := Scalar.indexCast v292
  let c0_116 : Index := 0#32
  ![0, v293.toNat, 0]

def k0_chk30 (v292 : BitVec 32) : Prop :=
  (∀ a, (k0_off60 v292) a + S1x1x512.size a ≤ S1x4096x512.size a)
instance k0_chk30.dec : ∀ (v292 : BitVec 32), Decidable (k0_chk30 v292) := fun v292 => decidable_of_iff' _ (Iff.of_eq (k0_chk30.eq_1 v292))
theorem k0_off60_inb : ∀ (v292 : BitVec 32) (k0_hw30 : k0_chk30 v292), ∀ a, (k0_off60 v292) a + S1x1x512.size a ≤ S1x4096x512.size a := fun v292 k0_hw30 => k0_hw30

def k0_off61 (i : grid0.Coords) : Fin 2 → Nat :=
  let arg0 : BitVec 32 := BitVec.ofNat 32 (i 0).val
  let v300 : Index := Scalar.indexCast arg0
  let c30_i32 : BitVec 32 := 30#32
  let v301 : Index := Scalar.indexCast c30_i32
  ![v300.toNat, 30]
def k0_off62 (v302 : BitVec 32) : Fin 3 → Nat :=
  let c0_119 : Index := 0#32
  let v303 : Index := Scalar.indexCast v302
  let c0_120 : Index := 0#32
  ![0, v303.toNat, 0]

def k0_chk31 (v302 : BitVec 32) : Prop :=
  (∀ a, (k0_off62 v302) a + S1x1x512.size a ≤ S1x4096x512.size a)
instance k0_chk31.dec : ∀ (v302 : BitVec 32), Decidable (k0_chk31 v302) := fun v302 => decidable_of_iff' _ (Iff.of_eq (k0_chk31.eq_1 v302))
theorem k0_off62_inb : ∀ (v302 : BitVec 32) (k0_hw31 : k0_chk31 v302), ∀ a, (k0_off62 v302) a + S1x1x512.size a ≤ S1x4096x512.size a := fun v302 k0_hw31 => k0_hw31

def k0_off63 (i : grid0.Coords) : Fin 2 → Nat :=
  let arg0 : BitVec 32 := BitVec.ofNat 32 (i 0).val
  let v310 : Index := Scalar.indexCast arg0
  let c31_i32 : BitVec 32 := 31#32
  let v311 : Index := Scalar.indexCast c31_i32
  ![v310.toNat, 31]
def k0_off64 (v312 : BitVec 32) : Fin 3 → Nat :=
  let c0_123 : Index := 0#32
  let v313 : Index := Scalar.indexCast v312
  let c0_124 : Index := 0#32
  ![0, v313.toNat, 0]

def k0_chk32 (v312 : BitVec 32) : Prop :=
  (∀ a, (k0_off64 v312) a + S1x1x512.size a ≤ S1x4096x512.size a)
instance k0_chk32.dec : ∀ (v312 : BitVec 32), Decidable (k0_chk32 v312) := fun v312 => decidable_of_iff' _ (Iff.of_eq (k0_chk32.eq_1 v312))
theorem k0_off64_inb : ∀ (v312 : BitVec 32) (k0_hw32 : k0_chk32 v312), ∀ a, (k0_off64 v312) a + S1x1x512.size a ≤ S1x4096x512.size a := fun v312 k0_hw32 => k0_hw32

def k0_off65 (i : grid0.Coords) : Fin 2 → Nat :=
  let arg0 : BitVec 32 := BitVec.ofNat 32 (i 0).val
  let v320 : Index := Scalar.indexCast arg0
  let c32_i32 : BitVec 32 := 32#32
  let v321 : Index := Scalar.indexCast c32_i32
  ![v320.toNat, 32]
def k0_off66 (v322 : BitVec 32) : Fin 3 → Nat :=
  let c0_127 : Index := 0#32
  let v323 : Index := Scalar.indexCast v322
  let c0_128 : Index := 0#32
  ![0, v323.toNat, 0]

def k0_chk33 (v322 : BitVec 32) : Prop :=
  (∀ a, (k0_off66 v322) a + S1x1x512.size a ≤ S1x4096x512.size a)
instance k0_chk33.dec : ∀ (v322 : BitVec 32), Decidable (k0_chk33 v322) := fun v322 => decidable_of_iff' _ (Iff.of_eq (k0_chk33.eq_1 v322))
theorem k0_off66_inb : ∀ (v322 : BitVec 32) (k0_hw33 : k0_chk33 v322), ∀ a, (k0_off66 v322) a + S1x1x512.size a ≤ S1x4096x512.size a := fun v322 k0_hw33 => k0_hw33

def k0_off67 (i : grid0.Coords) : Fin 2 → Nat :=
  let arg0 : BitVec 32 := BitVec.ofNat 32 (i 0).val
  let v330 : Index := Scalar.indexCast arg0
  let c33_i32 : BitVec 32 := 33#32
  let v331 : Index := Scalar.indexCast c33_i32
  ![v330.toNat, 33]
def k0_off68 (v332 : BitVec 32) : Fin 3 → Nat :=
  let c0_131 : Index := 0#32
  let v333 : Index := Scalar.indexCast v332
  let c0_132 : Index := 0#32
  ![0, v333.toNat, 0]

def k0_chk34 (v332 : BitVec 32) : Prop :=
  (∀ a, (k0_off68 v332) a + S1x1x512.size a ≤ S1x4096x512.size a)
instance k0_chk34.dec : ∀ (v332 : BitVec 32), Decidable (k0_chk34 v332) := fun v332 => decidable_of_iff' _ (Iff.of_eq (k0_chk34.eq_1 v332))
theorem k0_off68_inb : ∀ (v332 : BitVec 32) (k0_hw34 : k0_chk34 v332), ∀ a, (k0_off68 v332) a + S1x1x512.size a ≤ S1x4096x512.size a := fun v332 k0_hw34 => k0_hw34

def k0_off69 (i : grid0.Coords) : Fin 2 → Nat :=
  let arg0 : BitVec 32 := BitVec.ofNat 32 (i 0).val
  let v340 : Index := Scalar.indexCast arg0
  let c34_i32 : BitVec 32 := 34#32
  let v341 : Index := Scalar.indexCast c34_i32
  ![v340.toNat, 34]
def k0_off70 (v342 : BitVec 32) : Fin 3 → Nat :=
  let c0_135 : Index := 0#32
  let v343 : Index := Scalar.indexCast v342
  let c0_136 : Index := 0#32
  ![0, v343.toNat, 0]

def k0_chk35 (v342 : BitVec 32) : Prop :=
  (∀ a, (k0_off70 v342) a + S1x1x512.size a ≤ S1x4096x512.size a)
instance k0_chk35.dec : ∀ (v342 : BitVec 32), Decidable (k0_chk35 v342) := fun v342 => decidable_of_iff' _ (Iff.of_eq (k0_chk35.eq_1 v342))
theorem k0_off70_inb : ∀ (v342 : BitVec 32) (k0_hw35 : k0_chk35 v342), ∀ a, (k0_off70 v342) a + S1x1x512.size a ≤ S1x4096x512.size a := fun v342 k0_hw35 => k0_hw35

def k0_off71 (i : grid0.Coords) : Fin 2 → Nat :=
  let arg0 : BitVec 32 := BitVec.ofNat 32 (i 0).val
  let v350 : Index := Scalar.indexCast arg0
  let c35_i32 : BitVec 32 := 35#32
  let v351 : Index := Scalar.indexCast c35_i32
  ![v350.toNat, 35]
def k0_off72 (v352 : BitVec 32) : Fin 3 → Nat :=
  let c0_139 : Index := 0#32
  let v353 : Index := Scalar.indexCast v352
  let c0_140 : Index := 0#32
  ![0, v353.toNat, 0]

def k0_chk36 (v352 : BitVec 32) : Prop :=
  (∀ a, (k0_off72 v352) a + S1x1x512.size a ≤ S1x4096x512.size a)
instance k0_chk36.dec : ∀ (v352 : BitVec 32), Decidable (k0_chk36 v352) := fun v352 => decidable_of_iff' _ (Iff.of_eq (k0_chk36.eq_1 v352))
theorem k0_off72_inb : ∀ (v352 : BitVec 32) (k0_hw36 : k0_chk36 v352), ∀ a, (k0_off72 v352) a + S1x1x512.size a ≤ S1x4096x512.size a := fun v352 k0_hw36 => k0_hw36

def k0_off73 (i : grid0.Coords) : Fin 2 → Nat :=
  let arg0 : BitVec 32 := BitVec.ofNat 32 (i 0).val
  let v360 : Index := Scalar.indexCast arg0
  let c36_i32 : BitVec 32 := 36#32
  let v361 : Index := Scalar.indexCast c36_i32
  ![v360.toNat, 36]
def k0_off74 (v362 : BitVec 32) : Fin 3 → Nat :=
  let c0_143 : Index := 0#32
  let v363 : Index := Scalar.indexCast v362
  let c0_144 : Index := 0#32
  ![0, v363.toNat, 0]

def k0_chk37 (v362 : BitVec 32) : Prop :=
  (∀ a, (k0_off74 v362) a + S1x1x512.size a ≤ S1x4096x512.size a)
instance k0_chk37.dec : ∀ (v362 : BitVec 32), Decidable (k0_chk37 v362) := fun v362 => decidable_of_iff' _ (Iff.of_eq (k0_chk37.eq_1 v362))
theorem k0_off74_inb : ∀ (v362 : BitVec 32) (k0_hw37 : k0_chk37 v362), ∀ a, (k0_off74 v362) a + S1x1x512.size a ≤ S1x4096x512.size a := fun v362 k0_hw37 => k0_hw37

def k0_off75 (i : grid0.Coords) : Fin 2 → Nat :=
  let arg0 : BitVec 32 := BitVec.ofNat 32 (i 0).val
  let v370 : Index := Scalar.indexCast arg0
  let c37_i32 : BitVec 32 := 37#32
  let v371 : Index := Scalar.indexCast c37_i32
  ![v370.toNat, 37]
def k0_off76 (v372 : BitVec 32) : Fin 3 → Nat :=
  let c0_147 : Index := 0#32
  let v373 : Index := Scalar.indexCast v372
  let c0_148 : Index := 0#32
  ![0, v373.toNat, 0]

def k0_chk38 (v372 : BitVec 32) : Prop :=
  (∀ a, (k0_off76 v372) a + S1x1x512.size a ≤ S1x4096x512.size a)
instance k0_chk38.dec : ∀ (v372 : BitVec 32), Decidable (k0_chk38 v372) := fun v372 => decidable_of_iff' _ (Iff.of_eq (k0_chk38.eq_1 v372))
theorem k0_off76_inb : ∀ (v372 : BitVec 32) (k0_hw38 : k0_chk38 v372), ∀ a, (k0_off76 v372) a + S1x1x512.size a ≤ S1x4096x512.size a := fun v372 k0_hw38 => k0_hw38

def k0_off77 (i : grid0.Coords) : Fin 2 → Nat :=
  let arg0 : BitVec 32 := BitVec.ofNat 32 (i 0).val
  let v380 : Index := Scalar.indexCast arg0
  let c38_i32 : BitVec 32 := 38#32
  let v381 : Index := Scalar.indexCast c38_i32
  ![v380.toNat, 38]
def k0_off78 (v382 : BitVec 32) : Fin 3 → Nat :=
  let c0_151 : Index := 0#32
  let v383 : Index := Scalar.indexCast v382
  let c0_152 : Index := 0#32
  ![0, v383.toNat, 0]

def k0_chk39 (v382 : BitVec 32) : Prop :=
  (∀ a, (k0_off78 v382) a + S1x1x512.size a ≤ S1x4096x512.size a)
instance k0_chk39.dec : ∀ (v382 : BitVec 32), Decidable (k0_chk39 v382) := fun v382 => decidable_of_iff' _ (Iff.of_eq (k0_chk39.eq_1 v382))
theorem k0_off78_inb : ∀ (v382 : BitVec 32) (k0_hw39 : k0_chk39 v382), ∀ a, (k0_off78 v382) a + S1x1x512.size a ≤ S1x4096x512.size a := fun v382 k0_hw39 => k0_hw39

def k0_off79 (i : grid0.Coords) : Fin 2 → Nat :=
  let arg0 : BitVec 32 := BitVec.ofNat 32 (i 0).val
  let v390 : Index := Scalar.indexCast arg0
  let c39_i32 : BitVec 32 := 39#32
  let v391 : Index := Scalar.indexCast c39_i32
  ![v390.toNat, 39]
def k0_off80 (v392 : BitVec 32) : Fin 3 → Nat :=
  let c0_155 : Index := 0#32
  let v393 : Index := Scalar.indexCast v392
  let c0_156 : Index := 0#32
  ![0, v393.toNat, 0]

def k0_chk40 (v392 : BitVec 32) : Prop :=
  (∀ a, (k0_off80 v392) a + S1x1x512.size a ≤ S1x4096x512.size a)
instance k0_chk40.dec : ∀ (v392 : BitVec 32), Decidable (k0_chk40 v392) := fun v392 => decidable_of_iff' _ (Iff.of_eq (k0_chk40.eq_1 v392))
theorem k0_off80_inb : ∀ (v392 : BitVec 32) (k0_hw40 : k0_chk40 v392), ∀ a, (k0_off80 v392) a + S1x1x512.size a ≤ S1x4096x512.size a := fun v392 k0_hw40 => k0_hw40

def k0_off81 (i : grid0.Coords) : Fin 2 → Nat :=
  let arg0 : BitVec 32 := BitVec.ofNat 32 (i 0).val
  let v400 : Index := Scalar.indexCast arg0
  let c40_i32 : BitVec 32 := 40#32
  let v401 : Index := Scalar.indexCast c40_i32
  ![v400.toNat, 40]
def k0_off82 (v402 : BitVec 32) : Fin 3 → Nat :=
  let c0_159 : Index := 0#32
  let v403 : Index := Scalar.indexCast v402
  let c0_160 : Index := 0#32
  ![0, v403.toNat, 0]

def k0_chk41 (v402 : BitVec 32) : Prop :=
  (∀ a, (k0_off82 v402) a + S1x1x512.size a ≤ S1x4096x512.size a)
instance k0_chk41.dec : ∀ (v402 : BitVec 32), Decidable (k0_chk41 v402) := fun v402 => decidable_of_iff' _ (Iff.of_eq (k0_chk41.eq_1 v402))
theorem k0_off82_inb : ∀ (v402 : BitVec 32) (k0_hw41 : k0_chk41 v402), ∀ a, (k0_off82 v402) a + S1x1x512.size a ≤ S1x4096x512.size a := fun v402 k0_hw41 => k0_hw41

def k0_off83 (i : grid0.Coords) : Fin 2 → Nat :=
  let arg0 : BitVec 32 := BitVec.ofNat 32 (i 0).val
  let v410 : Index := Scalar.indexCast arg0
  let c41_i32 : BitVec 32 := 41#32
  let v411 : Index := Scalar.indexCast c41_i32
  ![v410.toNat, 41]
def k0_off84 (v412 : BitVec 32) : Fin 3 → Nat :=
  let c0_163 : Index := 0#32
  let v413 : Index := Scalar.indexCast v412
  let c0_164 : Index := 0#32
  ![0, v413.toNat, 0]

def k0_chk42 (v412 : BitVec 32) : Prop :=
  (∀ a, (k0_off84 v412) a + S1x1x512.size a ≤ S1x4096x512.size a)
instance k0_chk42.dec : ∀ (v412 : BitVec 32), Decidable (k0_chk42 v412) := fun v412 => decidable_of_iff' _ (Iff.of_eq (k0_chk42.eq_1 v412))
theorem k0_off84_inb : ∀ (v412 : BitVec 32) (k0_hw42 : k0_chk42 v412), ∀ a, (k0_off84 v412) a + S1x1x512.size a ≤ S1x4096x512.size a := fun v412 k0_hw42 => k0_hw42

def k0_off85 (i : grid0.Coords) : Fin 2 → Nat :=
  let arg0 : BitVec 32 := BitVec.ofNat 32 (i 0).val
  let v420 : Index := Scalar.indexCast arg0
  let c42_i32 : BitVec 32 := 42#32
  let v421 : Index := Scalar.indexCast c42_i32
  ![v420.toNat, 42]
def k0_off86 (v422 : BitVec 32) : Fin 3 → Nat :=
  let c0_167 : Index := 0#32
  let v423 : Index := Scalar.indexCast v422
  let c0_168 : Index := 0#32
  ![0, v423.toNat, 0]

def k0_chk43 (v422 : BitVec 32) : Prop :=
  (∀ a, (k0_off86 v422) a + S1x1x512.size a ≤ S1x4096x512.size a)
instance k0_chk43.dec : ∀ (v422 : BitVec 32), Decidable (k0_chk43 v422) := fun v422 => decidable_of_iff' _ (Iff.of_eq (k0_chk43.eq_1 v422))
theorem k0_off86_inb : ∀ (v422 : BitVec 32) (k0_hw43 : k0_chk43 v422), ∀ a, (k0_off86 v422) a + S1x1x512.size a ≤ S1x4096x512.size a := fun v422 k0_hw43 => k0_hw43

def k0_off87 (i : grid0.Coords) : Fin 2 → Nat :=
  let arg0 : BitVec 32 := BitVec.ofNat 32 (i 0).val
  let v430 : Index := Scalar.indexCast arg0
  let c43_i32 : BitVec 32 := 43#32
  let v431 : Index := Scalar.indexCast c43_i32
  ![v430.toNat, 43]
def k0_off88 (v432 : BitVec 32) : Fin 3 → Nat :=
  let c0_171 : Index := 0#32
  let v433 : Index := Scalar.indexCast v432
  let c0_172 : Index := 0#32
  ![0, v433.toNat, 0]

def k0_chk44 (v432 : BitVec 32) : Prop :=
  (∀ a, (k0_off88 v432) a + S1x1x512.size a ≤ S1x4096x512.size a)
instance k0_chk44.dec : ∀ (v432 : BitVec 32), Decidable (k0_chk44 v432) := fun v432 => decidable_of_iff' _ (Iff.of_eq (k0_chk44.eq_1 v432))
theorem k0_off88_inb : ∀ (v432 : BitVec 32) (k0_hw44 : k0_chk44 v432), ∀ a, (k0_off88 v432) a + S1x1x512.size a ≤ S1x4096x512.size a := fun v432 k0_hw44 => k0_hw44

def k0_off89 (i : grid0.Coords) : Fin 2 → Nat :=
  let arg0 : BitVec 32 := BitVec.ofNat 32 (i 0).val
  let v440 : Index := Scalar.indexCast arg0
  let c44_i32 : BitVec 32 := 44#32
  let v441 : Index := Scalar.indexCast c44_i32
  ![v440.toNat, 44]
def k0_off90 (v442 : BitVec 32) : Fin 3 → Nat :=
  let c0_175 : Index := 0#32
  let v443 : Index := Scalar.indexCast v442
  let c0_176 : Index := 0#32
  ![0, v443.toNat, 0]

def k0_chk45 (v442 : BitVec 32) : Prop :=
  (∀ a, (k0_off90 v442) a + S1x1x512.size a ≤ S1x4096x512.size a)
instance k0_chk45.dec : ∀ (v442 : BitVec 32), Decidable (k0_chk45 v442) := fun v442 => decidable_of_iff' _ (Iff.of_eq (k0_chk45.eq_1 v442))
theorem k0_off90_inb : ∀ (v442 : BitVec 32) (k0_hw45 : k0_chk45 v442), ∀ a, (k0_off90 v442) a + S1x1x512.size a ≤ S1x4096x512.size a := fun v442 k0_hw45 => k0_hw45

def k0_off91 (i : grid0.Coords) : Fin 2 → Nat :=
  let arg0 : BitVec 32 := BitVec.ofNat 32 (i 0).val
  let v450 : Index := Scalar.indexCast arg0
  let c45_i32 : BitVec 32 := 45#32
  let v451 : Index := Scalar.indexCast c45_i32
  ![v450.toNat, 45]
def k0_off92 (v452 : BitVec 32) : Fin 3 → Nat :=
  let c0_179 : Index := 0#32
  let v453 : Index := Scalar.indexCast v452
  let c0_180 : Index := 0#32
  ![0, v453.toNat, 0]

def k0_chk46 (v452 : BitVec 32) : Prop :=
  (∀ a, (k0_off92 v452) a + S1x1x512.size a ≤ S1x4096x512.size a)
instance k0_chk46.dec : ∀ (v452 : BitVec 32), Decidable (k0_chk46 v452) := fun v452 => decidable_of_iff' _ (Iff.of_eq (k0_chk46.eq_1 v452))
theorem k0_off92_inb : ∀ (v452 : BitVec 32) (k0_hw46 : k0_chk46 v452), ∀ a, (k0_off92 v452) a + S1x1x512.size a ≤ S1x4096x512.size a := fun v452 k0_hw46 => k0_hw46

def k0_off93 (i : grid0.Coords) : Fin 2 → Nat :=
  let arg0 : BitVec 32 := BitVec.ofNat 32 (i 0).val
  let v460 : Index := Scalar.indexCast arg0
  let c46_i32 : BitVec 32 := 46#32
  let v461 : Index := Scalar.indexCast c46_i32
  ![v460.toNat, 46]
def k0_off94 (v462 : BitVec 32) : Fin 3 → Nat :=
  let c0_183 : Index := 0#32
  let v463 : Index := Scalar.indexCast v462
  let c0_184 : Index := 0#32
  ![0, v463.toNat, 0]

def k0_chk47 (v462 : BitVec 32) : Prop :=
  (∀ a, (k0_off94 v462) a + S1x1x512.size a ≤ S1x4096x512.size a)
instance k0_chk47.dec : ∀ (v462 : BitVec 32), Decidable (k0_chk47 v462) := fun v462 => decidable_of_iff' _ (Iff.of_eq (k0_chk47.eq_1 v462))
theorem k0_off94_inb : ∀ (v462 : BitVec 32) (k0_hw47 : k0_chk47 v462), ∀ a, (k0_off94 v462) a + S1x1x512.size a ≤ S1x4096x512.size a := fun v462 k0_hw47 => k0_hw47

def k0_off95 (i : grid0.Coords) : Fin 2 → Nat :=
  let arg0 : BitVec 32 := BitVec.ofNat 32 (i 0).val
  let v470 : Index := Scalar.indexCast arg0
  let c47_i32 : BitVec 32 := 47#32
  let v471 : Index := Scalar.indexCast c47_i32
  ![v470.toNat, 47]
def k0_off96 (v472 : BitVec 32) : Fin 3 → Nat :=
  let c0_187 : Index := 0#32
  let v473 : Index := Scalar.indexCast v472
  let c0_188 : Index := 0#32
  ![0, v473.toNat, 0]

def k0_chk48 (v472 : BitVec 32) : Prop :=
  (∀ a, (k0_off96 v472) a + S1x1x512.size a ≤ S1x4096x512.size a)
instance k0_chk48.dec : ∀ (v472 : BitVec 32), Decidable (k0_chk48 v472) := fun v472 => decidable_of_iff' _ (Iff.of_eq (k0_chk48.eq_1 v472))
theorem k0_off96_inb : ∀ (v472 : BitVec 32) (k0_hw48 : k0_chk48 v472), ∀ a, (k0_off96 v472) a + S1x1x512.size a ≤ S1x4096x512.size a := fun v472 k0_hw48 => k0_hw48

def k0_off97 (i : grid0.Coords) : Fin 2 → Nat :=
  let arg0 : BitVec 32 := BitVec.ofNat 32 (i 0).val
  let v480 : Index := Scalar.indexCast arg0
  let c48_i32 : BitVec 32 := 48#32
  let v481 : Index := Scalar.indexCast c48_i32
  ![v480.toNat, 48]
def k0_off98 (v482 : BitVec 32) : Fin 3 → Nat :=
  let c0_191 : Index := 0#32
  let v483 : Index := Scalar.indexCast v482
  let c0_192 : Index := 0#32
  ![0, v483.toNat, 0]

def k0_chk49 (v482 : BitVec 32) : Prop :=
  (∀ a, (k0_off98 v482) a + S1x1x512.size a ≤ S1x4096x512.size a)
instance k0_chk49.dec : ∀ (v482 : BitVec 32), Decidable (k0_chk49 v482) := fun v482 => decidable_of_iff' _ (Iff.of_eq (k0_chk49.eq_1 v482))
theorem k0_off98_inb : ∀ (v482 : BitVec 32) (k0_hw49 : k0_chk49 v482), ∀ a, (k0_off98 v482) a + S1x1x512.size a ≤ S1x4096x512.size a := fun v482 k0_hw49 => k0_hw49

def k0_off99 (i : grid0.Coords) : Fin 2 → Nat :=
  let arg0 : BitVec 32 := BitVec.ofNat 32 (i 0).val
  let v490 : Index := Scalar.indexCast arg0
  let c49_i32 : BitVec 32 := 49#32
  let v491 : Index := Scalar.indexCast c49_i32
  ![v490.toNat, 49]
def k0_off100 (v492 : BitVec 32) : Fin 3 → Nat :=
  let c0_195 : Index := 0#32
  let v493 : Index := Scalar.indexCast v492
  let c0_196 : Index := 0#32
  ![0, v493.toNat, 0]

def k0_chk50 (v492 : BitVec 32) : Prop :=
  (∀ a, (k0_off100 v492) a + S1x1x512.size a ≤ S1x4096x512.size a)
instance k0_chk50.dec : ∀ (v492 : BitVec 32), Decidable (k0_chk50 v492) := fun v492 => decidable_of_iff' _ (Iff.of_eq (k0_chk50.eq_1 v492))
theorem k0_off100_inb : ∀ (v492 : BitVec 32) (k0_hw50 : k0_chk50 v492), ∀ a, (k0_off100 v492) a + S1x1x512.size a ≤ S1x4096x512.size a := fun v492 k0_hw50 => k0_hw50

def k0_off101 (i : grid0.Coords) : Fin 2 → Nat :=
  let arg0 : BitVec 32 := BitVec.ofNat 32 (i 0).val
  let v500 : Index := Scalar.indexCast arg0
  let c50_i32 : BitVec 32 := 50#32
  let v501 : Index := Scalar.indexCast c50_i32
  ![v500.toNat, 50]
def k0_off102 (v502 : BitVec 32) : Fin 3 → Nat :=
  let c0_199 : Index := 0#32
  let v503 : Index := Scalar.indexCast v502
  let c0_200 : Index := 0#32
  ![0, v503.toNat, 0]

def k0_chk51 (v502 : BitVec 32) : Prop :=
  (∀ a, (k0_off102 v502) a + S1x1x512.size a ≤ S1x4096x512.size a)
instance k0_chk51.dec : ∀ (v502 : BitVec 32), Decidable (k0_chk51 v502) := fun v502 => decidable_of_iff' _ (Iff.of_eq (k0_chk51.eq_1 v502))
theorem k0_off102_inb : ∀ (v502 : BitVec 32) (k0_hw51 : k0_chk51 v502), ∀ a, (k0_off102 v502) a + S1x1x512.size a ≤ S1x4096x512.size a := fun v502 k0_hw51 => k0_hw51

def k0_off103 (i : grid0.Coords) : Fin 2 → Nat :=
  let arg0 : BitVec 32 := BitVec.ofNat 32 (i 0).val
  let v510 : Index := Scalar.indexCast arg0
  let c51_i32 : BitVec 32 := 51#32
  let v511 : Index := Scalar.indexCast c51_i32
  ![v510.toNat, 51]
def k0_off104 (v512 : BitVec 32) : Fin 3 → Nat :=
  let c0_203 : Index := 0#32
  let v513 : Index := Scalar.indexCast v512
  let c0_204 : Index := 0#32
  ![0, v513.toNat, 0]

def k0_chk52 (v512 : BitVec 32) : Prop :=
  (∀ a, (k0_off104 v512) a + S1x1x512.size a ≤ S1x4096x512.size a)
instance k0_chk52.dec : ∀ (v512 : BitVec 32), Decidable (k0_chk52 v512) := fun v512 => decidable_of_iff' _ (Iff.of_eq (k0_chk52.eq_1 v512))
theorem k0_off104_inb : ∀ (v512 : BitVec 32) (k0_hw52 : k0_chk52 v512), ∀ a, (k0_off104 v512) a + S1x1x512.size a ≤ S1x4096x512.size a := fun v512 k0_hw52 => k0_hw52

def k0_off105 (i : grid0.Coords) : Fin 2 → Nat :=
  let arg0 : BitVec 32 := BitVec.ofNat 32 (i 0).val
  let v520 : Index := Scalar.indexCast arg0
  let c52_i32 : BitVec 32 := 52#32
  let v521 : Index := Scalar.indexCast c52_i32
  ![v520.toNat, 52]
def k0_off106 (v522 : BitVec 32) : Fin 3 → Nat :=
  let c0_207 : Index := 0#32
  let v523 : Index := Scalar.indexCast v522
  let c0_208 : Index := 0#32
  ![0, v523.toNat, 0]

def k0_chk53 (v522 : BitVec 32) : Prop :=
  (∀ a, (k0_off106 v522) a + S1x1x512.size a ≤ S1x4096x512.size a)
instance k0_chk53.dec : ∀ (v522 : BitVec 32), Decidable (k0_chk53 v522) := fun v522 => decidable_of_iff' _ (Iff.of_eq (k0_chk53.eq_1 v522))
theorem k0_off106_inb : ∀ (v522 : BitVec 32) (k0_hw53 : k0_chk53 v522), ∀ a, (k0_off106 v522) a + S1x1x512.size a ≤ S1x4096x512.size a := fun v522 k0_hw53 => k0_hw53

def k0_off107 (i : grid0.Coords) : Fin 2 → Nat :=
  let arg0 : BitVec 32 := BitVec.ofNat 32 (i 0).val
  let v530 : Index := Scalar.indexCast arg0
  let c53_i32 : BitVec 32 := 53#32
  let v531 : Index := Scalar.indexCast c53_i32
  ![v530.toNat, 53]
def k0_off108 (v532 : BitVec 32) : Fin 3 → Nat :=
  let c0_211 : Index := 0#32
  let v533 : Index := Scalar.indexCast v532
  let c0_212 : Index := 0#32
  ![0, v533.toNat, 0]

def k0_chk54 (v532 : BitVec 32) : Prop :=
  (∀ a, (k0_off108 v532) a + S1x1x512.size a ≤ S1x4096x512.size a)
instance k0_chk54.dec : ∀ (v532 : BitVec 32), Decidable (k0_chk54 v532) := fun v532 => decidable_of_iff' _ (Iff.of_eq (k0_chk54.eq_1 v532))
theorem k0_off108_inb : ∀ (v532 : BitVec 32) (k0_hw54 : k0_chk54 v532), ∀ a, (k0_off108 v532) a + S1x1x512.size a ≤ S1x4096x512.size a := fun v532 k0_hw54 => k0_hw54

def k0_off109 (i : grid0.Coords) : Fin 2 → Nat :=
  let arg0 : BitVec 32 := BitVec.ofNat 32 (i 0).val
  let v540 : Index := Scalar.indexCast arg0
  let c54_i32 : BitVec 32 := 54#32
  let v541 : Index := Scalar.indexCast c54_i32
  ![v540.toNat, 54]
def k0_off110 (v542 : BitVec 32) : Fin 3 → Nat :=
  let c0_215 : Index := 0#32
  let v543 : Index := Scalar.indexCast v542
  let c0_216 : Index := 0#32
  ![0, v543.toNat, 0]

def k0_chk55 (v542 : BitVec 32) : Prop :=
  (∀ a, (k0_off110 v542) a + S1x1x512.size a ≤ S1x4096x512.size a)
instance k0_chk55.dec : ∀ (v542 : BitVec 32), Decidable (k0_chk55 v542) := fun v542 => decidable_of_iff' _ (Iff.of_eq (k0_chk55.eq_1 v542))
theorem k0_off110_inb : ∀ (v542 : BitVec 32) (k0_hw55 : k0_chk55 v542), ∀ a, (k0_off110 v542) a + S1x1x512.size a ≤ S1x4096x512.size a := fun v542 k0_hw55 => k0_hw55

def k0_off111 (i : grid0.Coords) : Fin 2 → Nat :=
  let arg0 : BitVec 32 := BitVec.ofNat 32 (i 0).val
  let v550 : Index := Scalar.indexCast arg0
  let c55_i32 : BitVec 32 := 55#32
  let v551 : Index := Scalar.indexCast c55_i32
  ![v550.toNat, 55]
def k0_off112 (v552 : BitVec 32) : Fin 3 → Nat :=
  let c0_219 : Index := 0#32
  let v553 : Index := Scalar.indexCast v552
  let c0_220 : Index := 0#32
  ![0, v553.toNat, 0]

def k0_chk56 (v552 : BitVec 32) : Prop :=
  (∀ a, (k0_off112 v552) a + S1x1x512.size a ≤ S1x4096x512.size a)
instance k0_chk56.dec : ∀ (v552 : BitVec 32), Decidable (k0_chk56 v552) := fun v552 => decidable_of_iff' _ (Iff.of_eq (k0_chk56.eq_1 v552))
theorem k0_off112_inb : ∀ (v552 : BitVec 32) (k0_hw56 : k0_chk56 v552), ∀ a, (k0_off112 v552) a + S1x1x512.size a ≤ S1x4096x512.size a := fun v552 k0_hw56 => k0_hw56

def k0_off113 (i : grid0.Coords) : Fin 2 → Nat :=
  let arg0 : BitVec 32 := BitVec.ofNat 32 (i 0).val
  let v560 : Index := Scalar.indexCast arg0
  let c56_i32 : BitVec 32 := 56#32
  let v561 : Index := Scalar.indexCast c56_i32
  ![v560.toNat, 56]
def k0_off114 (v562 : BitVec 32) : Fin 3 → Nat :=
  let c0_223 : Index := 0#32
  let v563 : Index := Scalar.indexCast v562
  let c0_224 : Index := 0#32
  ![0, v563.toNat, 0]

def k0_chk57 (v562 : BitVec 32) : Prop :=
  (∀ a, (k0_off114 v562) a + S1x1x512.size a ≤ S1x4096x512.size a)
instance k0_chk57.dec : ∀ (v562 : BitVec 32), Decidable (k0_chk57 v562) := fun v562 => decidable_of_iff' _ (Iff.of_eq (k0_chk57.eq_1 v562))
theorem k0_off114_inb : ∀ (v562 : BitVec 32) (k0_hw57 : k0_chk57 v562), ∀ a, (k0_off114 v562) a + S1x1x512.size a ≤ S1x4096x512.size a := fun v562 k0_hw57 => k0_hw57

def k0_off115 (i : grid0.Coords) : Fin 2 → Nat :=
  let arg0 : BitVec 32 := BitVec.ofNat 32 (i 0).val
  let v570 : Index := Scalar.indexCast arg0
  let c57_i32 : BitVec 32 := 57#32
  let v571 : Index := Scalar.indexCast c57_i32
  ![v570.toNat, 57]
def k0_off116 (v572 : BitVec 32) : Fin 3 → Nat :=
  let c0_227 : Index := 0#32
  let v573 : Index := Scalar.indexCast v572
  let c0_228 : Index := 0#32
  ![0, v573.toNat, 0]

def k0_chk58 (v572 : BitVec 32) : Prop :=
  (∀ a, (k0_off116 v572) a + S1x1x512.size a ≤ S1x4096x512.size a)
instance k0_chk58.dec : ∀ (v572 : BitVec 32), Decidable (k0_chk58 v572) := fun v572 => decidable_of_iff' _ (Iff.of_eq (k0_chk58.eq_1 v572))
theorem k0_off116_inb : ∀ (v572 : BitVec 32) (k0_hw58 : k0_chk58 v572), ∀ a, (k0_off116 v572) a + S1x1x512.size a ≤ S1x4096x512.size a := fun v572 k0_hw58 => k0_hw58

def k0_off117 (i : grid0.Coords) : Fin 2 → Nat :=
  let arg0 : BitVec 32 := BitVec.ofNat 32 (i 0).val
  let v580 : Index := Scalar.indexCast arg0
  let c58_i32 : BitVec 32 := 58#32
  let v581 : Index := Scalar.indexCast c58_i32
  ![v580.toNat, 58]
def k0_off118 (v582 : BitVec 32) : Fin 3 → Nat :=
  let c0_231 : Index := 0#32
  let v583 : Index := Scalar.indexCast v582
  let c0_232 : Index := 0#32
  ![0, v583.toNat, 0]

def k0_chk59 (v582 : BitVec 32) : Prop :=
  (∀ a, (k0_off118 v582) a + S1x1x512.size a ≤ S1x4096x512.size a)
instance k0_chk59.dec : ∀ (v582 : BitVec 32), Decidable (k0_chk59 v582) := fun v582 => decidable_of_iff' _ (Iff.of_eq (k0_chk59.eq_1 v582))
theorem k0_off118_inb : ∀ (v582 : BitVec 32) (k0_hw59 : k0_chk59 v582), ∀ a, (k0_off118 v582) a + S1x1x512.size a ≤ S1x4096x512.size a := fun v582 k0_hw59 => k0_hw59

def k0_off119 (i : grid0.Coords) : Fin 2 → Nat :=
  let arg0 : BitVec 32 := BitVec.ofNat 32 (i 0).val
  let v590 : Index := Scalar.indexCast arg0
  let c59_i32 : BitVec 32 := 59#32
  let v591 : Index := Scalar.indexCast c59_i32
  ![v590.toNat, 59]
def k0_off120 (v592 : BitVec 32) : Fin 3 → Nat :=
  let c0_235 : Index := 0#32
  let v593 : Index := Scalar.indexCast v592
  let c0_236 : Index := 0#32
  ![0, v593.toNat, 0]

def k0_chk60 (v592 : BitVec 32) : Prop :=
  (∀ a, (k0_off120 v592) a + S1x1x512.size a ≤ S1x4096x512.size a)
instance k0_chk60.dec : ∀ (v592 : BitVec 32), Decidable (k0_chk60 v592) := fun v592 => decidable_of_iff' _ (Iff.of_eq (k0_chk60.eq_1 v592))
theorem k0_off120_inb : ∀ (v592 : BitVec 32) (k0_hw60 : k0_chk60 v592), ∀ a, (k0_off120 v592) a + S1x1x512.size a ≤ S1x4096x512.size a := fun v592 k0_hw60 => k0_hw60

def k0_off121 (i : grid0.Coords) : Fin 2 → Nat :=
  let arg0 : BitVec 32 := BitVec.ofNat 32 (i 0).val
  let v600 : Index := Scalar.indexCast arg0
  let c60_i32 : BitVec 32 := 60#32
  let v601 : Index := Scalar.indexCast c60_i32
  ![v600.toNat, 60]
def k0_off122 (v602 : BitVec 32) : Fin 3 → Nat :=
  let c0_239 : Index := 0#32
  let v603 : Index := Scalar.indexCast v602
  let c0_240 : Index := 0#32
  ![0, v603.toNat, 0]

def k0_chk61 (v602 : BitVec 32) : Prop :=
  (∀ a, (k0_off122 v602) a + S1x1x512.size a ≤ S1x4096x512.size a)
instance k0_chk61.dec : ∀ (v602 : BitVec 32), Decidable (k0_chk61 v602) := fun v602 => decidable_of_iff' _ (Iff.of_eq (k0_chk61.eq_1 v602))
theorem k0_off122_inb : ∀ (v602 : BitVec 32) (k0_hw61 : k0_chk61 v602), ∀ a, (k0_off122 v602) a + S1x1x512.size a ≤ S1x4096x512.size a := fun v602 k0_hw61 => k0_hw61

def k0_off123 (i : grid0.Coords) : Fin 2 → Nat :=
  let arg0 : BitVec 32 := BitVec.ofNat 32 (i 0).val
  let v610 : Index := Scalar.indexCast arg0
  let c61_i32 : BitVec 32 := 61#32
  let v611 : Index := Scalar.indexCast c61_i32
  ![v610.toNat, 61]
def k0_off124 (v612 : BitVec 32) : Fin 3 → Nat :=
  let c0_243 : Index := 0#32
  let v613 : Index := Scalar.indexCast v612
  let c0_244 : Index := 0#32
  ![0, v613.toNat, 0]

def k0_chk62 (v612 : BitVec 32) : Prop :=
  (∀ a, (k0_off124 v612) a + S1x1x512.size a ≤ S1x4096x512.size a)
instance k0_chk62.dec : ∀ (v612 : BitVec 32), Decidable (k0_chk62 v612) := fun v612 => decidable_of_iff' _ (Iff.of_eq (k0_chk62.eq_1 v612))
theorem k0_off124_inb : ∀ (v612 : BitVec 32) (k0_hw62 : k0_chk62 v612), ∀ a, (k0_off124 v612) a + S1x1x512.size a ≤ S1x4096x512.size a := fun v612 k0_hw62 => k0_hw62

def k0_off125 (i : grid0.Coords) : Fin 2 → Nat :=
  let arg0 : BitVec 32 := BitVec.ofNat 32 (i 0).val
  let v620 : Index := Scalar.indexCast arg0
  let c62_i32 : BitVec 32 := 62#32
  let v621 : Index := Scalar.indexCast c62_i32
  ![v620.toNat, 62]
def k0_off126 (v622 : BitVec 32) : Fin 3 → Nat :=
  let c0_247 : Index := 0#32
  let v623 : Index := Scalar.indexCast v622
  let c0_248 : Index := 0#32
  ![0, v623.toNat, 0]

def k0_chk63 (v622 : BitVec 32) : Prop :=
  (∀ a, (k0_off126 v622) a + S1x1x512.size a ≤ S1x4096x512.size a)
instance k0_chk63.dec : ∀ (v622 : BitVec 32), Decidable (k0_chk63 v622) := fun v622 => decidable_of_iff' _ (Iff.of_eq (k0_chk63.eq_1 v622))
theorem k0_off126_inb : ∀ (v622 : BitVec 32) (k0_hw63 : k0_chk63 v622), ∀ a, (k0_off126 v622) a + S1x1x512.size a ≤ S1x4096x512.size a := fun v622 k0_hw63 => k0_hw63

def k0_off127 (i : grid0.Coords) : Fin 2 → Nat :=
  let arg0 : BitVec 32 := BitVec.ofNat 32 (i 0).val
  let v630 : Index := Scalar.indexCast arg0
  let c63_i32 : BitVec 32 := 63#32
  let v631 : Index := Scalar.indexCast c63_i32
  ![v630.toNat, 63]
def k0_off128 (v632 : BitVec 32) : Fin 3 → Nat :=
  let c0_251 : Index := 0#32
  let v633 : Index := Scalar.indexCast v632
  let c0_252 : Index := 0#32
  ![0, v633.toNat, 0]

def k0_chk64 (v632 : BitVec 32) : Prop :=
  (∀ a, (k0_off128 v632) a + S1x1x512.size a ≤ S1x4096x512.size a)
instance k0_chk64.dec : ∀ (v632 : BitVec 32), Decidable (k0_chk64 v632) := fun v632 => decidable_of_iff' _ (Iff.of_eq (k0_chk64.eq_1 v632))
theorem k0_off128_inb : ∀ (v632 : BitVec 32) (k0_hw64 : k0_chk64 v632), ∀ a, (k0_off128 v632) a + S1x1x512.size a ≤ S1x4096x512.size a := fun v632 k0_hw64 => k0_hw64

def k0_off129 (i : grid0.Coords) : Fin 2 → Nat :=
  let arg0 : BitVec 32 := BitVec.ofNat 32 (i 0).val
  let v640 : Index := Scalar.indexCast arg0
  let c64_i32 : BitVec 32 := 64#32
  let v641 : Index := Scalar.indexCast c64_i32
  ![v640.toNat, 64]
def k0_off130 (v642 : BitVec 32) : Fin 3 → Nat :=
  let c0_255 : Index := 0#32
  let v643 : Index := Scalar.indexCast v642
  let c0_256 : Index := 0#32
  ![0, v643.toNat, 0]

def k0_chk65 (v642 : BitVec 32) : Prop :=
  (∀ a, (k0_off130 v642) a + S1x1x512.size a ≤ S1x4096x512.size a)
instance k0_chk65.dec : ∀ (v642 : BitVec 32), Decidable (k0_chk65 v642) := fun v642 => decidable_of_iff' _ (Iff.of_eq (k0_chk65.eq_1 v642))
theorem k0_off130_inb : ∀ (v642 : BitVec 32) (k0_hw65 : k0_chk65 v642), ∀ a, (k0_off130 v642) a + S1x1x512.size a ≤ S1x4096x512.size a := fun v642 k0_hw65 => k0_hw65

def k0_off131 (i : grid0.Coords) : Fin 2 → Nat :=
  let arg0 : BitVec 32 := BitVec.ofNat 32 (i 0).val
  let v650 : Index := Scalar.indexCast arg0
  let c65_i32 : BitVec 32 := 65#32
  let v651 : Index := Scalar.indexCast c65_i32
  ![v650.toNat, 65]
def k0_off132 (v652 : BitVec 32) : Fin 3 → Nat :=
  let c0_259 : Index := 0#32
  let v653 : Index := Scalar.indexCast v652
  let c0_260 : Index := 0#32
  ![0, v653.toNat, 0]

def k0_chk66 (v652 : BitVec 32) : Prop :=
  (∀ a, (k0_off132 v652) a + S1x1x512.size a ≤ S1x4096x512.size a)
instance k0_chk66.dec : ∀ (v652 : BitVec 32), Decidable (k0_chk66 v652) := fun v652 => decidable_of_iff' _ (Iff.of_eq (k0_chk66.eq_1 v652))
theorem k0_off132_inb : ∀ (v652 : BitVec 32) (k0_hw66 : k0_chk66 v652), ∀ a, (k0_off132 v652) a + S1x1x512.size a ≤ S1x4096x512.size a := fun v652 k0_hw66 => k0_hw66

def k0_off133 (i : grid0.Coords) : Fin 2 → Nat :=
  let arg0 : BitVec 32 := BitVec.ofNat 32 (i 0).val
  let v660 : Index := Scalar.indexCast arg0
  let c66_i32 : BitVec 32 := 66#32
  let v661 : Index := Scalar.indexCast c66_i32
  ![v660.toNat, 66]
def k0_off134 (v662 : BitVec 32) : Fin 3 → Nat :=
  let c0_263 : Index := 0#32
  let v663 : Index := Scalar.indexCast v662
  let c0_264 : Index := 0#32
  ![0, v663.toNat, 0]

def k0_chk67 (v662 : BitVec 32) : Prop :=
  (∀ a, (k0_off134 v662) a + S1x1x512.size a ≤ S1x4096x512.size a)
instance k0_chk67.dec : ∀ (v662 : BitVec 32), Decidable (k0_chk67 v662) := fun v662 => decidable_of_iff' _ (Iff.of_eq (k0_chk67.eq_1 v662))
theorem k0_off134_inb : ∀ (v662 : BitVec 32) (k0_hw67 : k0_chk67 v662), ∀ a, (k0_off134 v662) a + S1x1x512.size a ≤ S1x4096x512.size a := fun v662 k0_hw67 => k0_hw67

def k0_off135 (i : grid0.Coords) : Fin 2 → Nat :=
  let arg0 : BitVec 32 := BitVec.ofNat 32 (i 0).val
  let v670 : Index := Scalar.indexCast arg0
  let c67_i32 : BitVec 32 := 67#32
  let v671 : Index := Scalar.indexCast c67_i32
  ![v670.toNat, 67]
def k0_off136 (v672 : BitVec 32) : Fin 3 → Nat :=
  let c0_267 : Index := 0#32
  let v673 : Index := Scalar.indexCast v672
  let c0_268 : Index := 0#32
  ![0, v673.toNat, 0]

def k0_chk68 (v672 : BitVec 32) : Prop :=
  (∀ a, (k0_off136 v672) a + S1x1x512.size a ≤ S1x4096x512.size a)
instance k0_chk68.dec : ∀ (v672 : BitVec 32), Decidable (k0_chk68 v672) := fun v672 => decidable_of_iff' _ (Iff.of_eq (k0_chk68.eq_1 v672))
theorem k0_off136_inb : ∀ (v672 : BitVec 32) (k0_hw68 : k0_chk68 v672), ∀ a, (k0_off136 v672) a + S1x1x512.size a ≤ S1x4096x512.size a := fun v672 k0_hw68 => k0_hw68

def k0_off137 (i : grid0.Coords) : Fin 2 → Nat :=
  let arg0 : BitVec 32 := BitVec.ofNat 32 (i 0).val
  let v680 : Index := Scalar.indexCast arg0
  let c68_i32 : BitVec 32 := 68#32
  let v681 : Index := Scalar.indexCast c68_i32
  ![v680.toNat, 68]
def k0_off138 (v682 : BitVec 32) : Fin 3 → Nat :=
  let c0_271 : Index := 0#32
  let v683 : Index := Scalar.indexCast v682
  let c0_272 : Index := 0#32
  ![0, v683.toNat, 0]

def k0_chk69 (v682 : BitVec 32) : Prop :=
  (∀ a, (k0_off138 v682) a + S1x1x512.size a ≤ S1x4096x512.size a)
instance k0_chk69.dec : ∀ (v682 : BitVec 32), Decidable (k0_chk69 v682) := fun v682 => decidable_of_iff' _ (Iff.of_eq (k0_chk69.eq_1 v682))
theorem k0_off138_inb : ∀ (v682 : BitVec 32) (k0_hw69 : k0_chk69 v682), ∀ a, (k0_off138 v682) a + S1x1x512.size a ≤ S1x4096x512.size a := fun v682 k0_hw69 => k0_hw69

def k0_off139 (i : grid0.Coords) : Fin 2 → Nat :=
  let arg0 : BitVec 32 := BitVec.ofNat 32 (i 0).val
  let v690 : Index := Scalar.indexCast arg0
  let c69_i32 : BitVec 32 := 69#32
  let v691 : Index := Scalar.indexCast c69_i32
  ![v690.toNat, 69]
def k0_off140 (v692 : BitVec 32) : Fin 3 → Nat :=
  let c0_275 : Index := 0#32
  let v693 : Index := Scalar.indexCast v692
  let c0_276 : Index := 0#32
  ![0, v693.toNat, 0]

def k0_chk70 (v692 : BitVec 32) : Prop :=
  (∀ a, (k0_off140 v692) a + S1x1x512.size a ≤ S1x4096x512.size a)
instance k0_chk70.dec : ∀ (v692 : BitVec 32), Decidable (k0_chk70 v692) := fun v692 => decidable_of_iff' _ (Iff.of_eq (k0_chk70.eq_1 v692))
theorem k0_off140_inb : ∀ (v692 : BitVec 32) (k0_hw70 : k0_chk70 v692), ∀ a, (k0_off140 v692) a + S1x1x512.size a ≤ S1x4096x512.size a := fun v692 k0_hw70 => k0_hw70

def k0_off141 (i : grid0.Coords) : Fin 2 → Nat :=
  let arg0 : BitVec 32 := BitVec.ofNat 32 (i 0).val
  let v700 : Index := Scalar.indexCast arg0
  let c70_i32 : BitVec 32 := 70#32
  let v701 : Index := Scalar.indexCast c70_i32
  ![v700.toNat, 70]
def k0_off142 (v702 : BitVec 32) : Fin 3 → Nat :=
  let c0_279 : Index := 0#32
  let v703 : Index := Scalar.indexCast v702
  let c0_280 : Index := 0#32
  ![0, v703.toNat, 0]

def k0_chk71 (v702 : BitVec 32) : Prop :=
  (∀ a, (k0_off142 v702) a + S1x1x512.size a ≤ S1x4096x512.size a)
instance k0_chk71.dec : ∀ (v702 : BitVec 32), Decidable (k0_chk71 v702) := fun v702 => decidable_of_iff' _ (Iff.of_eq (k0_chk71.eq_1 v702))
theorem k0_off142_inb : ∀ (v702 : BitVec 32) (k0_hw71 : k0_chk71 v702), ∀ a, (k0_off142 v702) a + S1x1x512.size a ≤ S1x4096x512.size a := fun v702 k0_hw71 => k0_hw71

def k0_off143 (i : grid0.Coords) : Fin 2 → Nat :=
  let arg0 : BitVec 32 := BitVec.ofNat 32 (i 0).val
  let v710 : Index := Scalar.indexCast arg0
  let c71_i32 : BitVec 32 := 71#32
  let v711 : Index := Scalar.indexCast c71_i32
  ![v710.toNat, 71]
def k0_off144 (v712 : BitVec 32) : Fin 3 → Nat :=
  let c0_283 : Index := 0#32
  let v713 : Index := Scalar.indexCast v712
  let c0_284 : Index := 0#32
  ![0, v713.toNat, 0]

def k0_chk72 (v712 : BitVec 32) : Prop :=
  (∀ a, (k0_off144 v712) a + S1x1x512.size a ≤ S1x4096x512.size a)
instance k0_chk72.dec : ∀ (v712 : BitVec 32), Decidable (k0_chk72 v712) := fun v712 => decidable_of_iff' _ (Iff.of_eq (k0_chk72.eq_1 v712))
theorem k0_off144_inb : ∀ (v712 : BitVec 32) (k0_hw72 : k0_chk72 v712), ∀ a, (k0_off144 v712) a + S1x1x512.size a ≤ S1x4096x512.size a := fun v712 k0_hw72 => k0_hw72

def k0_off145 (i : grid0.Coords) : Fin 2 → Nat :=
  let arg0 : BitVec 32 := BitVec.ofNat 32 (i 0).val
  let v720 : Index := Scalar.indexCast arg0
  let c72_i32 : BitVec 32 := 72#32
  let v721 : Index := Scalar.indexCast c72_i32
  ![v720.toNat, 72]
def k0_off146 (v722 : BitVec 32) : Fin 3 → Nat :=
  let c0_287 : Index := 0#32
  let v723 : Index := Scalar.indexCast v722
  let c0_288 : Index := 0#32
  ![0, v723.toNat, 0]

def k0_chk73 (v722 : BitVec 32) : Prop :=
  (∀ a, (k0_off146 v722) a + S1x1x512.size a ≤ S1x4096x512.size a)
instance k0_chk73.dec : ∀ (v722 : BitVec 32), Decidable (k0_chk73 v722) := fun v722 => decidable_of_iff' _ (Iff.of_eq (k0_chk73.eq_1 v722))
theorem k0_off146_inb : ∀ (v722 : BitVec 32) (k0_hw73 : k0_chk73 v722), ∀ a, (k0_off146 v722) a + S1x1x512.size a ≤ S1x4096x512.size a := fun v722 k0_hw73 => k0_hw73

def k0_off147 (i : grid0.Coords) : Fin 2 → Nat :=
  let arg0 : BitVec 32 := BitVec.ofNat 32 (i 0).val
  let v730 : Index := Scalar.indexCast arg0
  let c73_i32 : BitVec 32 := 73#32
  let v731 : Index := Scalar.indexCast c73_i32
  ![v730.toNat, 73]
def k0_off148 (v732 : BitVec 32) : Fin 3 → Nat :=
  let c0_291 : Index := 0#32
  let v733 : Index := Scalar.indexCast v732
  let c0_292 : Index := 0#32
  ![0, v733.toNat, 0]

def k0_chk74 (v732 : BitVec 32) : Prop :=
  (∀ a, (k0_off148 v732) a + S1x1x512.size a ≤ S1x4096x512.size a)
instance k0_chk74.dec : ∀ (v732 : BitVec 32), Decidable (k0_chk74 v732) := fun v732 => decidable_of_iff' _ (Iff.of_eq (k0_chk74.eq_1 v732))
theorem k0_off148_inb : ∀ (v732 : BitVec 32) (k0_hw74 : k0_chk74 v732), ∀ a, (k0_off148 v732) a + S1x1x512.size a ≤ S1x4096x512.size a := fun v732 k0_hw74 => k0_hw74

def k0_off149 (i : grid0.Coords) : Fin 2 → Nat :=
  let arg0 : BitVec 32 := BitVec.ofNat 32 (i 0).val
  let v740 : Index := Scalar.indexCast arg0
  let c74_i32 : BitVec 32 := 74#32
  let v741 : Index := Scalar.indexCast c74_i32
  ![v740.toNat, 74]
def k0_off150 (v742 : BitVec 32) : Fin 3 → Nat :=
  let c0_295 : Index := 0#32
  let v743 : Index := Scalar.indexCast v742
  let c0_296 : Index := 0#32
  ![0, v743.toNat, 0]

def k0_chk75 (v742 : BitVec 32) : Prop :=
  (∀ a, (k0_off150 v742) a + S1x1x512.size a ≤ S1x4096x512.size a)
instance k0_chk75.dec : ∀ (v742 : BitVec 32), Decidable (k0_chk75 v742) := fun v742 => decidable_of_iff' _ (Iff.of_eq (k0_chk75.eq_1 v742))
theorem k0_off150_inb : ∀ (v742 : BitVec 32) (k0_hw75 : k0_chk75 v742), ∀ a, (k0_off150 v742) a + S1x1x512.size a ≤ S1x4096x512.size a := fun v742 k0_hw75 => k0_hw75

def k0_off151 (i : grid0.Coords) : Fin 2 → Nat :=
  let arg0 : BitVec 32 := BitVec.ofNat 32 (i 0).val
  let v750 : Index := Scalar.indexCast arg0
  let c75_i32 : BitVec 32 := 75#32
  let v751 : Index := Scalar.indexCast c75_i32
  ![v750.toNat, 75]
def k0_off152 (v752 : BitVec 32) : Fin 3 → Nat :=
  let c0_299 : Index := 0#32
  let v753 : Index := Scalar.indexCast v752
  let c0_300 : Index := 0#32
  ![0, v753.toNat, 0]

def k0_chk76 (v752 : BitVec 32) : Prop :=
  (∀ a, (k0_off152 v752) a + S1x1x512.size a ≤ S1x4096x512.size a)
instance k0_chk76.dec : ∀ (v752 : BitVec 32), Decidable (k0_chk76 v752) := fun v752 => decidable_of_iff' _ (Iff.of_eq (k0_chk76.eq_1 v752))
theorem k0_off152_inb : ∀ (v752 : BitVec 32) (k0_hw76 : k0_chk76 v752), ∀ a, (k0_off152 v752) a + S1x1x512.size a ≤ S1x4096x512.size a := fun v752 k0_hw76 => k0_hw76

def k0_off153 (i : grid0.Coords) : Fin 2 → Nat :=
  let arg0 : BitVec 32 := BitVec.ofNat 32 (i 0).val
  let v760 : Index := Scalar.indexCast arg0
  let c76_i32 : BitVec 32 := 76#32
  let v761 : Index := Scalar.indexCast c76_i32
  ![v760.toNat, 76]
def k0_off154 (v762 : BitVec 32) : Fin 3 → Nat :=
  let c0_303 : Index := 0#32
  let v763 : Index := Scalar.indexCast v762
  let c0_304 : Index := 0#32
  ![0, v763.toNat, 0]

def k0_chk77 (v762 : BitVec 32) : Prop :=
  (∀ a, (k0_off154 v762) a + S1x1x512.size a ≤ S1x4096x512.size a)
instance k0_chk77.dec : ∀ (v762 : BitVec 32), Decidable (k0_chk77 v762) := fun v762 => decidable_of_iff' _ (Iff.of_eq (k0_chk77.eq_1 v762))
theorem k0_off154_inb : ∀ (v762 : BitVec 32) (k0_hw77 : k0_chk77 v762), ∀ a, (k0_off154 v762) a + S1x1x512.size a ≤ S1x4096x512.size a := fun v762 k0_hw77 => k0_hw77

def k0_off155 (i : grid0.Coords) : Fin 2 → Nat :=
  let arg0 : BitVec 32 := BitVec.ofNat 32 (i 0).val
  let v770 : Index := Scalar.indexCast arg0
  let c77_i32 : BitVec 32 := 77#32
  let v771 : Index := Scalar.indexCast c77_i32
  ![v770.toNat, 77]
def k0_off156 (v772 : BitVec 32) : Fin 3 → Nat :=
  let c0_307 : Index := 0#32
  let v773 : Index := Scalar.indexCast v772
  let c0_308 : Index := 0#32
  ![0, v773.toNat, 0]

def k0_chk78 (v772 : BitVec 32) : Prop :=
  (∀ a, (k0_off156 v772) a + S1x1x512.size a ≤ S1x4096x512.size a)
instance k0_chk78.dec : ∀ (v772 : BitVec 32), Decidable (k0_chk78 v772) := fun v772 => decidable_of_iff' _ (Iff.of_eq (k0_chk78.eq_1 v772))
theorem k0_off156_inb : ∀ (v772 : BitVec 32) (k0_hw78 : k0_chk78 v772), ∀ a, (k0_off156 v772) a + S1x1x512.size a ≤ S1x4096x512.size a := fun v772 k0_hw78 => k0_hw78

def k0_off157 (i : grid0.Coords) : Fin 2 → Nat :=
  let arg0 : BitVec 32 := BitVec.ofNat 32 (i 0).val
  let v780 : Index := Scalar.indexCast arg0
  let c78_i32 : BitVec 32 := 78#32
  let v781 : Index := Scalar.indexCast c78_i32
  ![v780.toNat, 78]
def k0_off158 (v782 : BitVec 32) : Fin 3 → Nat :=
  let c0_311 : Index := 0#32
  let v783 : Index := Scalar.indexCast v782
  let c0_312 : Index := 0#32
  ![0, v783.toNat, 0]

def k0_chk79 (v782 : BitVec 32) : Prop :=
  (∀ a, (k0_off158 v782) a + S1x1x512.size a ≤ S1x4096x512.size a)
instance k0_chk79.dec : ∀ (v782 : BitVec 32), Decidable (k0_chk79 v782) := fun v782 => decidable_of_iff' _ (Iff.of_eq (k0_chk79.eq_1 v782))
theorem k0_off158_inb : ∀ (v782 : BitVec 32) (k0_hw79 : k0_chk79 v782), ∀ a, (k0_off158 v782) a + S1x1x512.size a ≤ S1x4096x512.size a := fun v782 k0_hw79 => k0_hw79

def k0_off159 (i : grid0.Coords) : Fin 2 → Nat :=
  let arg0 : BitVec 32 := BitVec.ofNat 32 (i 0).val
  let v790 : Index := Scalar.indexCast arg0
  let c79_i32 : BitVec 32 := 79#32
  let v791 : Index := Scalar.indexCast c79_i32
  ![v790.toNat, 79]
def k0_off160 (v792 : BitVec 32) : Fin 3 → Nat :=
  let c0_315 : Index := 0#32
  let v793 : Index := Scalar.indexCast v792
  let c0_316 : Index := 0#32
  ![0, v793.toNat, 0]

def k0_chk80 (v792 : BitVec 32) : Prop :=
  (∀ a, (k0_off160 v792) a + S1x1x512.size a ≤ S1x4096x512.size a)
instance k0_chk80.dec : ∀ (v792 : BitVec 32), Decidable (k0_chk80 v792) := fun v792 => decidable_of_iff' _ (Iff.of_eq (k0_chk80.eq_1 v792))
theorem k0_off160_inb : ∀ (v792 : BitVec 32) (k0_hw80 : k0_chk80 v792), ∀ a, (k0_off160 v792) a + S1x1x512.size a ≤ S1x4096x512.size a := fun v792 k0_hw80 => k0_hw80

def k0_off161 (i : grid0.Coords) : Fin 2 → Nat :=
  let arg0 : BitVec 32 := BitVec.ofNat 32 (i 0).val
  let v800 : Index := Scalar.indexCast arg0
  let c80_i32 : BitVec 32 := 80#32
  let v801 : Index := Scalar.indexCast c80_i32
  ![v800.toNat, 80]
def k0_off162 (v802 : BitVec 32) : Fin 3 → Nat :=
  let c0_319 : Index := 0#32
  let v803 : Index := Scalar.indexCast v802
  let c0_320 : Index := 0#32
  ![0, v803.toNat, 0]

def k0_chk81 (v802 : BitVec 32) : Prop :=
  (∀ a, (k0_off162 v802) a + S1x1x512.size a ≤ S1x4096x512.size a)
instance k0_chk81.dec : ∀ (v802 : BitVec 32), Decidable (k0_chk81 v802) := fun v802 => decidable_of_iff' _ (Iff.of_eq (k0_chk81.eq_1 v802))
theorem k0_off162_inb : ∀ (v802 : BitVec 32) (k0_hw81 : k0_chk81 v802), ∀ a, (k0_off162 v802) a + S1x1x512.size a ≤ S1x4096x512.size a := fun v802 k0_hw81 => k0_hw81

def k0_off163 (i : grid0.Coords) : Fin 2 → Nat :=
  let arg0 : BitVec 32 := BitVec.ofNat 32 (i 0).val
  let v810 : Index := Scalar.indexCast arg0
  let c81_i32 : BitVec 32 := 81#32
  let v811 : Index := Scalar.indexCast c81_i32
  ![v810.toNat, 81]
def k0_off164 (v812 : BitVec 32) : Fin 3 → Nat :=
  let c0_323 : Index := 0#32
  let v813 : Index := Scalar.indexCast v812
  let c0_324 : Index := 0#32
  ![0, v813.toNat, 0]

def k0_chk82 (v812 : BitVec 32) : Prop :=
  (∀ a, (k0_off164 v812) a + S1x1x512.size a ≤ S1x4096x512.size a)
instance k0_chk82.dec : ∀ (v812 : BitVec 32), Decidable (k0_chk82 v812) := fun v812 => decidable_of_iff' _ (Iff.of_eq (k0_chk82.eq_1 v812))
theorem k0_off164_inb : ∀ (v812 : BitVec 32) (k0_hw82 : k0_chk82 v812), ∀ a, (k0_off164 v812) a + S1x1x512.size a ≤ S1x4096x512.size a := fun v812 k0_hw82 => k0_hw82

def k0_off165 (i : grid0.Coords) : Fin 2 → Nat :=
  let arg0 : BitVec 32 := BitVec.ofNat 32 (i 0).val
  let v820 : Index := Scalar.indexCast arg0
  let c82_i32 : BitVec 32 := 82#32
  let v821 : Index := Scalar.indexCast c82_i32
  ![v820.toNat, 82]
def k0_off166 (v822 : BitVec 32) : Fin 3 → Nat :=
  let c0_327 : Index := 0#32
  let v823 : Index := Scalar.indexCast v822
  let c0_328 : Index := 0#32
  ![0, v823.toNat, 0]

def k0_chk83 (v822 : BitVec 32) : Prop :=
  (∀ a, (k0_off166 v822) a + S1x1x512.size a ≤ S1x4096x512.size a)
instance k0_chk83.dec : ∀ (v822 : BitVec 32), Decidable (k0_chk83 v822) := fun v822 => decidable_of_iff' _ (Iff.of_eq (k0_chk83.eq_1 v822))
theorem k0_off166_inb : ∀ (v822 : BitVec 32) (k0_hw83 : k0_chk83 v822), ∀ a, (k0_off166 v822) a + S1x1x512.size a ≤ S1x4096x512.size a := fun v822 k0_hw83 => k0_hw83

def k0_off167 (i : grid0.Coords) : Fin 2 → Nat :=
  let arg0 : BitVec 32 := BitVec.ofNat 32 (i 0).val
  let v830 : Index := Scalar.indexCast arg0
  let c83_i32 : BitVec 32 := 83#32
  let v831 : Index := Scalar.indexCast c83_i32
  ![v830.toNat, 83]
def k0_off168 (v832 : BitVec 32) : Fin 3 → Nat :=
  let c0_331 : Index := 0#32
  let v833 : Index := Scalar.indexCast v832
  let c0_332 : Index := 0#32
  ![0, v833.toNat, 0]

def k0_chk84 (v832 : BitVec 32) : Prop :=
  (∀ a, (k0_off168 v832) a + S1x1x512.size a ≤ S1x4096x512.size a)
instance k0_chk84.dec : ∀ (v832 : BitVec 32), Decidable (k0_chk84 v832) := fun v832 => decidable_of_iff' _ (Iff.of_eq (k0_chk84.eq_1 v832))
theorem k0_off168_inb : ∀ (v832 : BitVec 32) (k0_hw84 : k0_chk84 v832), ∀ a, (k0_off168 v832) a + S1x1x512.size a ≤ S1x4096x512.size a := fun v832 k0_hw84 => k0_hw84

def k0_off169 (i : grid0.Coords) : Fin 2 → Nat :=
  let arg0 : BitVec 32 := BitVec.ofNat 32 (i 0).val
  let v840 : Index := Scalar.indexCast arg0
  let c84_i32 : BitVec 32 := 84#32
  let v841 : Index := Scalar.indexCast c84_i32
  ![v840.toNat, 84]
def k0_off170 (v842 : BitVec 32) : Fin 3 → Nat :=
  let c0_335 : Index := 0#32
  let v843 : Index := Scalar.indexCast v842
  let c0_336 : Index := 0#32
  ![0, v843.toNat, 0]

def k0_chk85 (v842 : BitVec 32) : Prop :=
  (∀ a, (k0_off170 v842) a + S1x1x512.size a ≤ S1x4096x512.size a)
instance k0_chk85.dec : ∀ (v842 : BitVec 32), Decidable (k0_chk85 v842) := fun v842 => decidable_of_iff' _ (Iff.of_eq (k0_chk85.eq_1 v842))
theorem k0_off170_inb : ∀ (v842 : BitVec 32) (k0_hw85 : k0_chk85 v842), ∀ a, (k0_off170 v842) a + S1x1x512.size a ≤ S1x4096x512.size a := fun v842 k0_hw85 => k0_hw85

def k0_off171 (i : grid0.Coords) : Fin 2 → Nat :=
  let arg0 : BitVec 32 := BitVec.ofNat 32 (i 0).val
  let v850 : Index := Scalar.indexCast arg0
  let c85_i32 : BitVec 32 := 85#32
  let v851 : Index := Scalar.indexCast c85_i32
  ![v850.toNat, 85]
def k0_off172 (v852 : BitVec 32) : Fin 3 → Nat :=
  let c0_339 : Index := 0#32
  let v853 : Index := Scalar.indexCast v852
  let c0_340 : Index := 0#32
  ![0, v853.toNat, 0]

def k0_chk86 (v852 : BitVec 32) : Prop :=
  (∀ a, (k0_off172 v852) a + S1x1x512.size a ≤ S1x4096x512.size a)
instance k0_chk86.dec : ∀ (v852 : BitVec 32), Decidable (k0_chk86 v852) := fun v852 => decidable_of_iff' _ (Iff.of_eq (k0_chk86.eq_1 v852))
theorem k0_off172_inb : ∀ (v852 : BitVec 32) (k0_hw86 : k0_chk86 v852), ∀ a, (k0_off172 v852) a + S1x1x512.size a ≤ S1x4096x512.size a := fun v852 k0_hw86 => k0_hw86

def k0_off173 (i : grid0.Coords) : Fin 2 → Nat :=
  let arg0 : BitVec 32 := BitVec.ofNat 32 (i 0).val
  let v860 : Index := Scalar.indexCast arg0
  let c86_i32 : BitVec 32 := 86#32
  let v861 : Index := Scalar.indexCast c86_i32
  ![v860.toNat, 86]
def k0_off174 (v862 : BitVec 32) : Fin 3 → Nat :=
  let c0_343 : Index := 0#32
  let v863 : Index := Scalar.indexCast v862
  let c0_344 : Index := 0#32
  ![0, v863.toNat, 0]

def k0_chk87 (v862 : BitVec 32) : Prop :=
  (∀ a, (k0_off174 v862) a + S1x1x512.size a ≤ S1x4096x512.size a)
instance k0_chk87.dec : ∀ (v862 : BitVec 32), Decidable (k0_chk87 v862) := fun v862 => decidable_of_iff' _ (Iff.of_eq (k0_chk87.eq_1 v862))
theorem k0_off174_inb : ∀ (v862 : BitVec 32) (k0_hw87 : k0_chk87 v862), ∀ a, (k0_off174 v862) a + S1x1x512.size a ≤ S1x4096x512.size a := fun v862 k0_hw87 => k0_hw87

def k0_off175 (i : grid0.Coords) : Fin 2 → Nat :=
  let arg0 : BitVec 32 := BitVec.ofNat 32 (i 0).val
  let v870 : Index := Scalar.indexCast arg0
  let c87_i32 : BitVec 32 := 87#32
  let v871 : Index := Scalar.indexCast c87_i32
  ![v870.toNat, 87]
def k0_off176 (v872 : BitVec 32) : Fin 3 → Nat :=
  let c0_347 : Index := 0#32
  let v873 : Index := Scalar.indexCast v872
  let c0_348 : Index := 0#32
  ![0, v873.toNat, 0]

def k0_chk88 (v872 : BitVec 32) : Prop :=
  (∀ a, (k0_off176 v872) a + S1x1x512.size a ≤ S1x4096x512.size a)
instance k0_chk88.dec : ∀ (v872 : BitVec 32), Decidable (k0_chk88 v872) := fun v872 => decidable_of_iff' _ (Iff.of_eq (k0_chk88.eq_1 v872))
theorem k0_off176_inb : ∀ (v872 : BitVec 32) (k0_hw88 : k0_chk88 v872), ∀ a, (k0_off176 v872) a + S1x1x512.size a ≤ S1x4096x512.size a := fun v872 k0_hw88 => k0_hw88

def k0_off177 (i : grid0.Coords) : Fin 2 → Nat :=
  let arg0 : BitVec 32 := BitVec.ofNat 32 (i 0).val
  let v880 : Index := Scalar.indexCast arg0
  let c88_i32 : BitVec 32 := 88#32
  let v881 : Index := Scalar.indexCast c88_i32
  ![v880.toNat, 88]
def k0_off178 (v882 : BitVec 32) : Fin 3 → Nat :=
  let c0_351 : Index := 0#32
  let v883 : Index := Scalar.indexCast v882
  let c0_352 : Index := 0#32
  ![0, v883.toNat, 0]

def k0_chk89 (v882 : BitVec 32) : Prop :=
  (∀ a, (k0_off178 v882) a + S1x1x512.size a ≤ S1x4096x512.size a)
instance k0_chk89.dec : ∀ (v882 : BitVec 32), Decidable (k0_chk89 v882) := fun v882 => decidable_of_iff' _ (Iff.of_eq (k0_chk89.eq_1 v882))
theorem k0_off178_inb : ∀ (v882 : BitVec 32) (k0_hw89 : k0_chk89 v882), ∀ a, (k0_off178 v882) a + S1x1x512.size a ≤ S1x4096x512.size a := fun v882 k0_hw89 => k0_hw89

def k0_off179 (i : grid0.Coords) : Fin 2 → Nat :=
  let arg0 : BitVec 32 := BitVec.ofNat 32 (i 0).val
  let v890 : Index := Scalar.indexCast arg0
  let c89_i32 : BitVec 32 := 89#32
  let v891 : Index := Scalar.indexCast c89_i32
  ![v890.toNat, 89]
def k0_off180 (v892 : BitVec 32) : Fin 3 → Nat :=
  let c0_355 : Index := 0#32
  let v893 : Index := Scalar.indexCast v892
  let c0_356 : Index := 0#32
  ![0, v893.toNat, 0]

def k0_chk90 (v892 : BitVec 32) : Prop :=
  (∀ a, (k0_off180 v892) a + S1x1x512.size a ≤ S1x4096x512.size a)
instance k0_chk90.dec : ∀ (v892 : BitVec 32), Decidable (k0_chk90 v892) := fun v892 => decidable_of_iff' _ (Iff.of_eq (k0_chk90.eq_1 v892))
theorem k0_off180_inb : ∀ (v892 : BitVec 32) (k0_hw90 : k0_chk90 v892), ∀ a, (k0_off180 v892) a + S1x1x512.size a ≤ S1x4096x512.size a := fun v892 k0_hw90 => k0_hw90

def k0_off181 (i : grid0.Coords) : Fin 2 → Nat :=
  let arg0 : BitVec 32 := BitVec.ofNat 32 (i 0).val
  let v900 : Index := Scalar.indexCast arg0
  let c90_i32 : BitVec 32 := 90#32
  let v901 : Index := Scalar.indexCast c90_i32
  ![v900.toNat, 90]
def k0_off182 (v902 : BitVec 32) : Fin 3 → Nat :=
  let c0_359 : Index := 0#32
  let v903 : Index := Scalar.indexCast v902
  let c0_360 : Index := 0#32
  ![0, v903.toNat, 0]

def k0_chk91 (v902 : BitVec 32) : Prop :=
  (∀ a, (k0_off182 v902) a + S1x1x512.size a ≤ S1x4096x512.size a)
instance k0_chk91.dec : ∀ (v902 : BitVec 32), Decidable (k0_chk91 v902) := fun v902 => decidable_of_iff' _ (Iff.of_eq (k0_chk91.eq_1 v902))
theorem k0_off182_inb : ∀ (v902 : BitVec 32) (k0_hw91 : k0_chk91 v902), ∀ a, (k0_off182 v902) a + S1x1x512.size a ≤ S1x4096x512.size a := fun v902 k0_hw91 => k0_hw91

def k0_off183 (i : grid0.Coords) : Fin 2 → Nat :=
  let arg0 : BitVec 32 := BitVec.ofNat 32 (i 0).val
  let v910 : Index := Scalar.indexCast arg0
  let c91_i32 : BitVec 32 := 91#32
  let v911 : Index := Scalar.indexCast c91_i32
  ![v910.toNat, 91]
def k0_off184 (v912 : BitVec 32) : Fin 3 → Nat :=
  let c0_363 : Index := 0#32
  let v913 : Index := Scalar.indexCast v912
  let c0_364 : Index := 0#32
  ![0, v913.toNat, 0]

def k0_chk92 (v912 : BitVec 32) : Prop :=
  (∀ a, (k0_off184 v912) a + S1x1x512.size a ≤ S1x4096x512.size a)
instance k0_chk92.dec : ∀ (v912 : BitVec 32), Decidable (k0_chk92 v912) := fun v912 => decidable_of_iff' _ (Iff.of_eq (k0_chk92.eq_1 v912))
theorem k0_off184_inb : ∀ (v912 : BitVec 32) (k0_hw92 : k0_chk92 v912), ∀ a, (k0_off184 v912) a + S1x1x512.size a ≤ S1x4096x512.size a := fun v912 k0_hw92 => k0_hw92

def k0_off185 (i : grid0.Coords) : Fin 2 → Nat :=
  let arg0 : BitVec 32 := BitVec.ofNat 32 (i 0).val
  let v920 : Index := Scalar.indexCast arg0
  let c92_i32 : BitVec 32 := 92#32
  let v921 : Index := Scalar.indexCast c92_i32
  ![v920.toNat, 92]
def k0_off186 (v922 : BitVec 32) : Fin 3 → Nat :=
  let c0_367 : Index := 0#32
  let v923 : Index := Scalar.indexCast v922
  let c0_368 : Index := 0#32
  ![0, v923.toNat, 0]

def k0_chk93 (v922 : BitVec 32) : Prop :=
  (∀ a, (k0_off186 v922) a + S1x1x512.size a ≤ S1x4096x512.size a)
instance k0_chk93.dec : ∀ (v922 : BitVec 32), Decidable (k0_chk93 v922) := fun v922 => decidable_of_iff' _ (Iff.of_eq (k0_chk93.eq_1 v922))
theorem k0_off186_inb : ∀ (v922 : BitVec 32) (k0_hw93 : k0_chk93 v922), ∀ a, (k0_off186 v922) a + S1x1x512.size a ≤ S1x4096x512.size a := fun v922 k0_hw93 => k0_hw93

def k0_off187 (i : grid0.Coords) : Fin 2 → Nat :=
  let arg0 : BitVec 32 := BitVec.ofNat 32 (i 0).val
  let v930 : Index := Scalar.indexCast arg0
  let c93_i32 : BitVec 32 := 93#32
  let v931 : Index := Scalar.indexCast c93_i32
  ![v930.toNat, 93]
def k0_off188 (v932 : BitVec 32) : Fin 3 → Nat :=
  let c0_371 : Index := 0#32
  let v933 : Index := Scalar.indexCast v932
  let c0_372 : Index := 0#32
  ![0, v933.toNat, 0]

def k0_chk94 (v932 : BitVec 32) : Prop :=
  (∀ a, (k0_off188 v932) a + S1x1x512.size a ≤ S1x4096x512.size a)
instance k0_chk94.dec : ∀ (v932 : BitVec 32), Decidable (k0_chk94 v932) := fun v932 => decidable_of_iff' _ (Iff.of_eq (k0_chk94.eq_1 v932))
theorem k0_off188_inb : ∀ (v932 : BitVec 32) (k0_hw94 : k0_chk94 v932), ∀ a, (k0_off188 v932) a + S1x1x512.size a ≤ S1x4096x512.size a := fun v932 k0_hw94 => k0_hw94

def k0_off189 (i : grid0.Coords) : Fin 2 → Nat :=
  let arg0 : BitVec 32 := BitVec.ofNat 32 (i 0).val
  let v940 : Index := Scalar.indexCast arg0
  let c94_i32 : BitVec 32 := 94#32
  let v941 : Index := Scalar.indexCast c94_i32
  ![v940.toNat, 94]
def k0_off190 (v942 : BitVec 32) : Fin 3 → Nat :=
  let c0_375 : Index := 0#32
  let v943 : Index := Scalar.indexCast v942
  let c0_376 : Index := 0#32
  ![0, v943.toNat, 0]

def k0_chk95 (v942 : BitVec 32) : Prop :=
  (∀ a, (k0_off190 v942) a + S1x1x512.size a ≤ S1x4096x512.size a)
instance k0_chk95.dec : ∀ (v942 : BitVec 32), Decidable (k0_chk95 v942) := fun v942 => decidable_of_iff' _ (Iff.of_eq (k0_chk95.eq_1 v942))
theorem k0_off190_inb : ∀ (v942 : BitVec 32) (k0_hw95 : k0_chk95 v942), ∀ a, (k0_off190 v942) a + S1x1x512.size a ≤ S1x4096x512.size a := fun v942 k0_hw95 => k0_hw95

def k0_off191 (i : grid0.Coords) : Fin 2 → Nat :=
  let arg0 : BitVec 32 := BitVec.ofNat 32 (i 0).val
  let v950 : Index := Scalar.indexCast arg0
  let c95_i32 : BitVec 32 := 95#32
  let v951 : Index := Scalar.indexCast c95_i32
  ![v950.toNat, 95]
def k0_off192 (v952 : BitVec 32) : Fin 3 → Nat :=
  let c0_379 : Index := 0#32
  let v953 : Index := Scalar.indexCast v952
  let c0_380 : Index := 0#32
  ![0, v953.toNat, 0]

def k0_chk96 (v952 : BitVec 32) : Prop :=
  (∀ a, (k0_off192 v952) a + S1x1x512.size a ≤ S1x4096x512.size a)
instance k0_chk96.dec : ∀ (v952 : BitVec 32), Decidable (k0_chk96 v952) := fun v952 => decidable_of_iff' _ (Iff.of_eq (k0_chk96.eq_1 v952))
theorem k0_off192_inb : ∀ (v952 : BitVec 32) (k0_hw96 : k0_chk96 v952), ∀ a, (k0_off192 v952) a + S1x1x512.size a ≤ S1x4096x512.size a := fun v952 k0_hw96 => k0_hw96

def k0_off193 (i : grid0.Coords) : Fin 2 → Nat :=
  let arg0 : BitVec 32 := BitVec.ofNat 32 (i 0).val
  let v960 : Index := Scalar.indexCast arg0
  let c96_i32 : BitVec 32 := 96#32
  let v961 : Index := Scalar.indexCast c96_i32
  ![v960.toNat, 96]
def k0_off194 (v962 : BitVec 32) : Fin 3 → Nat :=
  let c0_383 : Index := 0#32
  let v963 : Index := Scalar.indexCast v962
  let c0_384 : Index := 0#32
  ![0, v963.toNat, 0]

def k0_chk97 (v962 : BitVec 32) : Prop :=
  (∀ a, (k0_off194 v962) a + S1x1x512.size a ≤ S1x4096x512.size a)
instance k0_chk97.dec : ∀ (v962 : BitVec 32), Decidable (k0_chk97 v962) := fun v962 => decidable_of_iff' _ (Iff.of_eq (k0_chk97.eq_1 v962))
theorem k0_off194_inb : ∀ (v962 : BitVec 32) (k0_hw97 : k0_chk97 v962), ∀ a, (k0_off194 v962) a + S1x1x512.size a ≤ S1x4096x512.size a := fun v962 k0_hw97 => k0_hw97

def k0_off195 (i : grid0.Coords) : Fin 2 → Nat :=
  let arg0 : BitVec 32 := BitVec.ofNat 32 (i 0).val
  let v970 : Index := Scalar.indexCast arg0
  let c97_i32 : BitVec 32 := 97#32
  let v971 : Index := Scalar.indexCast c97_i32
  ![v970.toNat, 97]
def k0_off196 (v972 : BitVec 32) : Fin 3 → Nat :=
  let c0_387 : Index := 0#32
  let v973 : Index := Scalar.indexCast v972
  let c0_388 : Index := 0#32
  ![0, v973.toNat, 0]

def k0_chk98 (v972 : BitVec 32) : Prop :=
  (∀ a, (k0_off196 v972) a + S1x1x512.size a ≤ S1x4096x512.size a)
instance k0_chk98.dec : ∀ (v972 : BitVec 32), Decidable (k0_chk98 v972) := fun v972 => decidable_of_iff' _ (Iff.of_eq (k0_chk98.eq_1 v972))
theorem k0_off196_inb : ∀ (v972 : BitVec 32) (k0_hw98 : k0_chk98 v972), ∀ a, (k0_off196 v972) a + S1x1x512.size a ≤ S1x4096x512.size a := fun v972 k0_hw98 => k0_hw98

def k0_off197 (i : grid0.Coords) : Fin 2 → Nat :=
  let arg0 : BitVec 32 := BitVec.ofNat 32 (i 0).val
  let v980 : Index := Scalar.indexCast arg0
  let c98_i32 : BitVec 32 := 98#32
  let v981 : Index := Scalar.indexCast c98_i32
  ![v980.toNat, 98]
def k0_off198 (v982 : BitVec 32) : Fin 3 → Nat :=
  let c0_391 : Index := 0#32
  let v983 : Index := Scalar.indexCast v982
  let c0_392 : Index := 0#32
  ![0, v983.toNat, 0]

def k0_chk99 (v982 : BitVec 32) : Prop :=
  (∀ a, (k0_off198 v982) a + S1x1x512.size a ≤ S1x4096x512.size a)
instance k0_chk99.dec : ∀ (v982 : BitVec 32), Decidable (k0_chk99 v982) := fun v982 => decidable_of_iff' _ (Iff.of_eq (k0_chk99.eq_1 v982))
theorem k0_off198_inb : ∀ (v982 : BitVec 32) (k0_hw99 : k0_chk99 v982), ∀ a, (k0_off198 v982) a + S1x1x512.size a ≤ S1x4096x512.size a := fun v982 k0_hw99 => k0_hw99

def k0_off199 (i : grid0.Coords) : Fin 2 → Nat :=
  let arg0 : BitVec 32 := BitVec.ofNat 32 (i 0).val
  let v990 : Index := Scalar.indexCast arg0
  let c99_i32 : BitVec 32 := 99#32
  let v991 : Index := Scalar.indexCast c99_i32
  ![v990.toNat, 99]
def k0_off200 (v992 : BitVec 32) : Fin 3 → Nat :=
  let c0_395 : Index := 0#32
  let v993 : Index := Scalar.indexCast v992
  let c0_396 : Index := 0#32
  ![0, v993.toNat, 0]

def k0_chk100 (v992 : BitVec 32) : Prop :=
  (∀ a, (k0_off200 v992) a + S1x1x512.size a ≤ S1x4096x512.size a)
instance k0_chk100.dec : ∀ (v992 : BitVec 32), Decidable (k0_chk100 v992) := fun v992 => decidable_of_iff' _ (Iff.of_eq (k0_chk100.eq_1 v992))
theorem k0_off200_inb : ∀ (v992 : BitVec 32) (k0_hw100 : k0_chk100 v992), ∀ a, (k0_off200 v992) a + S1x1x512.size a ≤ S1x4096x512.size a := fun v992 k0_hw100 => k0_hw100

def k0_off201 (i : grid0.Coords) : Fin 2 → Nat :=
  let arg0 : BitVec 32 := BitVec.ofNat 32 (i 0).val
  let v1000 : Index := Scalar.indexCast arg0
  let c100_i32 : BitVec 32 := 100#32
  let v1001 : Index := Scalar.indexCast c100_i32
  ![v1000.toNat, 100]
def k0_off202 (v1002 : BitVec 32) : Fin 3 → Nat :=
  let c0_399 : Index := 0#32
  let v1003 : Index := Scalar.indexCast v1002
  let c0_400 : Index := 0#32
  ![0, v1003.toNat, 0]

def k0_chk101 (v1002 : BitVec 32) : Prop :=
  (∀ a, (k0_off202 v1002) a + S1x1x512.size a ≤ S1x4096x512.size a)
instance k0_chk101.dec : ∀ (v1002 : BitVec 32), Decidable (k0_chk101 v1002) := fun v1002 => decidable_of_iff' _ (Iff.of_eq (k0_chk101.eq_1 v1002))
theorem k0_off202_inb : ∀ (v1002 : BitVec 32) (k0_hw101 : k0_chk101 v1002), ∀ a, (k0_off202 v1002) a + S1x1x512.size a ≤ S1x4096x512.size a := fun v1002 k0_hw101 => k0_hw101

def k0_off203 (i : grid0.Coords) : Fin 2 → Nat :=
  let arg0 : BitVec 32 := BitVec.ofNat 32 (i 0).val
  let v1010 : Index := Scalar.indexCast arg0
  let c101_i32 : BitVec 32 := 101#32
  let v1011 : Index := Scalar.indexCast c101_i32
  ![v1010.toNat, 101]
def k0_off204 (v1012 : BitVec 32) : Fin 3 → Nat :=
  let c0_403 : Index := 0#32
  let v1013 : Index := Scalar.indexCast v1012
  let c0_404 : Index := 0#32
  ![0, v1013.toNat, 0]

def k0_chk102 (v1012 : BitVec 32) : Prop :=
  (∀ a, (k0_off204 v1012) a + S1x1x512.size a ≤ S1x4096x512.size a)
instance k0_chk102.dec : ∀ (v1012 : BitVec 32), Decidable (k0_chk102 v1012) := fun v1012 => decidable_of_iff' _ (Iff.of_eq (k0_chk102.eq_1 v1012))
theorem k0_off204_inb : ∀ (v1012 : BitVec 32) (k0_hw102 : k0_chk102 v1012), ∀ a, (k0_off204 v1012) a + S1x1x512.size a ≤ S1x4096x512.size a := fun v1012 k0_hw102 => k0_hw102

def k0_off205 (i : grid0.Coords) : Fin 2 → Nat :=
  let arg0 : BitVec 32 := BitVec.ofNat 32 (i 0).val
  let v1020 : Index := Scalar.indexCast arg0
  let c102_i32 : BitVec 32 := 102#32
  let v1021 : Index := Scalar.indexCast c102_i32
  ![v1020.toNat, 102]
def k0_off206 (v1022 : BitVec 32) : Fin 3 → Nat :=
  let c0_407 : Index := 0#32
  let v1023 : Index := Scalar.indexCast v1022
  let c0_408 : Index := 0#32
  ![0, v1023.toNat, 0]

def k0_chk103 (v1022 : BitVec 32) : Prop :=
  (∀ a, (k0_off206 v1022) a + S1x1x512.size a ≤ S1x4096x512.size a)
instance k0_chk103.dec : ∀ (v1022 : BitVec 32), Decidable (k0_chk103 v1022) := fun v1022 => decidable_of_iff' _ (Iff.of_eq (k0_chk103.eq_1 v1022))
theorem k0_off206_inb : ∀ (v1022 : BitVec 32) (k0_hw103 : k0_chk103 v1022), ∀ a, (k0_off206 v1022) a + S1x1x512.size a ≤ S1x4096x512.size a := fun v1022 k0_hw103 => k0_hw103

def k0_off207 (i : grid0.Coords) : Fin 2 → Nat :=
  let arg0 : BitVec 32 := BitVec.ofNat 32 (i 0).val
  let v1030 : Index := Scalar.indexCast arg0
  let c103_i32 : BitVec 32 := 103#32
  let v1031 : Index := Scalar.indexCast c103_i32
  ![v1030.toNat, 103]
def k0_off208 (v1032 : BitVec 32) : Fin 3 → Nat :=
  let c0_411 : Index := 0#32
  let v1033 : Index := Scalar.indexCast v1032
  let c0_412 : Index := 0#32
  ![0, v1033.toNat, 0]

def k0_chk104 (v1032 : BitVec 32) : Prop :=
  (∀ a, (k0_off208 v1032) a + S1x1x512.size a ≤ S1x4096x512.size a)
instance k0_chk104.dec : ∀ (v1032 : BitVec 32), Decidable (k0_chk104 v1032) := fun v1032 => decidable_of_iff' _ (Iff.of_eq (k0_chk104.eq_1 v1032))
theorem k0_off208_inb : ∀ (v1032 : BitVec 32) (k0_hw104 : k0_chk104 v1032), ∀ a, (k0_off208 v1032) a + S1x1x512.size a ≤ S1x4096x512.size a := fun v1032 k0_hw104 => k0_hw104

def k0_off209 (i : grid0.Coords) : Fin 2 → Nat :=
  let arg0 : BitVec 32 := BitVec.ofNat 32 (i 0).val
  let v1040 : Index := Scalar.indexCast arg0
  let c104_i32 : BitVec 32 := 104#32
  let v1041 : Index := Scalar.indexCast c104_i32
  ![v1040.toNat, 104]
def k0_off210 (v1042 : BitVec 32) : Fin 3 → Nat :=
  let c0_415 : Index := 0#32
  let v1043 : Index := Scalar.indexCast v1042
  let c0_416 : Index := 0#32
  ![0, v1043.toNat, 0]

def k0_chk105 (v1042 : BitVec 32) : Prop :=
  (∀ a, (k0_off210 v1042) a + S1x1x512.size a ≤ S1x4096x512.size a)
instance k0_chk105.dec : ∀ (v1042 : BitVec 32), Decidable (k0_chk105 v1042) := fun v1042 => decidable_of_iff' _ (Iff.of_eq (k0_chk105.eq_1 v1042))
theorem k0_off210_inb : ∀ (v1042 : BitVec 32) (k0_hw105 : k0_chk105 v1042), ∀ a, (k0_off210 v1042) a + S1x1x512.size a ≤ S1x4096x512.size a := fun v1042 k0_hw105 => k0_hw105

def k0_off211 (i : grid0.Coords) : Fin 2 → Nat :=
  let arg0 : BitVec 32 := BitVec.ofNat 32 (i 0).val
  let v1050 : Index := Scalar.indexCast arg0
  let c105_i32 : BitVec 32 := 105#32
  let v1051 : Index := Scalar.indexCast c105_i32
  ![v1050.toNat, 105]
def k0_off212 (v1052 : BitVec 32) : Fin 3 → Nat :=
  let c0_419 : Index := 0#32
  let v1053 : Index := Scalar.indexCast v1052
  let c0_420 : Index := 0#32
  ![0, v1053.toNat, 0]

def k0_chk106 (v1052 : BitVec 32) : Prop :=
  (∀ a, (k0_off212 v1052) a + S1x1x512.size a ≤ S1x4096x512.size a)
instance k0_chk106.dec : ∀ (v1052 : BitVec 32), Decidable (k0_chk106 v1052) := fun v1052 => decidable_of_iff' _ (Iff.of_eq (k0_chk106.eq_1 v1052))
theorem k0_off212_inb : ∀ (v1052 : BitVec 32) (k0_hw106 : k0_chk106 v1052), ∀ a, (k0_off212 v1052) a + S1x1x512.size a ≤ S1x4096x512.size a := fun v1052 k0_hw106 => k0_hw106

def k0_off213 (i : grid0.Coords) : Fin 2 → Nat :=
  let arg0 : BitVec 32 := BitVec.ofNat 32 (i 0).val
  let v1060 : Index := Scalar.indexCast arg0
  let c106_i32 : BitVec 32 := 106#32
  let v1061 : Index := Scalar.indexCast c106_i32
  ![v1060.toNat, 106]
def k0_off214 (v1062 : BitVec 32) : Fin 3 → Nat :=
  let c0_423 : Index := 0#32
  let v1063 : Index := Scalar.indexCast v1062
  let c0_424 : Index := 0#32
  ![0, v1063.toNat, 0]

def k0_chk107 (v1062 : BitVec 32) : Prop :=
  (∀ a, (k0_off214 v1062) a + S1x1x512.size a ≤ S1x4096x512.size a)
instance k0_chk107.dec : ∀ (v1062 : BitVec 32), Decidable (k0_chk107 v1062) := fun v1062 => decidable_of_iff' _ (Iff.of_eq (k0_chk107.eq_1 v1062))
theorem k0_off214_inb : ∀ (v1062 : BitVec 32) (k0_hw107 : k0_chk107 v1062), ∀ a, (k0_off214 v1062) a + S1x1x512.size a ≤ S1x4096x512.size a := fun v1062 k0_hw107 => k0_hw107

def k0_off215 (i : grid0.Coords) : Fin 2 → Nat :=
  let arg0 : BitVec 32 := BitVec.ofNat 32 (i 0).val
  let v1070 : Index := Scalar.indexCast arg0
  let c107_i32 : BitVec 32 := 107#32
  let v1071 : Index := Scalar.indexCast c107_i32
  ![v1070.toNat, 107]
def k0_off216 (v1072 : BitVec 32) : Fin 3 → Nat :=
  let c0_427 : Index := 0#32
  let v1073 : Index := Scalar.indexCast v1072
  let c0_428 : Index := 0#32
  ![0, v1073.toNat, 0]

def k0_chk108 (v1072 : BitVec 32) : Prop :=
  (∀ a, (k0_off216 v1072) a + S1x1x512.size a ≤ S1x4096x512.size a)
instance k0_chk108.dec : ∀ (v1072 : BitVec 32), Decidable (k0_chk108 v1072) := fun v1072 => decidable_of_iff' _ (Iff.of_eq (k0_chk108.eq_1 v1072))
theorem k0_off216_inb : ∀ (v1072 : BitVec 32) (k0_hw108 : k0_chk108 v1072), ∀ a, (k0_off216 v1072) a + S1x1x512.size a ≤ S1x4096x512.size a := fun v1072 k0_hw108 => k0_hw108

def k0_off217 (i : grid0.Coords) : Fin 2 → Nat :=
  let arg0 : BitVec 32 := BitVec.ofNat 32 (i 0).val
  let v1080 : Index := Scalar.indexCast arg0
  let c108_i32 : BitVec 32 := 108#32
  let v1081 : Index := Scalar.indexCast c108_i32
  ![v1080.toNat, 108]
def k0_off218 (v1082 : BitVec 32) : Fin 3 → Nat :=
  let c0_431 : Index := 0#32
  let v1083 : Index := Scalar.indexCast v1082
  let c0_432 : Index := 0#32
  ![0, v1083.toNat, 0]

def k0_chk109 (v1082 : BitVec 32) : Prop :=
  (∀ a, (k0_off218 v1082) a + S1x1x512.size a ≤ S1x4096x512.size a)
instance k0_chk109.dec : ∀ (v1082 : BitVec 32), Decidable (k0_chk109 v1082) := fun v1082 => decidable_of_iff' _ (Iff.of_eq (k0_chk109.eq_1 v1082))
theorem k0_off218_inb : ∀ (v1082 : BitVec 32) (k0_hw109 : k0_chk109 v1082), ∀ a, (k0_off218 v1082) a + S1x1x512.size a ≤ S1x4096x512.size a := fun v1082 k0_hw109 => k0_hw109

def k0_off219 (i : grid0.Coords) : Fin 2 → Nat :=
  let arg0 : BitVec 32 := BitVec.ofNat 32 (i 0).val
  let v1090 : Index := Scalar.indexCast arg0
  let c109_i32 : BitVec 32 := 109#32
  let v1091 : Index := Scalar.indexCast c109_i32
  ![v1090.toNat, 109]
def k0_off220 (v1092 : BitVec 32) : Fin 3 → Nat :=
  let c0_435 : Index := 0#32
  let v1093 : Index := Scalar.indexCast v1092
  let c0_436 : Index := 0#32
  ![0, v1093.toNat, 0]

def k0_chk110 (v1092 : BitVec 32) : Prop :=
  (∀ a, (k0_off220 v1092) a + S1x1x512.size a ≤ S1x4096x512.size a)
instance k0_chk110.dec : ∀ (v1092 : BitVec 32), Decidable (k0_chk110 v1092) := fun v1092 => decidable_of_iff' _ (Iff.of_eq (k0_chk110.eq_1 v1092))
theorem k0_off220_inb : ∀ (v1092 : BitVec 32) (k0_hw110 : k0_chk110 v1092), ∀ a, (k0_off220 v1092) a + S1x1x512.size a ≤ S1x4096x512.size a := fun v1092 k0_hw110 => k0_hw110

def k0_off221 (i : grid0.Coords) : Fin 2 → Nat :=
  let arg0 : BitVec 32 := BitVec.ofNat 32 (i 0).val
  let v1100 : Index := Scalar.indexCast arg0
  let c110_i32 : BitVec 32 := 110#32
  let v1101 : Index := Scalar.indexCast c110_i32
  ![v1100.toNat, 110]
def k0_off222 (v1102 : BitVec 32) : Fin 3 → Nat :=
  let c0_439 : Index := 0#32
  let v1103 : Index := Scalar.indexCast v1102
  let c0_440 : Index := 0#32
  ![0, v1103.toNat, 0]

def k0_chk111 (v1102 : BitVec 32) : Prop :=
  (∀ a, (k0_off222 v1102) a + S1x1x512.size a ≤ S1x4096x512.size a)
instance k0_chk111.dec : ∀ (v1102 : BitVec 32), Decidable (k0_chk111 v1102) := fun v1102 => decidable_of_iff' _ (Iff.of_eq (k0_chk111.eq_1 v1102))
theorem k0_off222_inb : ∀ (v1102 : BitVec 32) (k0_hw111 : k0_chk111 v1102), ∀ a, (k0_off222 v1102) a + S1x1x512.size a ≤ S1x4096x512.size a := fun v1102 k0_hw111 => k0_hw111

def k0_off223 (i : grid0.Coords) : Fin 2 → Nat :=
  let arg0 : BitVec 32 := BitVec.ofNat 32 (i 0).val
  let v1110 : Index := Scalar.indexCast arg0
  let c111_i32 : BitVec 32 := 111#32
  let v1111 : Index := Scalar.indexCast c111_i32
  ![v1110.toNat, 111]
def k0_off224 (v1112 : BitVec 32) : Fin 3 → Nat :=
  let c0_443 : Index := 0#32
  let v1113 : Index := Scalar.indexCast v1112
  let c0_444 : Index := 0#32
  ![0, v1113.toNat, 0]

def k0_chk112 (v1112 : BitVec 32) : Prop :=
  (∀ a, (k0_off224 v1112) a + S1x1x512.size a ≤ S1x4096x512.size a)
instance k0_chk112.dec : ∀ (v1112 : BitVec 32), Decidable (k0_chk112 v1112) := fun v1112 => decidable_of_iff' _ (Iff.of_eq (k0_chk112.eq_1 v1112))
theorem k0_off224_inb : ∀ (v1112 : BitVec 32) (k0_hw112 : k0_chk112 v1112), ∀ a, (k0_off224 v1112) a + S1x1x512.size a ≤ S1x4096x512.size a := fun v1112 k0_hw112 => k0_hw112

def k0_off225 (i : grid0.Coords) : Fin 2 → Nat :=
  let arg0 : BitVec 32 := BitVec.ofNat 32 (i 0).val
  let v1120 : Index := Scalar.indexCast arg0
  let c112_i32 : BitVec 32 := 112#32
  let v1121 : Index := Scalar.indexCast c112_i32
  ![v1120.toNat, 112]
def k0_off226 (v1122 : BitVec 32) : Fin 3 → Nat :=
  let c0_447 : Index := 0#32
  let v1123 : Index := Scalar.indexCast v1122
  let c0_448 : Index := 0#32
  ![0, v1123.toNat, 0]

def k0_chk113 (v1122 : BitVec 32) : Prop :=
  (∀ a, (k0_off226 v1122) a + S1x1x512.size a ≤ S1x4096x512.size a)
instance k0_chk113.dec : ∀ (v1122 : BitVec 32), Decidable (k0_chk113 v1122) := fun v1122 => decidable_of_iff' _ (Iff.of_eq (k0_chk113.eq_1 v1122))
theorem k0_off226_inb : ∀ (v1122 : BitVec 32) (k0_hw113 : k0_chk113 v1122), ∀ a, (k0_off226 v1122) a + S1x1x512.size a ≤ S1x4096x512.size a := fun v1122 k0_hw113 => k0_hw113

def k0_off227 (i : grid0.Coords) : Fin 2 → Nat :=
  let arg0 : BitVec 32 := BitVec.ofNat 32 (i 0).val
  let v1130 : Index := Scalar.indexCast arg0
  let c113_i32 : BitVec 32 := 113#32
  let v1131 : Index := Scalar.indexCast c113_i32
  ![v1130.toNat, 113]
def k0_off228 (v1132 : BitVec 32) : Fin 3 → Nat :=
  let c0_451 : Index := 0#32
  let v1133 : Index := Scalar.indexCast v1132
  let c0_452 : Index := 0#32
  ![0, v1133.toNat, 0]

def k0_chk114 (v1132 : BitVec 32) : Prop :=
  (∀ a, (k0_off228 v1132) a + S1x1x512.size a ≤ S1x4096x512.size a)
instance k0_chk114.dec : ∀ (v1132 : BitVec 32), Decidable (k0_chk114 v1132) := fun v1132 => decidable_of_iff' _ (Iff.of_eq (k0_chk114.eq_1 v1132))
theorem k0_off228_inb : ∀ (v1132 : BitVec 32) (k0_hw114 : k0_chk114 v1132), ∀ a, (k0_off228 v1132) a + S1x1x512.size a ≤ S1x4096x512.size a := fun v1132 k0_hw114 => k0_hw114

def k0_off229 (i : grid0.Coords) : Fin 2 → Nat :=
  let arg0 : BitVec 32 := BitVec.ofNat 32 (i 0).val
  let v1140 : Index := Scalar.indexCast arg0
  let c114_i32 : BitVec 32 := 114#32
  let v1141 : Index := Scalar.indexCast c114_i32
  ![v1140.toNat, 114]
def k0_off230 (v1142 : BitVec 32) : Fin 3 → Nat :=
  let c0_455 : Index := 0#32
  let v1143 : Index := Scalar.indexCast v1142
  let c0_456 : Index := 0#32
  ![0, v1143.toNat, 0]

def k0_chk115 (v1142 : BitVec 32) : Prop :=
  (∀ a, (k0_off230 v1142) a + S1x1x512.size a ≤ S1x4096x512.size a)
instance k0_chk115.dec : ∀ (v1142 : BitVec 32), Decidable (k0_chk115 v1142) := fun v1142 => decidable_of_iff' _ (Iff.of_eq (k0_chk115.eq_1 v1142))
theorem k0_off230_inb : ∀ (v1142 : BitVec 32) (k0_hw115 : k0_chk115 v1142), ∀ a, (k0_off230 v1142) a + S1x1x512.size a ≤ S1x4096x512.size a := fun v1142 k0_hw115 => k0_hw115

def k0_off231 (i : grid0.Coords) : Fin 2 → Nat :=
  let arg0 : BitVec 32 := BitVec.ofNat 32 (i 0).val
  let v1150 : Index := Scalar.indexCast arg0
  let c115_i32 : BitVec 32 := 115#32
  let v1151 : Index := Scalar.indexCast c115_i32
  ![v1150.toNat, 115]
def k0_off232 (v1152 : BitVec 32) : Fin 3 → Nat :=
  let c0_459 : Index := 0#32
  let v1153 : Index := Scalar.indexCast v1152
  let c0_460 : Index := 0#32
  ![0, v1153.toNat, 0]

def k0_chk116 (v1152 : BitVec 32) : Prop :=
  (∀ a, (k0_off232 v1152) a + S1x1x512.size a ≤ S1x4096x512.size a)
instance k0_chk116.dec : ∀ (v1152 : BitVec 32), Decidable (k0_chk116 v1152) := fun v1152 => decidable_of_iff' _ (Iff.of_eq (k0_chk116.eq_1 v1152))
theorem k0_off232_inb : ∀ (v1152 : BitVec 32) (k0_hw116 : k0_chk116 v1152), ∀ a, (k0_off232 v1152) a + S1x1x512.size a ≤ S1x4096x512.size a := fun v1152 k0_hw116 => k0_hw116

def k0_off233 (i : grid0.Coords) : Fin 2 → Nat :=
  let arg0 : BitVec 32 := BitVec.ofNat 32 (i 0).val
  let v1160 : Index := Scalar.indexCast arg0
  let c116_i32 : BitVec 32 := 116#32
  let v1161 : Index := Scalar.indexCast c116_i32
  ![v1160.toNat, 116]
def k0_off234 (v1162 : BitVec 32) : Fin 3 → Nat :=
  let c0_463 : Index := 0#32
  let v1163 : Index := Scalar.indexCast v1162
  let c0_464 : Index := 0#32
  ![0, v1163.toNat, 0]

def k0_chk117 (v1162 : BitVec 32) : Prop :=
  (∀ a, (k0_off234 v1162) a + S1x1x512.size a ≤ S1x4096x512.size a)
instance k0_chk117.dec : ∀ (v1162 : BitVec 32), Decidable (k0_chk117 v1162) := fun v1162 => decidable_of_iff' _ (Iff.of_eq (k0_chk117.eq_1 v1162))
theorem k0_off234_inb : ∀ (v1162 : BitVec 32) (k0_hw117 : k0_chk117 v1162), ∀ a, (k0_off234 v1162) a + S1x1x512.size a ≤ S1x4096x512.size a := fun v1162 k0_hw117 => k0_hw117

def k0_off235 (i : grid0.Coords) : Fin 2 → Nat :=
  let arg0 : BitVec 32 := BitVec.ofNat 32 (i 0).val
  let v1170 : Index := Scalar.indexCast arg0
  let c117_i32 : BitVec 32 := 117#32
  let v1171 : Index := Scalar.indexCast c117_i32
  ![v1170.toNat, 117]
def k0_off236 (v1172 : BitVec 32) : Fin 3 → Nat :=
  let c0_467 : Index := 0#32
  let v1173 : Index := Scalar.indexCast v1172
  let c0_468 : Index := 0#32
  ![0, v1173.toNat, 0]

def k0_chk118 (v1172 : BitVec 32) : Prop :=
  (∀ a, (k0_off236 v1172) a + S1x1x512.size a ≤ S1x4096x512.size a)
instance k0_chk118.dec : ∀ (v1172 : BitVec 32), Decidable (k0_chk118 v1172) := fun v1172 => decidable_of_iff' _ (Iff.of_eq (k0_chk118.eq_1 v1172))
theorem k0_off236_inb : ∀ (v1172 : BitVec 32) (k0_hw118 : k0_chk118 v1172), ∀ a, (k0_off236 v1172) a + S1x1x512.size a ≤ S1x4096x512.size a := fun v1172 k0_hw118 => k0_hw118

def k0_off237 (i : grid0.Coords) : Fin 2 → Nat :=
  let arg0 : BitVec 32 := BitVec.ofNat 32 (i 0).val
  let v1180 : Index := Scalar.indexCast arg0
  let c118_i32 : BitVec 32 := 118#32
  let v1181 : Index := Scalar.indexCast c118_i32
  ![v1180.toNat, 118]
def k0_off238 (v1182 : BitVec 32) : Fin 3 → Nat :=
  let c0_471 : Index := 0#32
  let v1183 : Index := Scalar.indexCast v1182
  let c0_472 : Index := 0#32
  ![0, v1183.toNat, 0]

def k0_chk119 (v1182 : BitVec 32) : Prop :=
  (∀ a, (k0_off238 v1182) a + S1x1x512.size a ≤ S1x4096x512.size a)
instance k0_chk119.dec : ∀ (v1182 : BitVec 32), Decidable (k0_chk119 v1182) := fun v1182 => decidable_of_iff' _ (Iff.of_eq (k0_chk119.eq_1 v1182))
theorem k0_off238_inb : ∀ (v1182 : BitVec 32) (k0_hw119 : k0_chk119 v1182), ∀ a, (k0_off238 v1182) a + S1x1x512.size a ≤ S1x4096x512.size a := fun v1182 k0_hw119 => k0_hw119

def k0_off239 (i : grid0.Coords) : Fin 2 → Nat :=
  let arg0 : BitVec 32 := BitVec.ofNat 32 (i 0).val
  let v1190 : Index := Scalar.indexCast arg0
  let c119_i32 : BitVec 32 := 119#32
  let v1191 : Index := Scalar.indexCast c119_i32
  ![v1190.toNat, 119]
def k0_off240 (v1192 : BitVec 32) : Fin 3 → Nat :=
  let c0_475 : Index := 0#32
  let v1193 : Index := Scalar.indexCast v1192
  let c0_476 : Index := 0#32
  ![0, v1193.toNat, 0]

def k0_chk120 (v1192 : BitVec 32) : Prop :=
  (∀ a, (k0_off240 v1192) a + S1x1x512.size a ≤ S1x4096x512.size a)
instance k0_chk120.dec : ∀ (v1192 : BitVec 32), Decidable (k0_chk120 v1192) := fun v1192 => decidable_of_iff' _ (Iff.of_eq (k0_chk120.eq_1 v1192))
theorem k0_off240_inb : ∀ (v1192 : BitVec 32) (k0_hw120 : k0_chk120 v1192), ∀ a, (k0_off240 v1192) a + S1x1x512.size a ≤ S1x4096x512.size a := fun v1192 k0_hw120 => k0_hw120

def k0_off241 (i : grid0.Coords) : Fin 2 → Nat :=
  let arg0 : BitVec 32 := BitVec.ofNat 32 (i 0).val
  let v1200 : Index := Scalar.indexCast arg0
  let c120_i32 : BitVec 32 := 120#32
  let v1201 : Index := Scalar.indexCast c120_i32
  ![v1200.toNat, 120]
def k0_off242 (v1202 : BitVec 32) : Fin 3 → Nat :=
  let c0_479 : Index := 0#32
  let v1203 : Index := Scalar.indexCast v1202
  let c0_480 : Index := 0#32
  ![0, v1203.toNat, 0]

def k0_chk121 (v1202 : BitVec 32) : Prop :=
  (∀ a, (k0_off242 v1202) a + S1x1x512.size a ≤ S1x4096x512.size a)
instance k0_chk121.dec : ∀ (v1202 : BitVec 32), Decidable (k0_chk121 v1202) := fun v1202 => decidable_of_iff' _ (Iff.of_eq (k0_chk121.eq_1 v1202))
theorem k0_off242_inb : ∀ (v1202 : BitVec 32) (k0_hw121 : k0_chk121 v1202), ∀ a, (k0_off242 v1202) a + S1x1x512.size a ≤ S1x4096x512.size a := fun v1202 k0_hw121 => k0_hw121

def k0_off243 (i : grid0.Coords) : Fin 2 → Nat :=
  let arg0 : BitVec 32 := BitVec.ofNat 32 (i 0).val
  let v1210 : Index := Scalar.indexCast arg0
  let c121_i32 : BitVec 32 := 121#32
  let v1211 : Index := Scalar.indexCast c121_i32
  ![v1210.toNat, 121]
def k0_off244 (v1212 : BitVec 32) : Fin 3 → Nat :=
  let c0_483 : Index := 0#32
  let v1213 : Index := Scalar.indexCast v1212
  let c0_484 : Index := 0#32
  ![0, v1213.toNat, 0]

def k0_chk122 (v1212 : BitVec 32) : Prop :=
  (∀ a, (k0_off244 v1212) a + S1x1x512.size a ≤ S1x4096x512.size a)
instance k0_chk122.dec : ∀ (v1212 : BitVec 32), Decidable (k0_chk122 v1212) := fun v1212 => decidable_of_iff' _ (Iff.of_eq (k0_chk122.eq_1 v1212))
theorem k0_off244_inb : ∀ (v1212 : BitVec 32) (k0_hw122 : k0_chk122 v1212), ∀ a, (k0_off244 v1212) a + S1x1x512.size a ≤ S1x4096x512.size a := fun v1212 k0_hw122 => k0_hw122

def k0_off245 (i : grid0.Coords) : Fin 2 → Nat :=
  let arg0 : BitVec 32 := BitVec.ofNat 32 (i 0).val
  let v1220 : Index := Scalar.indexCast arg0
  let c122_i32 : BitVec 32 := 122#32
  let v1221 : Index := Scalar.indexCast c122_i32
  ![v1220.toNat, 122]
def k0_off246 (v1222 : BitVec 32) : Fin 3 → Nat :=
  let c0_487 : Index := 0#32
  let v1223 : Index := Scalar.indexCast v1222
  let c0_488 : Index := 0#32
  ![0, v1223.toNat, 0]

def k0_chk123 (v1222 : BitVec 32) : Prop :=
  (∀ a, (k0_off246 v1222) a + S1x1x512.size a ≤ S1x4096x512.size a)
instance k0_chk123.dec : ∀ (v1222 : BitVec 32), Decidable (k0_chk123 v1222) := fun v1222 => decidable_of_iff' _ (Iff.of_eq (k0_chk123.eq_1 v1222))
theorem k0_off246_inb : ∀ (v1222 : BitVec 32) (k0_hw123 : k0_chk123 v1222), ∀ a, (k0_off246 v1222) a + S1x1x512.size a ≤ S1x4096x512.size a := fun v1222 k0_hw123 => k0_hw123

def k0_off247 (i : grid0.Coords) : Fin 2 → Nat :=
  let arg0 : BitVec 32 := BitVec.ofNat 32 (i 0).val
  let v1230 : Index := Scalar.indexCast arg0
  let c123_i32 : BitVec 32 := 123#32
  let v1231 : Index := Scalar.indexCast c123_i32
  ![v1230.toNat, 123]
def k0_off248 (v1232 : BitVec 32) : Fin 3 → Nat :=
  let c0_491 : Index := 0#32
  let v1233 : Index := Scalar.indexCast v1232
  let c0_492 : Index := 0#32
  ![0, v1233.toNat, 0]

def k0_chk124 (v1232 : BitVec 32) : Prop :=
  (∀ a, (k0_off248 v1232) a + S1x1x512.size a ≤ S1x4096x512.size a)
instance k0_chk124.dec : ∀ (v1232 : BitVec 32), Decidable (k0_chk124 v1232) := fun v1232 => decidable_of_iff' _ (Iff.of_eq (k0_chk124.eq_1 v1232))
theorem k0_off248_inb : ∀ (v1232 : BitVec 32) (k0_hw124 : k0_chk124 v1232), ∀ a, (k0_off248 v1232) a + S1x1x512.size a ≤ S1x4096x512.size a := fun v1232 k0_hw124 => k0_hw124

def k0_off249 (i : grid0.Coords) : Fin 2 → Nat :=
  let arg0 : BitVec 32 := BitVec.ofNat 32 (i 0).val
  let v1240 : Index := Scalar.indexCast arg0
  let c124_i32 : BitVec 32 := 124#32
  let v1241 : Index := Scalar.indexCast c124_i32
  ![v1240.toNat, 124]
def k0_off250 (v1242 : BitVec 32) : Fin 3 → Nat :=
  let c0_495 : Index := 0#32
  let v1243 : Index := Scalar.indexCast v1242
  let c0_496 : Index := 0#32
  ![0, v1243.toNat, 0]

def k0_chk125 (v1242 : BitVec 32) : Prop :=
  (∀ a, (k0_off250 v1242) a + S1x1x512.size a ≤ S1x4096x512.size a)
instance k0_chk125.dec : ∀ (v1242 : BitVec 32), Decidable (k0_chk125 v1242) := fun v1242 => decidable_of_iff' _ (Iff.of_eq (k0_chk125.eq_1 v1242))
theorem k0_off250_inb : ∀ (v1242 : BitVec 32) (k0_hw125 : k0_chk125 v1242), ∀ a, (k0_off250 v1242) a + S1x1x512.size a ≤ S1x4096x512.size a := fun v1242 k0_hw125 => k0_hw125

def k0_off251 (i : grid0.Coords) : Fin 2 → Nat :=
  let arg0 : BitVec 32 := BitVec.ofNat 32 (i 0).val
  let v1250 : Index := Scalar.indexCast arg0
  let c125_i32 : BitVec 32 := 125#32
  let v1251 : Index := Scalar.indexCast c125_i32
  ![v1250.toNat, 125]
def k0_off252 (v1252 : BitVec 32) : Fin 3 → Nat :=
  let c0_499 : Index := 0#32
  let v1253 : Index := Scalar.indexCast v1252
  let c0_500 : Index := 0#32
  ![0, v1253.toNat, 0]

def k0_chk126 (v1252 : BitVec 32) : Prop :=
  (∀ a, (k0_off252 v1252) a + S1x1x512.size a ≤ S1x4096x512.size a)
instance k0_chk126.dec : ∀ (v1252 : BitVec 32), Decidable (k0_chk126 v1252) := fun v1252 => decidable_of_iff' _ (Iff.of_eq (k0_chk126.eq_1 v1252))
theorem k0_off252_inb : ∀ (v1252 : BitVec 32) (k0_hw126 : k0_chk126 v1252), ∀ a, (k0_off252 v1252) a + S1x1x512.size a ≤ S1x4096x512.size a := fun v1252 k0_hw126 => k0_hw126

def k0_off253 (i : grid0.Coords) : Fin 2 → Nat :=
  let arg0 : BitVec 32 := BitVec.ofNat 32 (i 0).val
  let v1260 : Index := Scalar.indexCast arg0
  let c126_i32 : BitVec 32 := 126#32
  let v1261 : Index := Scalar.indexCast c126_i32
  ![v1260.toNat, 126]
def k0_off254 (v1262 : BitVec 32) : Fin 3 → Nat :=
  let c0_503 : Index := 0#32
  let v1263 : Index := Scalar.indexCast v1262
  let c0_504 : Index := 0#32
  ![0, v1263.toNat, 0]

def k0_chk127 (v1262 : BitVec 32) : Prop :=
  (∀ a, (k0_off254 v1262) a + S1x1x512.size a ≤ S1x4096x512.size a)
instance k0_chk127.dec : ∀ (v1262 : BitVec 32), Decidable (k0_chk127 v1262) := fun v1262 => decidable_of_iff' _ (Iff.of_eq (k0_chk127.eq_1 v1262))
theorem k0_off254_inb : ∀ (v1262 : BitVec 32) (k0_hw127 : k0_chk127 v1262), ∀ a, (k0_off254 v1262) a + S1x1x512.size a ≤ S1x4096x512.size a := fun v1262 k0_hw127 => k0_hw127

def k0_off255 (i : grid0.Coords) : Fin 2 → Nat :=
  let arg0 : BitVec 32 := BitVec.ofNat 32 (i 0).val
  let v1270 : Index := Scalar.indexCast arg0
  let c127_i32 : BitVec 32 := 127#32
  let v1271 : Index := Scalar.indexCast c127_i32
  ![v1270.toNat, 127]
def k0_off256 (v1272 : BitVec 32) : Fin 3 → Nat :=
  let c0_507 : Index := 0#32
  let v1273 : Index := Scalar.indexCast v1272
  let c0_508 : Index := 0#32
  ![0, v1273.toNat, 0]

def k0_chk128 (v1272 : BitVec 32) : Prop :=
  (∀ a, (k0_off256 v1272) a + S1x1x512.size a ≤ S1x4096x512.size a)
instance k0_chk128.dec : ∀ (v1272 : BitVec 32), Decidable (k0_chk128 v1272) := fun v1272 => decidable_of_iff' _ (Iff.of_eq (k0_chk128.eq_1 v1272))
theorem k0_off256_inb : ∀ (v1272 : BitVec 32) (k0_hw128 : k0_chk128 v1272), ∀ a, (k0_off256 v1272) a + S1x1x512.size a ≤ S1x4096x512.size a := fun v1272 k0_hw128 => k0_hw128

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S32x128 : S_.BroadcastsInDim S32x128 (![] : Fin 0 → Fin S32x128.rank)
  numel1_S1x1 : S1x1.numel = 1
  h_S1x1x512 : 0 < S1x1x512.numel
  shapeCasts_S1x1x512_S512 : S1x1x512.ShapeCasts S512
  inb_S1x128x512_S1x1x512_0_0_0 : ∀ a, (![0, 0, 0] : Fin 3 → Nat) a + S1x1x512.size a ≤ S1x128x512.size a
  shapeCasts_S512_S1x1x512 : S512.ShapeCasts S1x1x512
  inb_S1x128x512_S1x1x512_0_1_0 : ∀ a, (![0, 1, 0] : Fin 3 → Nat) a + S1x1x512.size a ≤ S1x128x512.size a
  inb_S1x128x512_S1x1x512_0_2_0 : ∀ a, (![0, 2, 0] : Fin 3 → Nat) a + S1x1x512.size a ≤ S1x128x512.size a
  inb_S1x128x512_S1x1x512_0_3_0 : ∀ a, (![0, 3, 0] : Fin 3 → Nat) a + S1x1x512.size a ≤ S1x128x512.size a
  inb_S1x128x512_S1x1x512_0_4_0 : ∀ a, (![0, 4, 0] : Fin 3 → Nat) a + S1x1x512.size a ≤ S1x128x512.size a
  inb_S1x128x512_S1x1x512_0_5_0 : ∀ a, (![0, 5, 0] : Fin 3 → Nat) a + S1x1x512.size a ≤ S1x128x512.size a
  inb_S1x128x512_S1x1x512_0_6_0 : ∀ a, (![0, 6, 0] : Fin 3 → Nat) a + S1x1x512.size a ≤ S1x128x512.size a
  inb_S1x128x512_S1x1x512_0_7_0 : ∀ a, (![0, 7, 0] : Fin 3 → Nat) a + S1x1x512.size a ≤ S1x128x512.size a
  inb_S1x128x512_S1x1x512_0_8_0 : ∀ a, (![0, 8, 0] : Fin 3 → Nat) a + S1x1x512.size a ≤ S1x128x512.size a
  inb_S1x128x512_S1x1x512_0_9_0 : ∀ a, (![0, 9, 0] : Fin 3 → Nat) a + S1x1x512.size a ≤ S1x128x512.size a
  inb_S1x128x512_S1x1x512_0_10_0 : ∀ a, (![0, 10, 0] : Fin 3 → Nat) a + S1x1x512.size a ≤ S1x128x512.size a
  inb_S1x128x512_S1x1x512_0_11_0 : ∀ a, (![0, 11, 0] : Fin 3 → Nat) a + S1x1x512.size a ≤ S1x128x512.size a
  inb_S1x128x512_S1x1x512_0_12_0 : ∀ a, (![0, 12, 0] : Fin 3 → Nat) a + S1x1x512.size a ≤ S1x128x512.size a
  inb_S1x128x512_S1x1x512_0_13_0 : ∀ a, (![0, 13, 0] : Fin 3 → Nat) a + S1x1x512.size a ≤ S1x128x512.size a
  inb_S1x128x512_S1x1x512_0_14_0 : ∀ a, (![0, 14, 0] : Fin 3 → Nat) a + S1x1x512.size a ≤ S1x128x512.size a
  inb_S1x128x512_S1x1x512_0_15_0 : ∀ a, (![0, 15, 0] : Fin 3 → Nat) a + S1x1x512.size a ≤ S1x128x512.size a
  inb_S1x128x512_S1x1x512_0_16_0 : ∀ a, (![0, 16, 0] : Fin 3 → Nat) a + S1x1x512.size a ≤ S1x128x512.size a
  inb_S1x128x512_S1x1x512_0_17_0 : ∀ a, (![0, 17, 0] : Fin 3 → Nat) a + S1x1x512.size a ≤ S1x128x512.size a
  inb_S1x128x512_S1x1x512_0_18_0 : ∀ a, (![0, 18, 0] : Fin 3 → Nat) a + S1x1x512.size a ≤ S1x128x512.size a
  inb_S1x128x512_S1x1x512_0_19_0 : ∀ a, (![0, 19, 0] : Fin 3 → Nat) a + S1x1x512.size a ≤ S1x128x512.size a
  inb_S1x128x512_S1x1x512_0_20_0 : ∀ a, (![0, 20, 0] : Fin 3 → Nat) a + S1x1x512.size a ≤ S1x128x512.size a
  inb_S1x128x512_S1x1x512_0_21_0 : ∀ a, (![0, 21, 0] : Fin 3 → Nat) a + S1x1x512.size a ≤ S1x128x512.size a
  inb_S1x128x512_S1x1x512_0_22_0 : ∀ a, (![0, 22, 0] : Fin 3 → Nat) a + S1x1x512.size a ≤ S1x128x512.size a
  inb_S1x128x512_S1x1x512_0_23_0 : ∀ a, (![0, 23, 0] : Fin 3 → Nat) a + S1x1x512.size a ≤ S1x128x512.size a
  inb_S1x128x512_S1x1x512_0_24_0 : ∀ a, (![0, 24, 0] : Fin 3 → Nat) a + S1x1x512.size a ≤ S1x128x512.size a
  inb_S1x128x512_S1x1x512_0_25_0 : ∀ a, (![0, 25, 0] : Fin 3 → Nat) a + S1x1x512.size a ≤ S1x128x512.size a
  inb_S1x128x512_S1x1x512_0_26_0 : ∀ a, (![0, 26, 0] : Fin 3 → Nat) a + S1x1x512.size a ≤ S1x128x512.size a
  inb_S1x128x512_S1x1x512_0_27_0 : ∀ a, (![0, 27, 0] : Fin 3 → Nat) a + S1x1x512.size a ≤ S1x128x512.size a
  inb_S1x128x512_S1x1x512_0_28_0 : ∀ a, (![0, 28, 0] : Fin 3 → Nat) a + S1x1x512.size a ≤ S1x128x512.size a
  inb_S1x128x512_S1x1x512_0_29_0 : ∀ a, (![0, 29, 0] : Fin 3 → Nat) a + S1x1x512.size a ≤ S1x128x512.size a
  inb_S1x128x512_S1x1x512_0_30_0 : ∀ a, (![0, 30, 0] : Fin 3 → Nat) a + S1x1x512.size a ≤ S1x128x512.size a
  inb_S1x128x512_S1x1x512_0_31_0 : ∀ a, (![0, 31, 0] : Fin 3 → Nat) a + S1x1x512.size a ≤ S1x128x512.size a
  inb_S1x128x512_S1x1x512_0_32_0 : ∀ a, (![0, 32, 0] : Fin 3 → Nat) a + S1x1x512.size a ≤ S1x128x512.size a
  inb_S1x128x512_S1x1x512_0_33_0 : ∀ a, (![0, 33, 0] : Fin 3 → Nat) a + S1x1x512.size a ≤ S1x128x512.size a
  inb_S1x128x512_S1x1x512_0_34_0 : ∀ a, (![0, 34, 0] : Fin 3 → Nat) a + S1x1x512.size a ≤ S1x128x512.size a
  inb_S1x128x512_S1x1x512_0_35_0 : ∀ a, (![0, 35, 0] : Fin 3 → Nat) a + S1x1x512.size a ≤ S1x128x512.size a
  inb_S1x128x512_S1x1x512_0_36_0 : ∀ a, (![0, 36, 0] : Fin 3 → Nat) a + S1x1x512.size a ≤ S1x128x512.size a
  inb_S1x128x512_S1x1x512_0_37_0 : ∀ a, (![0, 37, 0] : Fin 3 → Nat) a + S1x1x512.size a ≤ S1x128x512.size a
  inb_S1x128x512_S1x1x512_0_38_0 : ∀ a, (![0, 38, 0] : Fin 3 → Nat) a + S1x1x512.size a ≤ S1x128x512.size a
  inb_S1x128x512_S1x1x512_0_39_0 : ∀ a, (![0, 39, 0] : Fin 3 → Nat) a + S1x1x512.size a ≤ S1x128x512.size a
  inb_S1x128x512_S1x1x512_0_40_0 : ∀ a, (![0, 40, 0] : Fin 3 → Nat) a + S1x1x512.size a ≤ S1x128x512.size a
  inb_S1x128x512_S1x1x512_0_41_0 : ∀ a, (![0, 41, 0] : Fin 3 → Nat) a + S1x1x512.size a ≤ S1x128x512.size a
  inb_S1x128x512_S1x1x512_0_42_0 : ∀ a, (![0, 42, 0] : Fin 3 → Nat) a + S1x1x512.size a ≤ S1x128x512.size a
  inb_S1x128x512_S1x1x512_0_43_0 : ∀ a, (![0, 43, 0] : Fin 3 → Nat) a + S1x1x512.size a ≤ S1x128x512.size a
  inb_S1x128x512_S1x1x512_0_44_0 : ∀ a, (![0, 44, 0] : Fin 3 → Nat) a + S1x1x512.size a ≤ S1x128x512.size a
  inb_S1x128x512_S1x1x512_0_45_0 : ∀ a, (![0, 45, 0] : Fin 3 → Nat) a + S1x1x512.size a ≤ S1x128x512.size a
  inb_S1x128x512_S1x1x512_0_46_0 : ∀ a, (![0, 46, 0] : Fin 3 → Nat) a + S1x1x512.size a ≤ S1x128x512.size a
  inb_S1x128x512_S1x1x512_0_47_0 : ∀ a, (![0, 47, 0] : Fin 3 → Nat) a + S1x1x512.size a ≤ S1x128x512.size a
  inb_S1x128x512_S1x1x512_0_48_0 : ∀ a, (![0, 48, 0] : Fin 3 → Nat) a + S1x1x512.size a ≤ S1x128x512.size a
  inb_S1x128x512_S1x1x512_0_49_0 : ∀ a, (![0, 49, 0] : Fin 3 → Nat) a + S1x1x512.size a ≤ S1x128x512.size a
  inb_S1x128x512_S1x1x512_0_50_0 : ∀ a, (![0, 50, 0] : Fin 3 → Nat) a + S1x1x512.size a ≤ S1x128x512.size a
  inb_S1x128x512_S1x1x512_0_51_0 : ∀ a, (![0, 51, 0] : Fin 3 → Nat) a + S1x1x512.size a ≤ S1x128x512.size a
  inb_S1x128x512_S1x1x512_0_52_0 : ∀ a, (![0, 52, 0] : Fin 3 → Nat) a + S1x1x512.size a ≤ S1x128x512.size a
  inb_S1x128x512_S1x1x512_0_53_0 : ∀ a, (![0, 53, 0] : Fin 3 → Nat) a + S1x1x512.size a ≤ S1x128x512.size a
  inb_S1x128x512_S1x1x512_0_54_0 : ∀ a, (![0, 54, 0] : Fin 3 → Nat) a + S1x1x512.size a ≤ S1x128x512.size a
  inb_S1x128x512_S1x1x512_0_55_0 : ∀ a, (![0, 55, 0] : Fin 3 → Nat) a + S1x1x512.size a ≤ S1x128x512.size a
  inb_S1x128x512_S1x1x512_0_56_0 : ∀ a, (![0, 56, 0] : Fin 3 → Nat) a + S1x1x512.size a ≤ S1x128x512.size a
  inb_S1x128x512_S1x1x512_0_57_0 : ∀ a, (![0, 57, 0] : Fin 3 → Nat) a + S1x1x512.size a ≤ S1x128x512.size a
  inb_S1x128x512_S1x1x512_0_58_0 : ∀ a, (![0, 58, 0] : Fin 3 → Nat) a + S1x1x512.size a ≤ S1x128x512.size a
  inb_S1x128x512_S1x1x512_0_59_0 : ∀ a, (![0, 59, 0] : Fin 3 → Nat) a + S1x1x512.size a ≤ S1x128x512.size a
  inb_S1x128x512_S1x1x512_0_60_0 : ∀ a, (![0, 60, 0] : Fin 3 → Nat) a + S1x1x512.size a ≤ S1x128x512.size a
  inb_S1x128x512_S1x1x512_0_61_0 : ∀ a, (![0, 61, 0] : Fin 3 → Nat) a + S1x1x512.size a ≤ S1x128x512.size a
  inb_S1x128x512_S1x1x512_0_62_0 : ∀ a, (![0, 62, 0] : Fin 3 → Nat) a + S1x1x512.size a ≤ S1x128x512.size a
  inb_S1x128x512_S1x1x512_0_63_0 : ∀ a, (![0, 63, 0] : Fin 3 → Nat) a + S1x1x512.size a ≤ S1x128x512.size a
  inb_S1x128x512_S1x1x512_0_64_0 : ∀ a, (![0, 64, 0] : Fin 3 → Nat) a + S1x1x512.size a ≤ S1x128x512.size a
  inb_S1x128x512_S1x1x512_0_65_0 : ∀ a, (![0, 65, 0] : Fin 3 → Nat) a + S1x1x512.size a ≤ S1x128x512.size a
  inb_S1x128x512_S1x1x512_0_66_0 : ∀ a, (![0, 66, 0] : Fin 3 → Nat) a + S1x1x512.size a ≤ S1x128x512.size a
  inb_S1x128x512_S1x1x512_0_67_0 : ∀ a, (![0, 67, 0] : Fin 3 → Nat) a + S1x1x512.size a ≤ S1x128x512.size a
  inb_S1x128x512_S1x1x512_0_68_0 : ∀ a, (![0, 68, 0] : Fin 3 → Nat) a + S1x1x512.size a ≤ S1x128x512.size a
  inb_S1x128x512_S1x1x512_0_69_0 : ∀ a, (![0, 69, 0] : Fin 3 → Nat) a + S1x1x512.size a ≤ S1x128x512.size a
  inb_S1x128x512_S1x1x512_0_70_0 : ∀ a, (![0, 70, 0] : Fin 3 → Nat) a + S1x1x512.size a ≤ S1x128x512.size a
  inb_S1x128x512_S1x1x512_0_71_0 : ∀ a, (![0, 71, 0] : Fin 3 → Nat) a + S1x1x512.size a ≤ S1x128x512.size a
  inb_S1x128x512_S1x1x512_0_72_0 : ∀ a, (![0, 72, 0] : Fin 3 → Nat) a + S1x1x512.size a ≤ S1x128x512.size a
  inb_S1x128x512_S1x1x512_0_73_0 : ∀ a, (![0, 73, 0] : Fin 3 → Nat) a + S1x1x512.size a ≤ S1x128x512.size a
  inb_S1x128x512_S1x1x512_0_74_0 : ∀ a, (![0, 74, 0] : Fin 3 → Nat) a + S1x1x512.size a ≤ S1x128x512.size a
  inb_S1x128x512_S1x1x512_0_75_0 : ∀ a, (![0, 75, 0] : Fin 3 → Nat) a + S1x1x512.size a ≤ S1x128x512.size a
  inb_S1x128x512_S1x1x512_0_76_0 : ∀ a, (![0, 76, 0] : Fin 3 → Nat) a + S1x1x512.size a ≤ S1x128x512.size a
  inb_S1x128x512_S1x1x512_0_77_0 : ∀ a, (![0, 77, 0] : Fin 3 → Nat) a + S1x1x512.size a ≤ S1x128x512.size a
  inb_S1x128x512_S1x1x512_0_78_0 : ∀ a, (![0, 78, 0] : Fin 3 → Nat) a + S1x1x512.size a ≤ S1x128x512.size a
  inb_S1x128x512_S1x1x512_0_79_0 : ∀ a, (![0, 79, 0] : Fin 3 → Nat) a + S1x1x512.size a ≤ S1x128x512.size a
  inb_S1x128x512_S1x1x512_0_80_0 : ∀ a, (![0, 80, 0] : Fin 3 → Nat) a + S1x1x512.size a ≤ S1x128x512.size a
  inb_S1x128x512_S1x1x512_0_81_0 : ∀ a, (![0, 81, 0] : Fin 3 → Nat) a + S1x1x512.size a ≤ S1x128x512.size a
  inb_S1x128x512_S1x1x512_0_82_0 : ∀ a, (![0, 82, 0] : Fin 3 → Nat) a + S1x1x512.size a ≤ S1x128x512.size a
  inb_S1x128x512_S1x1x512_0_83_0 : ∀ a, (![0, 83, 0] : Fin 3 → Nat) a + S1x1x512.size a ≤ S1x128x512.size a
  inb_S1x128x512_S1x1x512_0_84_0 : ∀ a, (![0, 84, 0] : Fin 3 → Nat) a + S1x1x512.size a ≤ S1x128x512.size a
  inb_S1x128x512_S1x1x512_0_85_0 : ∀ a, (![0, 85, 0] : Fin 3 → Nat) a + S1x1x512.size a ≤ S1x128x512.size a
  inb_S1x128x512_S1x1x512_0_86_0 : ∀ a, (![0, 86, 0] : Fin 3 → Nat) a + S1x1x512.size a ≤ S1x128x512.size a
  inb_S1x128x512_S1x1x512_0_87_0 : ∀ a, (![0, 87, 0] : Fin 3 → Nat) a + S1x1x512.size a ≤ S1x128x512.size a
  inb_S1x128x512_S1x1x512_0_88_0 : ∀ a, (![0, 88, 0] : Fin 3 → Nat) a + S1x1x512.size a ≤ S1x128x512.size a
  inb_S1x128x512_S1x1x512_0_89_0 : ∀ a, (![0, 89, 0] : Fin 3 → Nat) a + S1x1x512.size a ≤ S1x128x512.size a
  inb_S1x128x512_S1x1x512_0_90_0 : ∀ a, (![0, 90, 0] : Fin 3 → Nat) a + S1x1x512.size a ≤ S1x128x512.size a
  inb_S1x128x512_S1x1x512_0_91_0 : ∀ a, (![0, 91, 0] : Fin 3 → Nat) a + S1x1x512.size a ≤ S1x128x512.size a
  inb_S1x128x512_S1x1x512_0_92_0 : ∀ a, (![0, 92, 0] : Fin 3 → Nat) a + S1x1x512.size a ≤ S1x128x512.size a
  inb_S1x128x512_S1x1x512_0_93_0 : ∀ a, (![0, 93, 0] : Fin 3 → Nat) a + S1x1x512.size a ≤ S1x128x512.size a
  inb_S1x128x512_S1x1x512_0_94_0 : ∀ a, (![0, 94, 0] : Fin 3 → Nat) a + S1x1x512.size a ≤ S1x128x512.size a
  inb_S1x128x512_S1x1x512_0_95_0 : ∀ a, (![0, 95, 0] : Fin 3 → Nat) a + S1x1x512.size a ≤ S1x128x512.size a
  inb_S1x128x512_S1x1x512_0_96_0 : ∀ a, (![0, 96, 0] : Fin 3 → Nat) a + S1x1x512.size a ≤ S1x128x512.size a
  inb_S1x128x512_S1x1x512_0_97_0 : ∀ a, (![0, 97, 0] : Fin 3 → Nat) a + S1x1x512.size a ≤ S1x128x512.size a
  inb_S1x128x512_S1x1x512_0_98_0 : ∀ a, (![0, 98, 0] : Fin 3 → Nat) a + S1x1x512.size a ≤ S1x128x512.size a
  inb_S1x128x512_S1x1x512_0_99_0 : ∀ a, (![0, 99, 0] : Fin 3 → Nat) a + S1x1x512.size a ≤ S1x128x512.size a
  inb_S1x128x512_S1x1x512_0_100_0 : ∀ a, (![0, 100, 0] : Fin 3 → Nat) a + S1x1x512.size a ≤ S1x128x512.size a
  inb_S1x128x512_S1x1x512_0_101_0 : ∀ a, (![0, 101, 0] : Fin 3 → Nat) a + S1x1x512.size a ≤ S1x128x512.size a
  inb_S1x128x512_S1x1x512_0_102_0 : ∀ a, (![0, 102, 0] : Fin 3 → Nat) a + S1x1x512.size a ≤ S1x128x512.size a
  inb_S1x128x512_S1x1x512_0_103_0 : ∀ a, (![0, 103, 0] : Fin 3 → Nat) a + S1x1x512.size a ≤ S1x128x512.size a
  inb_S1x128x512_S1x1x512_0_104_0 : ∀ a, (![0, 104, 0] : Fin 3 → Nat) a + S1x1x512.size a ≤ S1x128x512.size a
  inb_S1x128x512_S1x1x512_0_105_0 : ∀ a, (![0, 105, 0] : Fin 3 → Nat) a + S1x1x512.size a ≤ S1x128x512.size a
  inb_S1x128x512_S1x1x512_0_106_0 : ∀ a, (![0, 106, 0] : Fin 3 → Nat) a + S1x1x512.size a ≤ S1x128x512.size a
  inb_S1x128x512_S1x1x512_0_107_0 : ∀ a, (![0, 107, 0] : Fin 3 → Nat) a + S1x1x512.size a ≤ S1x128x512.size a
  inb_S1x128x512_S1x1x512_0_108_0 : ∀ a, (![0, 108, 0] : Fin 3 → Nat) a + S1x1x512.size a ≤ S1x128x512.size a
  inb_S1x128x512_S1x1x512_0_109_0 : ∀ a, (![0, 109, 0] : Fin 3 → Nat) a + S1x1x512.size a ≤ S1x128x512.size a
  inb_S1x128x512_S1x1x512_0_110_0 : ∀ a, (![0, 110, 0] : Fin 3 → Nat) a + S1x1x512.size a ≤ S1x128x512.size a
  inb_S1x128x512_S1x1x512_0_111_0 : ∀ a, (![0, 111, 0] : Fin 3 → Nat) a + S1x1x512.size a ≤ S1x128x512.size a
  inb_S1x128x512_S1x1x512_0_112_0 : ∀ a, (![0, 112, 0] : Fin 3 → Nat) a + S1x1x512.size a ≤ S1x128x512.size a
  inb_S1x128x512_S1x1x512_0_113_0 : ∀ a, (![0, 113, 0] : Fin 3 → Nat) a + S1x1x512.size a ≤ S1x128x512.size a
  inb_S1x128x512_S1x1x512_0_114_0 : ∀ a, (![0, 114, 0] : Fin 3 → Nat) a + S1x1x512.size a ≤ S1x128x512.size a
  inb_S1x128x512_S1x1x512_0_115_0 : ∀ a, (![0, 115, 0] : Fin 3 → Nat) a + S1x1x512.size a ≤ S1x128x512.size a
  inb_S1x128x512_S1x1x512_0_116_0 : ∀ a, (![0, 116, 0] : Fin 3 → Nat) a + S1x1x512.size a ≤ S1x128x512.size a
  inb_S1x128x512_S1x1x512_0_117_0 : ∀ a, (![0, 117, 0] : Fin 3 → Nat) a + S1x1x512.size a ≤ S1x128x512.size a
  inb_S1x128x512_S1x1x512_0_118_0 : ∀ a, (![0, 118, 0] : Fin 3 → Nat) a + S1x1x512.size a ≤ S1x128x512.size a
  inb_S1x128x512_S1x1x512_0_119_0 : ∀ a, (![0, 119, 0] : Fin 3 → Nat) a + S1x1x512.size a ≤ S1x128x512.size a
  inb_S1x128x512_S1x1x512_0_120_0 : ∀ a, (![0, 120, 0] : Fin 3 → Nat) a + S1x1x512.size a ≤ S1x128x512.size a
  inb_S1x128x512_S1x1x512_0_121_0 : ∀ a, (![0, 121, 0] : Fin 3 → Nat) a + S1x1x512.size a ≤ S1x128x512.size a
  inb_S1x128x512_S1x1x512_0_122_0 : ∀ a, (![0, 122, 0] : Fin 3 → Nat) a + S1x1x512.size a ≤ S1x128x512.size a
  inb_S1x128x512_S1x1x512_0_123_0 : ∀ a, (![0, 123, 0] : Fin 3 → Nat) a + S1x1x512.size a ≤ S1x128x512.size a
  inb_S1x128x512_S1x1x512_0_124_0 : ∀ a, (![0, 124, 0] : Fin 3 → Nat) a + S1x1x512.size a ≤ S1x128x512.size a
  inb_S1x128x512_S1x1x512_0_125_0 : ∀ a, (![0, 125, 0] : Fin 3 → Nat) a + S1x1x512.size a ≤ S1x128x512.size a
  inb_S1x128x512_S1x1x512_0_126_0 : ∀ a, (![0, 126, 0] : Fin 3 → Nat) a + S1x1x512.size a ≤ S1x128x512.size a
  inb_S1x128x512_S1x1x512_0_127_0 : ∀ a, (![0, 127, 0] : Fin 3 → Nat) a + S1x1x512.size a ≤ S1x128x512.size a
  hrank0 : 0 < grid0.rank
  k0_off1_inb : ∀ i : grid0.Coords, ∀ a, (k0_off1 i) a + S1x1.size a ≤ S32x128.size a
  k0_off3_inb : ∀ i : grid0.Coords, ∀ a, (k0_off3 i) a + S1x1.size a ≤ S32x128.size a
  k0_off5_inb : ∀ i : grid0.Coords, ∀ a, (k0_off5 i) a + S1x1.size a ≤ S32x128.size a
  k0_off7_inb : ∀ i : grid0.Coords, ∀ a, (k0_off7 i) a + S1x1.size a ≤ S32x128.size a
  k0_off9_inb : ∀ i : grid0.Coords, ∀ a, (k0_off9 i) a + S1x1.size a ≤ S32x128.size a
  k0_off11_inb : ∀ i : grid0.Coords, ∀ a, (k0_off11 i) a + S1x1.size a ≤ S32x128.size a
  k0_off13_inb : ∀ i : grid0.Coords, ∀ a, (k0_off13 i) a + S1x1.size a ≤ S32x128.size a
  k0_off15_inb : ∀ i : grid0.Coords, ∀ a, (k0_off15 i) a + S1x1.size a ≤ S32x128.size a
  k0_off17_inb : ∀ i : grid0.Coords, ∀ a, (k0_off17 i) a + S1x1.size a ≤ S32x128.size a
  k0_off19_inb : ∀ i : grid0.Coords, ∀ a, (k0_off19 i) a + S1x1.size a ≤ S32x128.size a
  k0_off21_inb : ∀ i : grid0.Coords, ∀ a, (k0_off21 i) a + S1x1.size a ≤ S32x128.size a
  k0_off23_inb : ∀ i : grid0.Coords, ∀ a, (k0_off23 i) a + S1x1.size a ≤ S32x128.size a
  k0_off25_inb : ∀ i : grid0.Coords, ∀ a, (k0_off25 i) a + S1x1.size a ≤ S32x128.size a
  k0_off27_inb : ∀ i : grid0.Coords, ∀ a, (k0_off27 i) a + S1x1.size a ≤ S32x128.size a
  k0_off29_inb : ∀ i : grid0.Coords, ∀ a, (k0_off29 i) a + S1x1.size a ≤ S32x128.size a
  k0_off31_inb : ∀ i : grid0.Coords, ∀ a, (k0_off31 i) a + S1x1.size a ≤ S32x128.size a
  k0_off33_inb : ∀ i : grid0.Coords, ∀ a, (k0_off33 i) a + S1x1.size a ≤ S32x128.size a
  k0_off35_inb : ∀ i : grid0.Coords, ∀ a, (k0_off35 i) a + S1x1.size a ≤ S32x128.size a
  k0_off37_inb : ∀ i : grid0.Coords, ∀ a, (k0_off37 i) a + S1x1.size a ≤ S32x128.size a
  k0_off39_inb : ∀ i : grid0.Coords, ∀ a, (k0_off39 i) a + S1x1.size a ≤ S32x128.size a
  k0_off41_inb : ∀ i : grid0.Coords, ∀ a, (k0_off41 i) a + S1x1.size a ≤ S32x128.size a
  k0_off43_inb : ∀ i : grid0.Coords, ∀ a, (k0_off43 i) a + S1x1.size a ≤ S32x128.size a
  k0_off45_inb : ∀ i : grid0.Coords, ∀ a, (k0_off45 i) a + S1x1.size a ≤ S32x128.size a
  k0_off47_inb : ∀ i : grid0.Coords, ∀ a, (k0_off47 i) a + S1x1.size a ≤ S32x128.size a
  k0_off49_inb : ∀ i : grid0.Coords, ∀ a, (k0_off49 i) a + S1x1.size a ≤ S32x128.size a
  k0_off51_inb : ∀ i : grid0.Coords, ∀ a, (k0_off51 i) a + S1x1.size a ≤ S32x128.size a
  k0_off53_inb : ∀ i : grid0.Coords, ∀ a, (k0_off53 i) a + S1x1.size a ≤ S32x128.size a
  k0_off55_inb : ∀ i : grid0.Coords, ∀ a, (k0_off55 i) a + S1x1.size a ≤ S32x128.size a
  k0_off57_inb : ∀ i : grid0.Coords, ∀ a, (k0_off57 i) a + S1x1.size a ≤ S32x128.size a
  k0_off59_inb : ∀ i : grid0.Coords, ∀ a, (k0_off59 i) a + S1x1.size a ≤ S32x128.size a
  k0_off61_inb : ∀ i : grid0.Coords, ∀ a, (k0_off61 i) a + S1x1.size a ≤ S32x128.size a
  k0_off63_inb : ∀ i : grid0.Coords, ∀ a, (k0_off63 i) a + S1x1.size a ≤ S32x128.size a
  k0_off65_inb : ∀ i : grid0.Coords, ∀ a, (k0_off65 i) a + S1x1.size a ≤ S32x128.size a
  k0_off67_inb : ∀ i : grid0.Coords, ∀ a, (k0_off67 i) a + S1x1.size a ≤ S32x128.size a
  k0_off69_inb : ∀ i : grid0.Coords, ∀ a, (k0_off69 i) a + S1x1.size a ≤ S32x128.size a
  k0_off71_inb : ∀ i : grid0.Coords, ∀ a, (k0_off71 i) a + S1x1.size a ≤ S32x128.size a
  k0_off73_inb : ∀ i : grid0.Coords, ∀ a, (k0_off73 i) a + S1x1.size a ≤ S32x128.size a
  k0_off75_inb : ∀ i : grid0.Coords, ∀ a, (k0_off75 i) a + S1x1.size a ≤ S32x128.size a
  k0_off77_inb : ∀ i : grid0.Coords, ∀ a, (k0_off77 i) a + S1x1.size a ≤ S32x128.size a
  k0_off79_inb : ∀ i : grid0.Coords, ∀ a, (k0_off79 i) a + S1x1.size a ≤ S32x128.size a
  k0_off81_inb : ∀ i : grid0.Coords, ∀ a, (k0_off81 i) a + S1x1.size a ≤ S32x128.size a
  k0_off83_inb : ∀ i : grid0.Coords, ∀ a, (k0_off83 i) a + S1x1.size a ≤ S32x128.size a
  k0_off85_inb : ∀ i : grid0.Coords, ∀ a, (k0_off85 i) a + S1x1.size a ≤ S32x128.size a
  k0_off87_inb : ∀ i : grid0.Coords, ∀ a, (k0_off87 i) a + S1x1.size a ≤ S32x128.size a
  k0_off89_inb : ∀ i : grid0.Coords, ∀ a, (k0_off89 i) a + S1x1.size a ≤ S32x128.size a
  k0_off91_inb : ∀ i : grid0.Coords, ∀ a, (k0_off91 i) a + S1x1.size a ≤ S32x128.size a
  k0_off93_inb : ∀ i : grid0.Coords, ∀ a, (k0_off93 i) a + S1x1.size a ≤ S32x128.size a
  k0_off95_inb : ∀ i : grid0.Coords, ∀ a, (k0_off95 i) a + S1x1.size a ≤ S32x128.size a
  k0_off97_inb : ∀ i : grid0.Coords, ∀ a, (k0_off97 i) a + S1x1.size a ≤ S32x128.size a
  k0_off99_inb : ∀ i : grid0.Coords, ∀ a, (k0_off99 i) a + S1x1.size a ≤ S32x128.size a
  k0_off101_inb : ∀ i : grid0.Coords, ∀ a, (k0_off101 i) a + S1x1.size a ≤ S32x128.size a
  k0_off103_inb : ∀ i : grid0.Coords, ∀ a, (k0_off103 i) a + S1x1.size a ≤ S32x128.size a
  k0_off105_inb : ∀ i : grid0.Coords, ∀ a, (k0_off105 i) a + S1x1.size a ≤ S32x128.size a
  k0_off107_inb : ∀ i : grid0.Coords, ∀ a, (k0_off107 i) a + S1x1.size a ≤ S32x128.size a
  k0_off109_inb : ∀ i : grid0.Coords, ∀ a, (k0_off109 i) a + S1x1.size a ≤ S32x128.size a
  k0_off111_inb : ∀ i : grid0.Coords, ∀ a, (k0_off111 i) a + S1x1.size a ≤ S32x128.size a
  k0_off113_inb : ∀ i : grid0.Coords, ∀ a, (k0_off113 i) a + S1x1.size a ≤ S32x128.size a
  k0_off115_inb : ∀ i : grid0.Coords, ∀ a, (k0_off115 i) a + S1x1.size a ≤ S32x128.size a
  k0_off117_inb : ∀ i : grid0.Coords, ∀ a, (k0_off117 i) a + S1x1.size a ≤ S32x128.size a
  k0_off119_inb : ∀ i : grid0.Coords, ∀ a, (k0_off119 i) a + S1x1.size a ≤ S32x128.size a
  k0_off121_inb : ∀ i : grid0.Coords, ∀ a, (k0_off121 i) a + S1x1.size a ≤ S32x128.size a
  k0_off123_inb : ∀ i : grid0.Coords, ∀ a, (k0_off123 i) a + S1x1.size a ≤ S32x128.size a
  k0_off125_inb : ∀ i : grid0.Coords, ∀ a, (k0_off125 i) a + S1x1.size a ≤ S32x128.size a
  k0_off127_inb : ∀ i : grid0.Coords, ∀ a, (k0_off127 i) a + S1x1.size a ≤ S32x128.size a
  k0_off129_inb : ∀ i : grid0.Coords, ∀ a, (k0_off129 i) a + S1x1.size a ≤ S32x128.size a
  k0_off131_inb : ∀ i : grid0.Coords, ∀ a, (k0_off131 i) a + S1x1.size a ≤ S32x128.size a
  k0_off133_inb : ∀ i : grid0.Coords, ∀ a, (k0_off133 i) a + S1x1.size a ≤ S32x128.size a
  k0_off135_inb : ∀ i : grid0.Coords, ∀ a, (k0_off135 i) a + S1x1.size a ≤ S32x128.size a
  k0_off137_inb : ∀ i : grid0.Coords, ∀ a, (k0_off137 i) a + S1x1.size a ≤ S32x128.size a
  k0_off139_inb : ∀ i : grid0.Coords, ∀ a, (k0_off139 i) a + S1x1.size a ≤ S32x128.size a
  k0_off141_inb : ∀ i : grid0.Coords, ∀ a, (k0_off141 i) a + S1x1.size a ≤ S32x128.size a
  k0_off143_inb : ∀ i : grid0.Coords, ∀ a, (k0_off143 i) a + S1x1.size a ≤ S32x128.size a
  k0_off145_inb : ∀ i : grid0.Coords, ∀ a, (k0_off145 i) a + S1x1.size a ≤ S32x128.size a
  k0_off147_inb : ∀ i : grid0.Coords, ∀ a, (k0_off147 i) a + S1x1.size a ≤ S32x128.size a
  k0_off149_inb : ∀ i : grid0.Coords, ∀ a, (k0_off149 i) a + S1x1.size a ≤ S32x128.size a
  k0_off151_inb : ∀ i : grid0.Coords, ∀ a, (k0_off151 i) a + S1x1.size a ≤ S32x128.size a
  k0_off153_inb : ∀ i : grid0.Coords, ∀ a, (k0_off153 i) a + S1x1.size a ≤ S32x128.size a
  k0_off155_inb : ∀ i : grid0.Coords, ∀ a, (k0_off155 i) a + S1x1.size a ≤ S32x128.size a
  k0_off157_inb : ∀ i : grid0.Coords, ∀ a, (k0_off157 i) a + S1x1.size a ≤ S32x128.size a
  k0_off159_inb : ∀ i : grid0.Coords, ∀ a, (k0_off159 i) a + S1x1.size a ≤ S32x128.size a
  k0_off161_inb : ∀ i : grid0.Coords, ∀ a, (k0_off161 i) a + S1x1.size a ≤ S32x128.size a
  k0_off163_inb : ∀ i : grid0.Coords, ∀ a, (k0_off163 i) a + S1x1.size a ≤ S32x128.size a
  k0_off165_inb : ∀ i : grid0.Coords, ∀ a, (k0_off165 i) a + S1x1.size a ≤ S32x128.size a
  k0_off167_inb : ∀ i : grid0.Coords, ∀ a, (k0_off167 i) a + S1x1.size a ≤ S32x128.size a
  k0_off169_inb : ∀ i : grid0.Coords, ∀ a, (k0_off169 i) a + S1x1.size a ≤ S32x128.size a
  k0_off171_inb : ∀ i : grid0.Coords, ∀ a, (k0_off171 i) a + S1x1.size a ≤ S32x128.size a
  k0_off173_inb : ∀ i : grid0.Coords, ∀ a, (k0_off173 i) a + S1x1.size a ≤ S32x128.size a
  k0_off175_inb : ∀ i : grid0.Coords, ∀ a, (k0_off175 i) a + S1x1.size a ≤ S32x128.size a
  k0_off177_inb : ∀ i : grid0.Coords, ∀ a, (k0_off177 i) a + S1x1.size a ≤ S32x128.size a
  k0_off179_inb : ∀ i : grid0.Coords, ∀ a, (k0_off179 i) a + S1x1.size a ≤ S32x128.size a
  k0_off181_inb : ∀ i : grid0.Coords, ∀ a, (k0_off181 i) a + S1x1.size a ≤ S32x128.size a
  k0_off183_inb : ∀ i : grid0.Coords, ∀ a, (k0_off183 i) a + S1x1.size a ≤ S32x128.size a
  k0_off185_inb : ∀ i : grid0.Coords, ∀ a, (k0_off185 i) a + S1x1.size a ≤ S32x128.size a
  k0_off187_inb : ∀ i : grid0.Coords, ∀ a, (k0_off187 i) a + S1x1.size a ≤ S32x128.size a
  k0_off189_inb : ∀ i : grid0.Coords, ∀ a, (k0_off189 i) a + S1x1.size a ≤ S32x128.size a
  k0_off191_inb : ∀ i : grid0.Coords, ∀ a, (k0_off191 i) a + S1x1.size a ≤ S32x128.size a
  k0_off193_inb : ∀ i : grid0.Coords, ∀ a, (k0_off193 i) a + S1x1.size a ≤ S32x128.size a
  k0_off195_inb : ∀ i : grid0.Coords, ∀ a, (k0_off195 i) a + S1x1.size a ≤ S32x128.size a
  k0_off197_inb : ∀ i : grid0.Coords, ∀ a, (k0_off197 i) a + S1x1.size a ≤ S32x128.size a
  k0_off199_inb : ∀ i : grid0.Coords, ∀ a, (k0_off199 i) a + S1x1.size a ≤ S32x128.size a
  k0_off201_inb : ∀ i : grid0.Coords, ∀ a, (k0_off201 i) a + S1x1.size a ≤ S32x128.size a
  k0_off203_inb : ∀ i : grid0.Coords, ∀ a, (k0_off203 i) a + S1x1.size a ≤ S32x128.size a
  k0_off205_inb : ∀ i : grid0.Coords, ∀ a, (k0_off205 i) a + S1x1.size a ≤ S32x128.size a
  k0_off207_inb : ∀ i : grid0.Coords, ∀ a, (k0_off207 i) a + S1x1.size a ≤ S32x128.size a
  k0_off209_inb : ∀ i : grid0.Coords, ∀ a, (k0_off209 i) a + S1x1.size a ≤ S32x128.size a
  k0_off211_inb : ∀ i : grid0.Coords, ∀ a, (k0_off211 i) a + S1x1.size a ≤ S32x128.size a
  k0_off213_inb : ∀ i : grid0.Coords, ∀ a, (k0_off213 i) a + S1x1.size a ≤ S32x128.size a
  k0_off215_inb : ∀ i : grid0.Coords, ∀ a, (k0_off215 i) a + S1x1.size a ≤ S32x128.size a
  k0_off217_inb : ∀ i : grid0.Coords, ∀ a, (k0_off217 i) a + S1x1.size a ≤ S32x128.size a
  k0_off219_inb : ∀ i : grid0.Coords, ∀ a, (k0_off219 i) a + S1x1.size a ≤ S32x128.size a
  k0_off221_inb : ∀ i : grid0.Coords, ∀ a, (k0_off221 i) a + S1x1.size a ≤ S32x128.size a
  k0_off223_inb : ∀ i : grid0.Coords, ∀ a, (k0_off223 i) a + S1x1.size a ≤ S32x128.size a
  k0_off225_inb : ∀ i : grid0.Coords, ∀ a, (k0_off225 i) a + S1x1.size a ≤ S32x128.size a
  k0_off227_inb : ∀ i : grid0.Coords, ∀ a, (k0_off227 i) a + S1x1.size a ≤ S32x128.size a
  k0_off229_inb : ∀ i : grid0.Coords, ∀ a, (k0_off229 i) a + S1x1.size a ≤ S32x128.size a
  k0_off231_inb : ∀ i : grid0.Coords, ∀ a, (k0_off231 i) a + S1x1.size a ≤ S32x128.size a
  k0_off233_inb : ∀ i : grid0.Coords, ∀ a, (k0_off233 i) a + S1x1.size a ≤ S32x128.size a
  k0_off235_inb : ∀ i : grid0.Coords, ∀ a, (k0_off235 i) a + S1x1.size a ≤ S32x128.size a
  k0_off237_inb : ∀ i : grid0.Coords, ∀ a, (k0_off237 i) a + S1x1.size a ≤ S32x128.size a
  k0_off239_inb : ∀ i : grid0.Coords, ∀ a, (k0_off239 i) a + S1x1.size a ≤ S32x128.size a
  k0_off241_inb : ∀ i : grid0.Coords, ∀ a, (k0_off241 i) a + S1x1.size a ≤ S32x128.size a
  k0_off243_inb : ∀ i : grid0.Coords, ∀ a, (k0_off243 i) a + S1x1.size a ≤ S32x128.size a
  k0_off245_inb : ∀ i : grid0.Coords, ∀ a, (k0_off245 i) a + S1x1.size a ≤ S32x128.size a
  k0_off247_inb : ∀ i : grid0.Coords, ∀ a, (k0_off247 i) a + S1x1.size a ≤ S32x128.size a
  k0_off249_inb : ∀ i : grid0.Coords, ∀ a, (k0_off249 i) a + S1x1.size a ≤ S32x128.size a
  k0_off251_inb : ∀ i : grid0.Coords, ∀ a, (k0_off251 i) a + S1x1.size a ≤ S32x128.size a
  k0_off253_inb : ∀ i : grid0.Coords, ∀ a, (k0_off253 i) a + S1x1.size a ≤ S32x128.size a
  k0_off255_inb : ∀ i : grid0.Coords, ∀ a, (k0_off255 i) a + S1x1.size a ≤ S32x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x512.size a ≤ S32x4096x512.size a
  hwx0_0 : ∀ i : grid0.Coords, EltTy.bits .f32 = 32 ∨ (Rect.block (s := S32x4096x512) S1x4096x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S32x128x512.size a
  hwx0_1 : ∀ i : grid0.Coords, EltTy.bits .f32 = 32 ∨ (Rect.block (s := S32x128x512) S1x128x512.size (cc0_transform_1 i) (hinb0_1 i)).WholeWords (EltTy.packing .f32)

variable [Facts₀]

abbrev spec0_0 : Pipeline.WinSpec sig grid0.rank :=
  Pipeline.WinSpec.ofSpec (Memref.whole main_arg0) S1x4096x512.size reads0_0 false false 2 stage0_0 sem0_0 nbuf0_0 hstage0_0

abbrev spec0_1 : Pipeline.WinSpec sig grid0.rank :=
  Pipeline.WinSpec.ofSpec (Memref.whole main_v1) S1x128x512.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S32x4096x512 : Shape := ⟨3, ![32, 4096, 512]⟩
abbrev S32x128 : Shape := ⟨2, ![32, 128]⟩
abbrev S32x128x1 : Shape := ⟨3, ![32, 128, 1]⟩
abbrev S_ : Shape := ⟨0, ![]⟩
abbrev S1 : Shape := ⟨1, ![1]⟩
abbrev S1x1x1 : Shape := ⟨3, ![1, 1, 1]⟩
abbrev S32x128x512 : Shape := ⟨3, ![32, 128, 512]⟩

abbrev nBuf : Space → Nat
  | .hbm => 25
  | .vmem => 0
  | .smem => 0
  | _ => 0

abbrev bufTy : (tb : Table) → Fin (tcTables nBuf tb) → BufTy
  | .hbm, ⟨0, _⟩ => ⟨S32x4096x512, .f32⟩
  | .hbm, ⟨1, _⟩ => ⟨S32x128, .i32⟩
  | .hbm, ⟨2, _⟩ => ⟨S32x128x1, .i32⟩
  | .hbm, ⟨3, _⟩ => ⟨S_, .i32⟩
  | .hbm, ⟨4, _⟩ => ⟨S32x128x1, .i32⟩
  | .hbm, ⟨5, _⟩ => ⟨S32x128x1, .i1⟩
  | .hbm, ⟨6, _⟩ => ⟨S_, .i32⟩
  | .hbm, ⟨7, _⟩ => ⟨S32x128x1, .i32⟩
  | .hbm, ⟨8, _⟩ => ⟨S32x128x1, .i32⟩
  | .hbm, ⟨9, _⟩ => ⟨S32x128x1, .i32⟩
  | .hbm, ⟨10, _⟩ => ⟨S1, .i32⟩
  | .hbm, ⟨11, _⟩ => ⟨S_, .i32⟩
  | .hbm, ⟨12, _⟩ => ⟨S32x128x1, .i32⟩
  | .hbm, ⟨13, _⟩ => ⟨S32x128x1, .i1⟩
  | .hbm, ⟨14, _⟩ => ⟨S1x1x1, .i32⟩
  | .hbm, ⟨15, _⟩ => ⟨S32x128x1, .i32⟩
  | .hbm, ⟨16, _⟩ => ⟨S32x128x1, .i1⟩
  | .hbm, ⟨17, _⟩ => ⟨S32x128x1, .i1⟩
  | .hbm, ⟨18, _⟩ => ⟨S_, .i1⟩
  | .hbm, ⟨19, _⟩ => ⟨S32x128, .i1⟩
  | .hbm, ⟨20, _⟩ => ⟨S32x128x512, .f32⟩
  | .hbm, ⟨21, _⟩ => ⟨S32x128x512, .i1⟩
  | .hbm, ⟨22, _⟩ => ⟨S_, .f32⟩
  | .hbm, ⟨23, _⟩ => ⟨S32x128x512, .f32⟩
  | .hbm, ⟨24, _⟩ => ⟨S32x128x512, .f32⟩
  | _, _ => ⟨S32x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_c_1 : Ref sig .tc := ⟨.hbm, 10, rfl⟩
abbrev main_call0_c_2 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_3 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩

abbrev nD : Nat := 1
abbrev τ : Topo := Topo.v7x

variable {F : FTy → Type} [FloatOps F]

class Facts₀ : Prop where
  bcast_S32x128_S32x128x1_0_1 : S32x128.BroadcastsInDim S32x128x1 (![0, 1] : Fin 2 → Fin S32x128x1.rank)
  bcast_S_S32x128x1 : S_.BroadcastsInDim S32x128x1 (![] : Fin 0 → Fin S32x128x1.rank)
  bcast_S1_S1x1x1_2 : S1.BroadcastsInDim S1x1x1 (![2] : Fin 1 → Fin S1x1x1.rank)
  bcast_S1x1x1_S32x128x1_0_1_2 : S1x1x1.BroadcastsInDim S32x128x1 (![0, 1, 2] : Fin 3 → Fin S32x128x1.rank)
  reducesTo_S32x128x1_S32x128_d2 : S32x128x1.ReducesTo [2] S32x128
  h_S_ : 0 < S_.numel
  bcast_S32x128_S32x128x512_0_1 : S32x128.BroadcastsInDim S32x128x512 (![0, 1] : Fin 2 → Fin S32x128x512.rank)
  bcast_S_S32x128x512 : S_.BroadcastsInDim S32x128x512 (![] : Fin 0 → Fin S32x128x512.rank)
  gather_S32x4096x512_S32x128x1_S32x128x512_2_1_0_0_1_2_11512_wf : GatherDims.WF S32x4096x512 S32x128x1 S32x128x512 [2] [1] [0] [1] [0] 2 ![1, 1, 512]

variable [Facts₀]

def gather_S32x4096x512_S32x128x1_S32x128x512_2_1_0_0_1_2_11512 : GatherDims S32x4096x512 S32x128x1 S32x128x512 where
  offsetDims := [2]
  collapsedSliceDims := [1]
  operandBatchingDims := [0]
  startIndicesBatchingDims := [0]
  startIndexMap := [1]
  indexVectorDim := 2
  sliceSizes := ![1, 1, 512]
  wf := gather_S32x4096x512_S32x128x1_S32x128x512_2_1_0_0_1_2_11512_wf

class Facts : Prop extends Facts₀ where

variable [Facts]
-- ==== Proof.Words.lean ====
/-
  Signed 32-bit words that name a row of a 4096-row table.

  A position word `p` is *in range* when, read as a signed integer, it lies in `[0, 4096)`.  For such a word
  * clamping into `[0, 4095]` (a signed maximum with `0`, then a signed minimum with `4095`) leaves it unchanged;
  * numpy's wrap of a negative index (`p < 0 ? p + 4096 : p`) leaves it unchanged, and the bounds test
    `0 ≤ p ≤ 4095` that guards a filling gather holds;
  * its unsigned value is its signed value, hence below `4096`.
-/
import Idealize.ShloMosaic.PureOps

namespace Cert.GatherRows

open Idealize.ShloMosaic

/-- The word, read signed, is a row number of a 4096-row table. -/
def InRange (p : BitVec 32) : Prop := 0 ≤ p.toInt ∧ p.toInt < 4096

namespace InRange

variable {p : BitVec 32}

theorem toInt_zero : (0#32 : BitVec 32).toInt = 0 := by decide
theorem toInt_4095 : (4095#32 : BitVec 32).toInt = 4095 := by decide
theorem toInt_4096 : (4096#32 : BitVec 32).toInt = 4096 := by decide

/-- A non-negative signed word reads the same unsigned. -/
theorem toInt_eq_toNat (h : InRange p) : p.toInt = (p.toNat : Int) := by
  have h0 := h.1
  have hlt := p.isLt
  rw [BitVec.toInt_eq_toNat_cond] at h0 ⊢
  split
  · rfl
  · rename_i hc
    rw [if_neg hc] at h0
    omega

theorem toNat_lt (h : InRange p) : p.toNat < 4096 := by
  have h1 := h.2
  rw [h.toInt_eq_toNat] at h1
  omega

/-- The signed tests a word in range passes or fails. -/
theorem not_slt_zero (h : InRange p) : p.slt 0#32 = false := by
  simp only [BitVec.slt, toInt_zero]
  exact decide_eq_false (by have := h.1; omega)

theorem not_max_slt (h : InRange p) : (4095#32 : BitVec 32).slt p = false := by
  simp only [BitVec.slt, toInt_4095]
  exact decide_eq_false (by have := h.2; omega)

theorem zero_sle (h : InRange p) : (0#32 : BitVec 32).sle p = true := by
  simp only [BitVec.sle, toInt_zero]
  exact decide_eq_true h.1

theorem sle_max (h : InRange p) : p.sle 4095#32 = true := by
  simp only [BitVec.sle, toInt_4095]
  exact decide_eq_true (by have := h.2; omega)

/-- Clamping into `[0, 4095]` is the identity on a word in range. -/
theorem clamp_eq (h : InRange p) : IntOp.minsi 4095#32 (IntOp.maxsi 0#32 p) = p := by
  unfold IntOp.minsi IntOp.maxsi
  rw [h.not_slt_zero]
  simp only [Bool.false_eq_true, if_false]
  rw [h.not_max_slt]
  simp only [Bool.false_eq_true, if_false]

/-- The wrap of a negative index is the identity on a word in range. -/
theorem wrap_eq (h : InRange p) : Scalar.select (IntOp.cmpi .slt p 0#32) (IntOp.addi p 4096#32) p = p := by
  unfold IntOp.cmpi Scalar.select
  simp only [h.not_slt_zero]
  rfl

/-- The bounds test `0 ≤ p ∧ p ≤ 4095` holds of a word in range. -/
theorem bounds_eq (h : InRange p) : IntOp.andi (IntOp.cmpi .sge p 0#32) (IntOp.cmpi .sle p 4095#32) = 1#1 := by
  unfold IntOp.cmpi IntOp.andi
  simp only [h.zero_sle, h.sle_max]
  rfl

/-- The two signed comparisons `p ≥ 0` and `p < 4096`, both true, put the word in range. -/
theorem of_cmp (h0 : IntOp.cmpi .sge p 0#32 = 1#1) (h1 : IntOp.cmpi .slt p 4096#32 = 1#1) : InRange p := by
  unfold IntOp.cmpi at h0 h1
  simp only [BitVec.sle, BitVec.slt, toInt_zero, toInt_4096] at h0 h1
  constructor
  · by_contra hc
    rw [decide_eq_false hc] at h0
    exact absurd h0 (by decide)
  · by_contra hc
    rw [decide_eq_false hc] at h1
    exact absurd h1 (by decide)

end InRange

end Cert.GatherRows
-- ==== Proof.PreRange.lean ====
/-
  The precondition read back: every position word is a row number.

  The precondition is the conjunction of two `jnp.all`s, each printed as an `and`-reduction over every axis from the
  constant `true`: every entry of the float array is finite, and every entry `p` of the position array passes the two signed
  comparisons `p ≥ 0` and `p < 4096`.  If the whole predicate is `true`, the second reduction is, so each entry of the
  mask it reduces is `true`, so each position word is in range.
-/
import proofs.«428407_j4045859193032_2_alg».proof.Pre_finite_inputs
import proofs.«428407_j4045859193032_2_alg».proof.Proof.Words
import Idealize.ShloMosaic.Lib.ReduceAll
import Idealize.ShloMosaic.Lib.ValueIdx

namespace Cert.GatherRows

open Idealize.ShloMosaic

/-- A rank-0 shape has one index. -/
instance : Subsingleton Cert.Pre_finite_inputs.S_.Idx := ⟨fun _ _ => funext fun d => d.elim0⟩

/-- Under the precondition every position word, read signed, lies in `[0, 4096)`. -/
theorem pos_inRange {F : FTy → Type} [FloatOps F] [Cert.Pre_finite_inputs.Facts]
    (hs : FVec F Cert.Pre_finite_inputs.S32x4096x512 .f32) (pos : IVec Cert.Pre_finite_inputs.S32x128 32)
    (h : Cert.Pre_finite_inputs.fn (F := F) hs pos = fun _ => 1#1) (i : Cert.Pre_finite_inputs.S32x128.Idx) :
    InRange (pos i) := by
  have h0 := congrFun h ValueIdx.ix0
  dsimp only [Cert.Pre_finite_inputs.fn] at h0
  have h9 := (IntOp.andi_eq_one.1 h0).2
  have h8 := Host.reduce_andi_all _ _ _ _ _ h9 i
  obtain ⟨ha, hb⟩ := IntOp.andi_eq_one.1 h8
  exact InRange.of_cmp ha hb

end Cert.GatherRows
-- ==== Proof.Table.lean ====
/-
  The prefetched table is the position array, and every word the body reads from it names a row of the slab.

  Before the call the program clamps the positions into `[0, 4095]` (a signed maximum with `0`, then a signed minimum with
  `4095`) and hands the result to the call as its prefetched table.  Under the precondition every position already lies in
  `[0, 4096)`, so the clamp is the identity: the table IS the position array, and each of its words is below `4096` read
  unsigned.  That is what the body assumes of each of the 128 words it loads at a grid point (row `word` of the
  `[1, 4096, 512]` slab, one row high, must lie inside the slab); the pipeline's own side condition is empty, because no
  index map reads the table.
-/
import proofs.«428407_j4045859193032_2_alg».proof.Proof.Gen.KernelIdeal.Frame
import proofs.«428407_j4045859193032_2_alg».proof.Proof.PreRange
import Idealize.ShloMosaic.Lib.StableHlo.Run

set_option maxRecDepth 16384

noncomputable section

namespace Cert.KernelIdeal.Rows

open Cert.KernelIdeal Cert.KernelIdeal.Gen Cert.GatherRows
open Idealize.ShloMosaic Idealize.ShloMosaic.TcCoe Idealize.SL.Sem Idealize.ShloMosaic.StableHlo

variable {F : FTy → Type} [FloatOps F] [Cert.Pre_finite_inputs.Facts]
variable (m : (ℓ : Loc nD τ sig) → Buf (Elt F) ℓ)

/-- The precondition of this program's two argument arrays, on every device. -/
abbrev Pre : Prop := ∀ c : Dev nD,
  Cert.Pre_finite_inputs.fn (F := F) (m ((c.tc : Thread nD τ).loc main_arg0)) (m ((c.tc : Thread nD τ).loc main_arg1)) = fun _ => 1#1

/-- The position array as launched (on device 0, the program's one device). -/
abbrev pos : S32x128.Idx → BitVec 32 := m (((0 : Dev nD) : Thread nD τ).loc main_arg1)

/-- The table the region is entered with: the positions clamped into `[0, 4095]`. -/
theorem tbl_eq : (tbl m 0 : S32x128.Idx → BitVec 32)
    = minsi (broadcastInDim S32x128 ![] bcast_S_S32x128 (constantI S_ 32 4095#32))
        (maxsi (broadcastInDim S32x128 ![] bcast_S_S32x128 (constantI S_ 32 0#32)) (pos m)) := by
  unfold tbl
  show V m 0 main_v0 = _
  dsimp only [V]
  simp only [hostOps0, hostOps0_1, List.flatten_cons, List.flatten_nil, List.append_nil, List.cons_append, List.nil_append]
  after_results
  rfl

/-- One word of the table: the position word clamped. -/
theorem tbl_apply (x : S32x128.Idx) : tbl m 0 x = IntOp.minsi 4095#32 (IntOp.maxsi 0#32 (pos m x)) := by
  rw [tbl_eq]; rfl

/-- Under the precondition the clamp is the identity: the table is the position array. -/
theorem tbl_of_pre (h : Pre m) (x : S32x128.Idx) : tbl m 0 x = pos m x := by
  rw [tbl_apply]; exact (pos_inRange _ _ (h 0) x).clamp_eq

/-- and each of its words is below `4096`. -/
theorem tbl_lt (h : Pre m) (x : S32x128.Idx) : (tbl m 0 x).toNat < 4096 := by
  rw [tbl_of_pre m h]; exact (pos_inRange _ _ (h 0) x).toNat_lt

/-- A load of one word through the whole table reads the table at some index. -/
theorem word_eq (f : S32x128.Idx → BitVec 32) (r : LoadRect S32x128) (x : r.shape.Idx) :
    tbM0_0.view.readAt (Elt F) r f x = f (r.idx x) := rfl

/-- So every word the body can load from the table is below `4096`. -/
theorem word_lt (h : Pre m) (r : LoadRect S32x128) (x : r.shape.Idx) :
    (tbM0_0.view.readAt (Elt F) r (tbl m 0) x).toNat < 4096 :=
  tbl_lt m h (r.idx x)

/-- Row `w` of the `[1, 4096, 512]` slab, one row high, lies inside the slab when `w < 4096`. -/
theorem chk_of_lt (w : BitVec 32) (hw : w.toNat < 4096) :
    ∀ a, (![0, (Scalar.indexCast w).toNat, 0] : Fin 3 → Nat) a + S1x1x512.size a ≤ S1x4096x512.size a := by
  intro a
  have e : (Scalar.indexCast w).toNat = w.toNat := rfl
  fin_cases a <;> simp [e, S1x1x512, S1x4096x512] <;> omega

/-- No index map reads the table: the pipeline asks nothing of it. -/
theorem ok_of_pre : Ok m := trivial

/-- Every word the body loads at a grid point names a row inside the slab. -/
theorem hyps_of_pre (h : Pre m) (hO : Ok m) : Hyps m hO := by
  intro c t
  repeat' apply And.intro
  all_goals
    exact chk_of_lt _ (word_lt m h _ _)

end Cert.KernelIdeal.Rows

end
-- ==== Proof.TableKernel.lean ====
/-
  The prefetched table is the position array, and every word the body reads from it names a row of the slab.

  Before the call the program clamps the positions into `[0, 4095]` (a signed maximum with `0`, then a signed minimum with
  `4095`) and hands the result to the call as its prefetched table.  Under the precondition every position already lies in
  `[0, 4096)`, so the clamp is the identity: the table IS the position array, and each of its words is below `4096` read
  unsigned.  That is what the body assumes of each of the 128 words it loads at a grid point (row `word` of the
  `[1, 4096, 512]` slab, one row high, must lie inside the slab); the pipeline's own side condition is empty, because no
  index map reads the table.
-/
import proofs.«428407_j4045859193032_2_alg».proof.Proof.Gen.Kernel.Frame
import proofs.«428407_j4045859193032_2_alg».proof.Proof.PreRange
import Idealize.ShloMosaic.Lib.StableHlo.Run

set_option maxRecDepth 16384

noncomputable section

namespace Cert.Kernel.Rows

open Cert.Kernel Cert.Kernel.Gen Cert.GatherRows
open Idealize.ShloMosaic Idealize.ShloMosaic.TcCoe Idealize.SL.Sem Idealize.ShloMosaic.StableHlo

variable {F : FTy → Type} [FloatOps F] [Cert.Pre_finite_inputs.Facts]
variable (m : (ℓ : Loc nD τ sig) → Buf (Elt F) ℓ)

/-- The precondition of this program's two argument arrays, on every device. -/
abbrev Pre : Prop := ∀ c : Dev nD,
  Cert.Pre_finite_inputs.fn (F := F) (m ((c.tc : Thread nD τ).loc main_arg0)) (m ((c.tc : Thread nD τ).loc main_arg1)) = fun _ => 1#1

/-- The position array as launched (on device 0, the program's one device). -/
abbrev pos : S32x128.Idx → BitVec 32 := m (((0 : Dev nD) : Thread nD τ).loc main_arg1)

/-- The table the region is entered with: the positions clamped into `[0, 4095]`. -/
theorem tbl_eq : (tbl m 0 : S32x128.Idx → BitVec 32)
    = minsi (broadcastInDim S32x128 ![] bcast_S_S32x128 (constantI S_ 32 4095#32))
        (maxsi (broadcastInDim S32x128 ![] bcast_S_S32x128 (constantI S_ 32 0#32)) (pos m)) := by
  unfold tbl
  show V m 0 main_v0 = _
  dsimp only [V]
  simp only [hostOps0, hostOps0_1, List.flatten_cons, List.flatten_nil, List.append_nil, List.cons_append, List.nil_append]
  after_results
  rfl

/-- One word of the table: the position word clamped. -/
theorem tbl_apply (x : S32x128.Idx) : tbl m 0 x = IntOp.minsi 4095#32 (IntOp.maxsi 0#32 (pos m x)) := by
  rw [tbl_eq]; rfl

/-- Under the precondition the clamp is the identity: the table is the position array. -/
theorem tbl_of_pre (h : Pre m) (x : S32x128.Idx) : tbl m 0 x = pos m x := by
  rw [tbl_apply]; exact (pos_inRange _ _ (h 0) x).clamp_eq

/-- and each of its words is below `4096`. -/
theorem tbl_lt (h : Pre m) (x : S32x128.Idx) : (tbl m 0 x).toNat < 4096 := by
  rw [tbl_of_pre m h]; exact (pos_inRange _ _ (h 0) x).toNat_lt

/-- A load of one word through the whole table reads the table at some index. -/
theorem word_eq (f : S32x128.Idx → BitVec 32) (r : LoadRect S32x128) (x : r.shape.Idx) :
    tbM0_0.view.readAt (Elt F) r f x = f (r.idx x) := rfl

/-- So every word the body can load from the table is below `4096`. -/
theorem word_lt (h : Pre m) (r : LoadRect S32x128) (x : r.shape.Idx) :
    (tbM0_0.view.readAt (Elt F) r (tbl m 0) x).toNat < 4096 :=
  tbl_lt m h (r.idx x)

/-- Row `w` of the `[1, 4096, 512]` slab, one row high, lies inside the slab when `w < 4096`. -/
theorem chk_of_lt (w : BitVec 32) (hw : w.toNat < 4096) :
    ∀ a, (![0, (Scalar.indexCast w).toNat, 0] : Fin 3 → Nat) a + S1x1x512.size a ≤ S1x4096x512.size a := by
  intro a
  have e : (Scalar.indexCast w).toNat = w.toNat := rfl
  fin_cases a <;> simp [e, S1x1x512, S1x4096x512] <;> omega

/-- No index map reads the table: the pipeline asks nothing of it. -/
theorem ok_of_pre : Ok m := trivial

/-- Every word the body loads at a grid point names a row inside the slab. -/
theorem hyps_of_pre (h : Pre m) (hO : Ok m) : Hyps m hO := by
  intro c t
  repeat' apply And.intro
  all_goals
    exact chk_of_lt _ (word_lt m h _ _)

end Cert.Kernel.Rows

end
-- ==== Proof.Spec.lean ====
/-
  The result both programs compute: a batched gather of rows.

  For a float array `hs : [32, 4096, 512]` and a position array `pos : [32, 128]` of 32-bit words, the result at
  `(b, s, d)` is `hs[b, r, d]` with the row `r = pos[b, s]` (read unsigned and capped at the last row, so that the
  function is total; on positions in range the cap does nothing).  Also here: an `and`-reduction of an all-true mask
  from `true` is `true`.
-/
import Idealize.ShloMosaic.PureOps
import Idealize.ShloMosaic.PureOps.Reduce
import Idealize.ShloMosaic.Lib.ValueIdx

namespace Cert.GatherRows

open Idealize.ShloMosaic Idealize.ShloMosaic.ValueIdx

/-- Entry `(b, r, d)` of a `[32, 4096, 512]` array, from coordinates as naturals. -/
abbrev at3 {α : Type} (hs : (⟨3, ![32, 4096, 512]⟩ : Shape).Idx → α) (b r d : Nat) (hb : b < 32) (hr : r < 4096) (hd : d < 512) : α :=
  hs (ix3 (⟨b, hb⟩ : Fin 32) (⟨r, hr⟩ : Fin 4096) (⟨d, hd⟩ : Fin 512))

/-- Two entries of one array in the same batch and lane are equal when their rows are. -/
theorem at3_congr {α : Type} (hs : (⟨3, ![32, 4096, 512]⟩ : Shape).Idx → α) (b r r' d : Nat) (hb : b < 32) (hr : r < 4096)
    (hr' : r' < 4096) (hd : d < 512) (e : r = r') : at3 hs b r d hb hr hd = at3 hs b r' d hb hr' hd := by
  subst e; rfl

/-- Word `(b, s)` of a `[32, 128]` array, from coordinates as naturals. -/
abbrev at2 {α : Type} (pos : (⟨2, ![32, 128]⟩ : Shape).Idx → α) (b s : Nat) (hb : b < 32) (hs : s < 128) : α :=
  pos (ix2 (⟨b, hb⟩ : Fin 32) (⟨s, hs⟩ : Fin 128))

/-- THE RESULT: at `(b, s, d)`, row `pos[b, s]` of batch `b` of `hs`, at lane `d`. -/
def gatherRows {α : Type} (hs : (⟨3, ![32, 4096, 512]⟩ : Shape).Idx → α) (pos : (⟨2, ![32, 128]⟩ : Shape).Idx → BitVec 32) :
    (⟨3, ![32, 128, 512]⟩ : Shape).Idx → α :=
  fun j => at3 hs (j 0).val (min (at2 pos (j 0).val (j 1).val (j 0).isLt (j 1).isLt).toNat 4095) (j 2).val
    (j 0).isLt (by omega) (j 2).isLt

/-- A left fold by `and` from `true` over words that are all `true` is `true`. -/
theorem foldl_andi_ones {ι : Type} (f : ι → BitVec 1) (hf : ∀ n, f n = 1#1) :
    ∀ l : List ι, l.foldl (fun r n => IntOp.andi r (f n)) 1#1 = 1#1
  | [] => rfl
  | a :: l => by
    have e : IntOp.andi 1#1 1#1 = 1#1 := by decide
    rw [List.foldl_cons, hf a, e]
    exact foldl_andi_ones f hf l

/-- An `and`-reduction, from `true`, of a mask that is `true` everywhere is `true` everywhere. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

end Cert.GatherRows
-- ==== Proof.KernelRows.lean ====
/-
  What the body leaves in the output block at a grid point: 128 gathered rows.

  At grid point `b` the body walks `s = 0 … 127`: it loads the table word `w = table[b, s]`, loads row `w` of the input
  slab `[1, 4096, 512]` and stores it (through a reshape to `[512]` and back, which changes nothing) as row `s` of the
  output block `[1, 128, 512]`.  The 128 stores tile the block, so the block ends as ONE function of its index: at
  `(0, s, d)` it holds the slab at `(0, table[b, s], d)`.  The list of stores is rebuilt by recursion on the row, so that
  "each store is that function on its row" is an induction and not 128 cases.
-/
import proofs.«428407_j4045859193032_2_alg».proof.Proof.Table
import proofs.«428407_j4045859193032_2_alg».proof.Proof.Spec
import Idealize.ShloMosaic.Lib.Pipeline.Value
import Idealize.ShloMosaic.Lib.Tactic

set_option maxRecDepth 16384

noncomputable section

namespace Cert.KernelIdeal.Rows

open Cert.KernelIdeal Cert.KernelIdeal.Gen Cert.GatherRows
open Idealize.ShloMosaic Idealize.ShloMosaic.TcCoe Idealize.ShloMosaic.Tactic Idealize.SL.Sem
open Idealize.ShloMosaic.ValueIdx

variable {F : FTy → Type} [FloatOps F]

/-- Index `(0, r, d)` of the input slab. -/
abbrev slabIdx (r d : Nat) (hr : r < 4096) (hd : d < 512) : S1x4096x512.Idx :=
  ix3 (⟨0, Nat.one_pos⟩ : Fin 1) (⟨r, hr⟩ : Fin 4096) (⟨d, hd⟩ : Fin 512)

/-- Index `(b, s)` of the table. -/
abbrev tblIdx (b s : Nat) (hb : b < 32) (hs : s < 128) : S32x128.Idx :=
  ix2 (⟨b, hb⟩ : Fin 32) (⟨s, hs⟩ : Fin 128)

/-- The block the body leaves at grid point `b`, from the slab `x0` and the table `xt0`: row `s` of the block is row
    `xt0[b, s]` of the slab (capped at the last row, so that the function is total). -/
def blockRows (x0 : Vec F S1x4096x512 .f32) (xt0 : S32x128.Idx → BitVec 32) (b : Nat) (hb : b < 32) :
    S1x128x512.Idx → Elt F .f32 :=
  fun y => x0 (slabIdx (min (xt0 (tblIdx b (y 1).val hb (y 1).isLt)).toNat 4095) (y 2).val (by omega) (y 2).isLt)

/-- A grid coordinate, as the body computes it from its 32-bit program id, is the coordinate. -/
theorem coord_toNat (i : grid0.Coords) : (Scalar.indexCast (BitVec.ofNat 32 (i 0).val)).toNat = (i 0).val := by
  have h : (i 0).val < 32 := (i 0).isLt
  show (BitVec.ofNat 32 (i 0).val).toNat = (i 0).val
  rw [BitVec.toNat_ofNat]
  exact Nat.mod_eq_of_lt (by omega)

/-- A load through a whole staging buffer that holds `X` reads `X` at the rectangle. -/
theorem readAt_unread {S : Shape} (M : Memref sig .tc .vmem S .f32) (h : M.IsWhole) (X : S.Idx → Elt F .f32) (r : Rect S) :
    M.view.readAt (Elt F) r (h.unread X) = View.ld X r := by
  rw [View.readAt_eq_ld, h.read_unread]

/-- ONE STORE: the row loaded at the word read from the table at `(b, s)`, stored at row `s` of the block, is the
    block function at the indices the store covers. -/
theorem piece_rows (x0 : Vec F S1x4096x512 .f32) (xt0 : S32x128.Idx → BitVec 32) (i : grid0.Coords)
    (s : Nat) (inbS : ∀ a, (![0, s, 0] : Fin 3 → Nat) a + S1x1x512.size a ≤ S1x128x512.size a)
    (offT : Fin 2 → Nat) (hT : offT = ![(Scalar.indexCast (BitVec.ofNat 32 (i 0).val)).toNat, s])
    (inbT : ∀ a, offT a + S1x1.size a ≤ S32x128.size a) (h1 : 0 < S1x1.numel)
    (offR : BitVec 32 → Fin 3 → Nat) (hR : ∀ w, offR w = ![0, (Scalar.indexCast w).toNat, 0])
    (inbR : ∀ a, offR (tbM0_0.view.readAt (Elt F) (Rect.unit (s := S32x128) offT S1x1.size inbT).toLoadRect xt0 (Shape.Idx.first h1)) a
      + S1x1x512.size a ≤ S1x4096x512.size a)
    (x : S1x1x512.Idx) :
    View.ld x0 (Rect.unit (s := S1x4096x512)
        (offR (tbM0_0.view.readAt (Elt F) (Rect.unit (s := S32x128) offT S1x1.size inbT).toLoadRect xt0 (Shape.Idx.first h1)))
        S1x1x512.size inbR) x
      = blockRows x0 xt0 (i 0).val (i 0).isLt ((Rect.unit (s := S1x128x512) ![0, s, 0] S1x1x512.size inbS).emb x) := by
  subst hT
  have hs : s < 128 := by
    have := inbS 1
    simp only [S1x1x512, S1x128x512] at this
    exact Nat.lt_of_succ_le (by simpa using this)
  have hx0 : (x 0).val < 1 := (x 0).isLt
  have hx1 : (x 1).val < 1 := (x 1).isLt
  -- the word read is the table at (b, s)
  have hw : tbM0_0.view.readAt (Elt F) (Rect.unit (s := S32x128) ![(Scalar.indexCast (BitVec.ofNat 32 (i 0).val)).toNat, s] S1x1.size inbT).toLoadRect xt0 (Shape.Idx.first h1)
      = xt0 (tblIdx (i 0).val s (i 0).isLt hs) := by
    show xt0 _ = xt0 _
    refine congrArg xt0 (funext fun a => Fin.ext ?_)
    match a with
    | ⟨0, _⟩ =>
      show (Scalar.indexCast (BitVec.ofNat 32 (i 0).val)).toNat + 1 * 0 = (i 0).val
      rw [coord_toNat]; omega
    | ⟨1, _⟩ =>
      show s + 1 * 0 = s
      omega
  have hle := inbR 1
  rw [hR] at hle
  generalize tbM0_0.view.readAt (Elt F) (Rect.unit (s := S32x128) ![(Scalar.indexCast (BitVec.ofNat 32 (i 0).val)).toNat, s] S1x1.size inbT).toLoadRect xt0 (Shape.Idx.first h1) = w at hw hle inbR ⊢
  have hle' : w.toNat + 1 ≤ 4096 := by
    have e : (Scalar.indexCast w).toNat = w.toNat := rfl
    simpa [S1x1x512, S1x4096x512, e] using hle
  have hx2 : (x 2).val < 512 := (x 2).isLt
  -- the store's rectangle places the local index at (0, s, lane)
  have e : (Rect.unit (s := S1x128x512) ![0, s, 0] S1x1x512.size inbS).emb x
      = ix3 (⟨0, Nat.one_pos⟩ : Fin 1) (⟨s, hs⟩ : Fin 128) (⟨(x 2).val, hx2⟩ : Fin 512) := by
    funext a; refine Fin.ext ?_
    match a with
    | ⟨0, _⟩ => show 0 + 1 * (x 0).val = 0; omega
    | ⟨1, _⟩ => show s + 1 * (x 1).val = s; omega
    | ⟨2, _⟩ => show 0 + 1 * (x 2).val = (x 2).val; omega
  rw [e]
  show x0 _ = x0 _
  refine congrArg x0 (funext fun a => Fin.ext ?_)
  match a with
  | ⟨0, _⟩ =>
    show offR w 0 + 1 * (x 0).val = 0
    rw [hR]; show 0 + 1 * (x 0).val = 0; omega
  | ⟨1, _⟩ =>
    show offR w 1 + 1 * (x 1).val = min (xt0 (tblIdx (i 0).val s (i 0).isLt hs)).toNat 4095
    rw [← hw, hR]
    show w.toNat + 1 * (x 1).val = min w.toNat 4095
    omega
  | ⟨2, _⟩ =>
    show offR w 2 + 1 * (x 2).val = (x 2).val
    rw [hR]; show 0 + 1 * (x 2).val = (x 2).val; omega

/-! ## The stores of one grid point, as a list built row by row

The body's run leaves its 128 stores as a list, last store first.  The same list is built here by recursion on the
number of rows, so that what is true of every store is proved once, by induction, instead of store by store. -/

section Pieces

variable (M : Memref sig .tc .vmem S1x4096x512 .f32) (hM : M.IsWhole) (x0 : Vec F S1x4096x512 .f32)
  (xt0 : S32x128.Idx → BitVec 32) (i : grid0.Coords)

/-- Word `(b, s)` of the table is inside the table. -/
theorem inbT (s : Nat) (hs : s < 128) :
    ∀ a, (![(Scalar.indexCast (BitVec.ofNat 32 (i 0).val)).toNat, s] : Fin 2 → Nat) a + S1x1.size a ≤ S32x128.size a := by
  intro a
  have hb : (i 0).val < 32 := (i 0).isLt
  have e := coord_toNat i
  fin_cases a <;> simp [e, S1x1, S32x128] <;> omega

/-- Row `s` of the block is inside the block. -/
theorem inbS (s : Nat) (hs : s < 128) : ∀ a, (![0, s, 0] : Fin 3 → Nat) a + S1x1x512.size a ≤ S1x128x512.size a := by
  intro a
  fin_cases a <;> simp [S1x1x512, S1x128x512] <;> omega

/-- The table word the body loads for row `s` at grid point `i`. -/
def wordAt (s : Nat) (hs : s < 128) : BitVec 32 :=
  tbM0_0.view.readAt (Elt F) (Rect.unit (s := S32x128) ![(Scalar.indexCast (BitVec.ofNat 32 (i 0).val)).toNat, s] S1x1.size
    (inbT i s hs)).toLoadRect xt0 (Shape.Idx.first (numel1_S1x1.symm ▸ Nat.one_pos))

/-- Row `w` of the slab, one row high, is inside the slab. -/
def RowIn (w : BitVec 32) : Prop :=
  ∀ a, (![0, (Scalar.indexCast w).toNat, 0] : Fin 3 → Nat) a + S1x1x512.size a ≤ S1x4096x512.size a

/-- The store for row `s`: row `table[b, s]` of the slab, reshaped to `[512]` and back, at row `s` of the block. -/
def pieceAt (s : Nat) (hs : s < 128) (hw : RowIn (wordAt (F := F) xt0 i s hs)) : View.Piece (Elt F) S1x128x512 .f32 :=
  ⟨Rect.unit (s := S1x128x512) ![0, s, 0] S1x1x512.size (inbS s hs),
    shapeCast S1x1x512 (shapeCast S512 (M.view.readAt (Elt F)
      (Rect.unit (s := S1x4096x512) ![0, (Scalar.indexCast (wordAt (F := F) xt0 i s hs)).toNat, 0] S1x1x512.size hw).toLoadRect
      (hM.unread x0)) shapeCasts_S1x1x512_S512) shapeCasts_S512_S1x1x512⟩

/-- The stores for rows `n − 1, …, 0`, last first. -/
def piecesUpTo (hw : ∀ s hs, RowIn (wordAt (F := F) xt0 i s hs)) : (n : Nat) → n ≤ 128 → List (View.Piece (Elt F) S1x128x512 .f32)
  | 0, _ => []
  | n + 1, h => pieceAt M hM x0 xt0 i n (by omega) (hw n _) :: piecesUpTo hw n (by omega)

/-- ONE STORE is the block function on the row it covers. -/
theorem pieceAt_ok (s : Nat) (hs : s < 128) (hw : RowIn (wordAt (F := F) xt0 i s hs)) (x : S1x1x512.Idx) :
    shapeCast S1x1x512 (shapeCast S512 (M.view.readAt (Elt F)
        (Rect.unit (s := S1x4096x512) ![0, (Scalar.indexCast (wordAt (F := F) xt0 i s hs)).toNat, 0] S1x1x512.size hw).toLoadRect
        (hM.unread x0)) shapeCasts_S1x1x512_S512) shapeCasts_S512_S1x1x512 x
      = blockRows x0 xt0 (i 0).val (i 0).isLt ((Rect.unit (s := S1x128x512) ![0, s, 0] S1x1x512.size (inbS s hs)).emb x) := by
  rw [shapeCast_shapeCast, readAt_unread]
  exact piece_rows x0 xt0 i s (inbS s hs) _ rfl (inbT i s hs) _
    (fun w => ![0, (Scalar.indexCast w).toNat, 0]) (fun _ => rfl) hw x

/-- EVERY STORE of the list is, by induction on the number of rows. -/
theorem pieces_ok (hw : ∀ s hs, RowIn (wordAt (F := F) xt0 i s hs)) :
    ∀ (n : Nat) (h : n ≤ 128) (p : View.Piece (Elt F) S1x128x512 .f32), p ∈ piecesUpTo M hM x0 xt0 i hw n h →
      ∀ x : p.1.shape.Idx, p.2 x = blockRows x0 xt0 (i 0).val (i 0).isLt (p.1.emb x)
  | 0, _, p, hp => absurd hp (List.not_mem_nil)
  | n + 1, h, p, hp => by
    rcases List.mem_cons.mp hp with rfl | hp'
    · exact pieceAt_ok M hM x0 xt0 i n _ _
    · exact pieces_ok hw n _ p hp'

end Pieces

variable [Cert.Pre_finite_inputs.Facts]
variable (m : (ℓ : Loc nD τ sig) → Buf (Elt F) ℓ)

/-- The input slab at grid point `t`: batch `t` of the float array, as the region stages it. -/
abbrev slab (hO : Ok m) (c : Dev nD) (t : Fin (cfgM m hO).N) : Vec F S1x4096x512 .f32 := iblk m hO c 0 t

set_option maxRecDepth 131072 in
set_option maxHeartbeats 6400000 in
/-- THE BLOCK AFTER THE BODY at grid point `t`: the run's stores are that list (they are the same terms), they tile the
    block, and each is the block function on its row, so the block is that function everywhere. -/
theorem outsAt_apply (h : Pre m) (hO : Ok m) (hH : Hyps m hO) (c : Dev nD) (t : Fin (cfgM m hO).N) (y : S1x128x512.Idx) :
    outsAt0 m hO hH c t y
      = blockRows (slab m hO c t) (tbl m 0) ((grid0.coords t) 0).val ((grid0.coords t) 0).isLt y := by
  unfold outsAt0 out0_A_1
  refine (View.read_writes_apply_eq_canon _ _ y _ (cover0_A_1 c ..)).trans ?_
  refine View.canon_apply_of_pieces _ _ ?_ y (cover0_A_1 c ..)
  exact pieces_ok (ms0_0 m hO t) (hs0_0 m hO t) (slab m hO c t) (tbl m 0) (grid0.coords t)
    (fun s hs => chk_of_lt _ (word_lt m h _ _)) 128 (Nat.le_refl _)

end Cert.KernelIdeal.Rows

end
-- ==== Proof.KernelFinal.lean ====
/-
  From the block at each grid point to the whole result array, and the kernel's run.

  Grid point `t` stages batch `b = t` of the float array as the input slab and writes its output block back as batch `b` of
  the `[32, 128, 512]` result.  The block holds, at `(0, s, d)`, the slab's row `table[b, s]`; the slab's row `r` is row `r` of
  batch `b` of the float array; and under the precondition the table is the position array.  So what point `t` writes
  back is block `t` of ONE array, `hs[b, pos[b, s], d]`; the 32 blocks tile the result, which therefore ends holding
  exactly that array.
-/
import proofs.«428407_j4045859193032_2_alg».proof.Proof.KernelRows

set_option maxRecDepth 16384

noncomputable section

namespace Cert.KernelIdeal.Rows

open Cert.KernelIdeal Cert.KernelIdeal.Gen Cert.GatherRows
open Idealize.ShloMosaic Idealize.ShloMosaic.TcCoe Idealize.SL.Sem
open Idealize.ShloMosaic.ValueIdx
open Idealize.ShloMosaic.Pipeline (Dat)

variable {F : FTy → Type} [FloatOps F] [Cert.Pre_finite_inputs.Facts]
variable (m : (ℓ : Loc nD τ sig) → Buf (Elt F) ℓ) (ρ : Dev nD → PrngReg)

/-! ## The two windows' block indices, at any admissible contents of the table (no index map reads it) -/

theorem word_toNat (n : Nat) (hn : n < 32) : (BitVec.ofNat 32 n).toNat = n := by
  rw [BitVec.toNat_ofNat]; exact Nat.mod_eq_of_lt (by omega)

/-- The input window's block at point `t` is batch `t`, whole. -/
theorem index_in (a : (pcfg0 (F := F)).Adm) (t : Fin (cfg0 a).N) :
    ((cfg0 a).win 0).index t = ![((grid0.coords t) 0).val, 0, 0] := by
  show cc0_transform_0 (grid0.coords t) = _
  unfold cc0_transform_0
  simp only []
  rw [word_toNat _ ((grid0.coords t) 0).isLt]
  rfl

/-- The output window's block at point `t` is batch `t`, whole. -/
theorem index_out (a : (pcfg0 (F := F)).Adm) (t : Fin (cfg0 a).N) :
    ((cfg0 a).win 1).index t = ![((grid0.coords t) 0).val, 0, 0] := by
  show cc0_transform_1 (grid0.coords t) = _
  unfold cc0_transform_1
  simp only []
  rw [word_toNat _ ((grid0.coords t) 0).isLt]
  rfl

/-- Every batch is some grid point's. -/
theorem batch_onto : ∀ q : Fin 32, ∃ t : Fin grid0.N, ((grid0.coords t) 0).val = q.val := by decide +kernel

/-! ## The slab is a batch of the float array -/

/-- Row `r`, lane `d` of the slab staged at point `t` is entry `(t, r, d)` of the float array as launched. -/
theorem slab_apply (hO : Ok m) (c : Dev nD) (t : Fin (cfgM m hO).N) (r d : Nat) (hr : r < 4096) (hd : d < 512) :
    slab m hO c t (slabIdx r d hr hd)
      = at3 (m ((c : Thread nD τ).loc main_arg0)) ((grid0.coords t) 0).val r d ((grid0.coords t) 0).isLt hr hd := by
  unfold slab iblk
  show V m c main_arg0 _ = _
  rw [V_main_arg0]
  refine congrArg (m ((c : Thread nD τ).loc main_arg0)) (funext fun a => Fin.ext ?_)
  have hi := index_in (adm m hO) t
  match a with
  | ⟨0, _⟩ =>
    show ((cfgM m hO).win 0).index t (0 : Fin 3) * 1 + 1 * 0 = ((grid0.coords t) 0).val
    rw [hi]; show ((grid0.coords t) 0).val * 1 + 1 * 0 = _; omega
  | ⟨1, _⟩ =>
    show ((cfgM m hO).win 0).index t (1 : Fin 3) * 4096 + 1 * r = r
    rw [hi]; show 0 * 4096 + 1 * r = r; omega
  | ⟨2, _⟩ =>
    show ((cfgM m hO).win 0).index t (2 : Fin 3) * 512 + 1 * d = d
    rw [hi]; show 0 * 512 + 1 * d = d; omega

/-! ## What each point writes back, and the array after the run -/

/-- THE RESULT ARRAY: the gathered rows of the two argument arrays as launched. -/
abbrev result (c : Dev nD) : Buf (Elt F) ((c : Thread nD τ).loc main_v1) :=
  gatherRows (m ((c : Thread nD τ).loc main_arg0)) (m ((c : Thread nD τ).loc main_arg1))

/-- Where index `(0, s, d)` of point `t`'s output block sits in the array: at `(t, s, d)`. -/
theorem out_emb (hO : Ok m) (t : Fin (cfgM m hO).N) (y : S1x128x512.Idx) :
    ((((cfgM m hO).win 1).blk t).view.emb y : S32x128x512.Idx)
      = ix3 (⟨((grid0.coords t) 0).val, ((grid0.coords t) 0).isLt⟩ : Fin 32) (⟨(y 1).val, (y 1).isLt⟩ : Fin 128)
          (⟨(y 2).val, (y 2).isLt⟩ : Fin 512) := by
  have hy0 : (y 0).val < 1 := (y 0).isLt
  have hi := index_out (adm m hO) t
  funext a; refine Fin.ext ?_
  match a with
  | ⟨0, _⟩ =>
    show ((cfgM m hO).win 1).index t (0 : Fin 3) * 1 + 1 * (y 0).val = ((grid0.coords t) 0).val
    rw [hi]; show ((grid0.coords t) 0).val * 1 + 1 * (y 0).val = _; omega
  | ⟨1, _⟩ =>
    show ((cfgM m hO).win 1).index t (1 : Fin 3) * 128 + 1 * (y 1).val = (y 1).val
    rw [hi]; show 0 * 128 + 1 * (y 1).val = _; omega
  | ⟨2, _⟩ =>
    show ((cfgM m hO).win 1).index t (2 : Fin 3) * 512 + 1 * (y 2).val = (y 2).val
    rw [hi]; show 0 * 512 + 1 * (y 2).val = _; omega

/-- The block after the body at point `t`, at `(0, s, d)`, is the result array at `(t, s, d)`. -/
theorem block_apply (h : Pre m) (hO : Ok m) (hH : Hyps m hO) (t : Fin (cfgM m hO).N) (y : S1x128x512.Idx) :
    outsAt0 m hO hH 0 t y
      = result m 0 (ix3 (⟨((grid0.coords t) 0).val, ((grid0.coords t) 0).isLt⟩ : Fin 32) (⟨(y 1).val, (y 1).isLt⟩ : Fin 128)
          (⟨(y 2).val, (y 2).isLt⟩ : Fin 512)) := by
  rw [outsAt_apply m h]
  unfold blockRows
  refine (slab_apply m hO 0 t _ _ _ _).trans ?_
  unfold result gatherRows
  refine at3_congr _ _ _ _ _ _ _ _ _ ?_
  rw [tbl_of_pre m h]

/-- WHAT POINT `t` WRITES BACK is block `t` of the result array. -/
theorem flushed_eq (h : Pre m) (hO : Ok m) (hH : Hyps m hO) (c : Dev nD) (t : Fin (cfgM m hO).N) :
    (dats m hO hH 0 c).flushed 1 t = (((cfgM m hO).win 1).blk t).view.read (Elt F) (result m c) := by
  obtain rfl : c = 0 := Subsingleton.elim _ _
  show ((cfgM m hO).win 1).cut (grid0.coords t) ((dats m hO hH 0 0).after 1 t) = _
  rw [after0_1]
  funext y
  exact (block_apply m h hO hH t y).trans (congrArg (result m 0) (out_emb m hO t y).symm)

/-- Every index of the result is in some point's block: `(b, s, d)` is index `(0, s, d)` of point `b`'s. -/
theorem cover (hO : Ok m) (i : S32x128x512.Idx) :
    ∃ t : Fin (cfgM m hO).N, ((cfgM m hO).win 1).flush t = true ∧ i ∈ (((cfgM m hO).win 1).blk t).view.set := by
  obtain ⟨t, ht⟩ := batch_onto ⟨(i 0).val, (i 0).isLt⟩
  refine ⟨t, flush0_1 (adm m hO) t, ?_⟩
  have e : i = (((cfgM m hO).win 1).blk t).view.emb
      (ix3 (⟨0, Nat.one_pos⟩ : Fin 1) (⟨(i 1).val, (i 1).isLt⟩ : Fin 128) (⟨(i 2).val, (i 2).isLt⟩ : Fin 512)) := by
    rw [out_emb]
    funext a; refine Fin.ext ?_
    match a with
    | ⟨0, _⟩ => exact ht.symm
    | ⟨1, _⟩ => rfl
    | ⟨2, _⟩ => rfl
  rw [e]
  exact View.emb_mem_set _ _

/-- THE ARRAY AFTER THE RUN: the 32 blocks tile it, so it holds the gathered rows everywhere. -/
theorem final (h : Pre m) (hO : Ok m) (hH : Hyps m hO) (c : Dev nD) :
    (dats m hO hH 0 c).arrAt 1 (cfgM m hO).N = result m c :=
  (dats m hO hH 0 c).arrAt_eq_of_cover 1 (result m c) (fun t _ => flushed_eq m h hO hH c t) (cover m hO)

/-! ## The run, read -/

/-- Under the precondition every weakly fair execution terminates with the result array at the gathered rows and both
    argument arrays unchanged. -/
theorem run (h : Pre m) : θ_run defs (onTc (τ := τ) (main (F := F))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ hr c =>
      ⟨((hr c).1 1).trans (final m h (ok_of_pre m) (hyps_of_pre m h _) c),
        ((hr c).1 0).trans (((dats m (ok_of_pre m) (hyps_of_pre m h _) 0 c).arrAt_in 0 rfl _).trans
          ((A_eq m (ok_of_pre m) (hyps_of_pre m h _) c 0).trans (V_main_arg0 m c))),
        ((hr c).2 main_arg1 (by decide : main_arg1 ∈ Pipeline.restRefs sig spec0)).trans (V_main_arg1 m c)⟩)
    (run_main m ρ (ok_of_pre m) (hyps_of_pre m h _))

end Cert.KernelIdeal.Rows

end
-- ==== Proof.RefRows.lean ====
/-
  The reference computes the gathered rows.

  The reference wraps a negative position (`p < 0 ? p + 4096 : p`), gathers row `p` of batch `b` (the start index read signed
  and clamped into the array), and keeps the gathered value only where `0 ≤ p ≤ 4095`, filling the rest.  On a position in
  range the wrap does nothing, the bounds test passes and the clamp does nothing: the result at `(b, s, d)` is
  `hs[b, pos[b, s], d]`.
-/
import proofs.«428407_j4045859193032_2_alg».proof.Proof.Gen.ReferenceIdeal.Read
import proofs.«428407_j4045859193032_2_alg».proof.Proof.Words
import proofs.«428407_j4045859193032_2_alg».proof.Proof.Spec

noncomputable section

namespace Cert.ReferenceIdeal.Rows

open Cert.ReferenceIdeal Cert.ReferenceIdeal.Gen Cert.ReferenceIdeal.Read Cert.GatherRows
open Idealize.ShloMosaic Idealize.ShloMosaic.ValueIdx

variable {F : FTy → Type} [FloatOps F]

/-- The gather's dimension numbers: batch axis 0 of both operands, the start index naming a row (axis 1, collapsed),
    a whole row of 512 lanes taken (offset axis 2). -/
abbrev gd : GatherDims S32x4096x512 S32x128x1 S32x128x512 := gather_S32x4096x512_S32x128x1_S32x128x512_2_1_0_0_1_2_11512

/-- The start-indices index `(b, s, 0)` under result index `(b, s, d)`. -/
abbrev siOf (j : S32x128x512.Idx) : S32x128x1.Idx := fun a => match a with
  | ⟨0, _⟩ => ⟨(j 0).val, (j 0).isLt⟩
  | ⟨1, _⟩ => ⟨(j 1).val, (j 1).isLt⟩
  | ⟨2, _⟩ => ⟨0, Nat.one_pos⟩

/-- The operand index the gather reads, axis by axis.  Axis 0 is the batch axis: the result's batch coordinate. -/
theorem operandIdx_batch (idx : IVec S32x128x1 32) (j : S32x128x512.Idx) : (gd.operandIdx j idx 0).val = (j 0).val := by
  show gd.start j idx 0 + gd.batchCoord j 0 + gd.offCoord j 0 = _
  have hb : (0 : Fin 3) ∈ gd.operandBatchingDims := List.mem_singleton.mpr rfl
  rw [gd.start_batching j idx _ hb, gd.offCoord_eq_zero j _ (fun h => ((gd.mem_sKept _).mp h).2 hb)]
  unfold GatherDims.batchCoord
  rw [dif_pos hb, Nat.zero_add, Nat.add_zero]
  rfl

/-- Axis 1 is the gathered axis: the start index, read signed and clamped into `[0, 4095]`. -/
theorem operandIdx_row (idx : IVec S32x128x1 32) (j : S32x128x512.Idx) :
    (gd.operandIdx j idx 1).val = min (idx (siOf j)).toInt.toNat 4095 := by
  show gd.start j idx 1 + gd.batchCoord j 1 + gd.offCoord j 1 = _
  have hnb : (1 : Fin 3) ∉ gd.operandBatchingDims := fun h => absurd (List.mem_singleton.mp h) (by decide)
  have hc : (1 : Fin 3) ∈ gd.collapsedSliceDims := List.mem_singleton.mpr rfl
  have hm : (1 : Fin 3) ∈ gd.startIndexMap := List.mem_singleton.mpr rfl
  rw [gd.batchCoord_eq_zero j _ hnb, gd.offCoord_eq_zero j _ (fun h => ((gd.mem_sKept _).mp h).1 hc)]
  unfold GatherDims.start
  rw [dif_pos hm]
  have hsi : gd.siIdx j ⟨List.idxOf (1 : Fin 3) gd.startIndexMap, List.idxOf_lt_length_iff.2 hm⟩ = siOf j := by
    funext b; refine Fin.ext ?_
    match b with
    | ⟨0, _⟩ => rfl
    | ⟨1, _⟩ => rfl
    | ⟨2, _⟩ => rfl
  rw [hsi]
  rfl

/-- Axis 2 is the offset axis: the result's lane. -/
theorem operandIdx_lane (idx : IVec S32x128x1 32) (j : S32x128x512.Idx) : (gd.operandIdx j idx 2).val = (j 2).val := by
  show gd.start j idx 2 + gd.batchCoord j 2 + gd.offCoord j 2 = _
  have hnb : (2 : Fin 3) ∉ gd.operandBatchingDims := fun h => absurd (List.mem_singleton.mp h) (by decide)
  have hnc : (2 : Fin 3) ∉ gd.collapsedSliceDims := fun h => absurd (List.mem_singleton.mp h) (by decide)
  have hnm : (2 : Fin 3) ∉ gd.startIndexMap := fun h => absurd (List.mem_singleton.mp h) (by decide)
  have hk : (2 : Fin 3) ∈ gd.sKept := (gd.mem_sKept _).mpr ⟨hnc, hnb⟩
  rw [gd.batchCoord_eq_zero j _ hnb]
  unfold GatherDims.start GatherDims.offCoord
  rw [dif_neg hnm, dif_pos hk]
  simp only [Nat.zero_add]
  rfl

/-- THE GATHER READ AT `(b, s, d)`: the operand at `(b, r, d)`, `r` the start index `idx[b, s, 0]` read signed and clamped
    into `[0, 4095]`. -/
theorem gather_apply {α : Type} (x : S32x4096x512.Idx → α) (idx : IVec S32x128x1 32) (j : S32x128x512.Idx) :
    Host.gather gd x idx j
      = at3 x (j 0).val (min (idx (siOf j)).toInt.toNat 4095) (j 2).val (j 0).isLt (by omega) (j 2).isLt := by
  unfold Host.gather
  refine congrArg x (funext fun a => Fin.ext ?_)
  match a with
  | ⟨0, _⟩ => exact operandIdx_batch idx j
  | ⟨1, _⟩ => exact operandIdx_row idx j
  | ⟨2, _⟩ => exact operandIdx_lane idx j

/-- A position word in range reads the same signed as unsigned. -/
theorem toInt_toNat {p : BitVec 32} (h : InRange p) : p.toInt.toNat = p.toNat := by
  rw [h.toInt_eq_toNat]; exact Int.toNat_natCast _

/-- ON POSITIONS IN RANGE THE REFERENCE'S RESULT IS THE GATHERED ROWS. -/
theorem ref_eq (hs : (⟨S32x4096x512, .f32⟩ : BufTy).Contents (Elt F)) (pos : (⟨S32x128, .i32⟩ : BufTy).Contents (Elt F))
    (hp : ∀ k, InRange (pos k)) : val_main_v1 (F := F) hs pos = gatherRows hs pos := by
  funext i
  -- the wrapped index is the position itself
  have hv4 : ∀ k : S32x128x1.Idx, val_main_call0_v4 (F := F) pos k = pos (idx_main_v0 k) := by
    intro k
    rw [val_main_call0_v4_apply, val_main_call0_v1_apply, val_main_call0_v3_apply, val_main_v0_apply,
      val_main_call0_v0_apply, val_main_call0_v2_apply, val_main_call0_c_apply, val_main_call0_c_0_apply]
    exact (hp _).wrap_eq
  -- the bounds test passes everywhere
  have hv10 : ∀ k : S32x128x1.Idx, val_main_call0_v10 (F := F) pos k = 1#1 := by
    intro k
    rw [val_main_call0_v10_apply, val_main_call0_v6_apply, val_main_call0_v9_apply, hv4, val_main_call0_v5_apply,
      val_main_call0_c_2_apply, val_main_call0_v8_apply, val_main_call0_v7_apply, val_main_call0_c_1_apply]
    exact (hp _).bounds_eq
  have hv11 : ∀ k : S32x128.Idx, val_main_call0_v11 (F := F) pos k = 1#1 := fun k =>
    reduce_andi_ones _ _ _ _ hv10 (fun _ => rfl) k
  rw [val_main_v1_apply, val_main_call0_v13_apply, hv11, select_one]
  unfold val_main_call0_v12
  rw [gather_apply]
  unfold gatherRows
  refine at3_congr hs _ _ _ _ _ _ _ _ ?_
  rw [hv4, toInt_toNat (hp _)]
  refine congrArg (fun p : BitVec 32 => min p.toNat 4095) (congrArg pos (funext fun a => ?_))
  match a with
  | ⟨0, _⟩ => rfl
  | ⟨1, _⟩ => rfl

end Cert.ReferenceIdeal.Rows

end
-- ==== Proof.lean ====
/-
  A batched gather of rows: `out[b, s, :] = hidden_states[b, pos[b, s], :]` over `hidden_states : f32[32, 4096, 512]` and
  `pos : i32[32, 128]`, under the precondition that every float is finite and every position lies in `[0, 4096)`.

  The kernel clamps the positions into `[0, 4095]`, hands them to the call as a prefetched table, and at grid point `b`
  copies, for `s = 0 … 127`, row `table[b, s]` of batch `b` into row `s` of the output block.  The reference wraps negative
  positions, gathers (clamping the start index) and masks out-of-range positions.  On positions in range the clamp, the
  wrap, the mask and the gather's own clamp all do nothing, and both programs produce the same array, element by element:
  no arithmetic is done on the floats, so the equality holds at any reading of them.

  * the frames: the body assumes that each word it loads from the table names a row inside the slab; the table's words
    are clamped, hence (under the precondition: equal to the positions, hence) below 4096;
  * `preserves`: the idealization rewrote nothing;
  * `algebraic`: the kernel's result array is the gathered rows (the 128 stores of a grid point tile its block, the 32
    blocks tile the array), and so is the reference's.
-/
import proofs.«428407_j4045859193032_2_alg».proof.Defs
import proofs.«428407_j4045859193032_2_alg».proof.Proof.Gen.Kernel
import proofs.«428407_j4045859193032_2_alg».proof.Proof.Gen.Kernel.Frame
import proofs.«428407_j4045859193032_2_alg».proof.Proof.Gen.KernelIdeal
import proofs.«428407_j4045859193032_2_alg».proof.Proof.Gen.KernelIdeal.Frame
import proofs.«428407_j4045859193032_2_alg».proof.Proof.Gen.ReferenceIdeal
import proofs.«428407_j4045859193032_2_alg».proof.Proof.Gen.Pre_finite_inputs
import proofs.«428407_j4045859193032_2_alg».proof.Proof.Gen.ReferenceIdeal.Run
import proofs.«428407_j4045859193032_2_alg».proof.Proof.Gen.ReferenceIdeal.Read
import proofs.«428407_j4045859193032_2_alg».proof.Proof.Table
import proofs.«428407_j4045859193032_2_alg».proof.Proof.TableKernel
import proofs.«428407_j4045859193032_2_alg».proof.Proof.KernelFinal
import proofs.«428407_j4045859193032_2_alg».proof.Proof.RefRows
import Idealize.ShloMosaic.Adequacy
import Idealize.ShloMosaic.Init

noncomputable section

namespace Cert.Proof

open Idealize.ShloMosaic Idealize.SL.Sem

/-- The word-level kernel runs and keeps its arguments: the table's words name rows inside the slab. -/
theorem frame_kernel : Cert.frame_Kernel := fun m ρ h =>
  Cert.Kernel.Gen.frame m ρ (Cert.Kernel.Rows.ok_of_pre m) (Cert.Kernel.Rows.hyps_of_pre m h _)

/-- The idealized kernel likewise. -/
theorem frame_kernelIdeal : Cert.frame_KernelIdeal := fun m ρ h =>
  Cert.KernelIdeal.Gen.frame m ρ (Cert.KernelIdeal.Rows.ok_of_pre m) (Cert.KernelIdeal.Rows.hyps_of_pre m h _)

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the gathered rows of the arguments. -/
theorem algebraic : Cert.algebraic_KernelIdeal_ReferenceIdeal := by
  intro m ρ m' ρ' hpre hagree
  refine ⟨fun c => Cert.KernelIdeal.Rows.result m c, Cert.KernelIdeal.Rows.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, (hagree c).1, (hagree c).2]
  exact Cert.ReferenceIdeal.Rows.ref_eq _ _ (fun k => Cert.GatherRows.pos_inRange _ _ (hpre c) k)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
